-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg2 : IVec S640000 32) (main_v31 : IVec S_ 1) (main_v32 : IVec S640000 32) : IVec S_ 1 :=
  let main_v33 : IVec S640000 1 := cmpi .sge main_arg2 main_v32
  let main_c_13 : IVec S_ 1 := constantI S_ 1 1#1
  let main_v34 : IVec S_ 1 := (fun x v => Host.reduce IntOp.andi x v reducesTo_S640000_S_d0 h_S_) main_v33 main_c_13
  let main_v35 : IVec S_ 1 := andi main_v31 main_v34
  let main_c_14 : IVec S_ 32 := constantI S_ 32 100000#32
  let main_v36 : IVec S640000 32 := broadcastInDim S640000 ![] bcast_S_S640000 main_c_14
  let main_v37 : IVec S640000 1 := cmpi .slt main_arg2 main_v36
  let main_c_15 : IVec S_ 1 := constantI S_ 1 1#1
  let main_v38 : IVec S_ 1 := (fun x v => Host.reduce IntOp.andi x v reducesTo_S640000_S_d0 h_S_) main_v37 main_c_15
  let main_v39 : IVec S_ 1 := andi main_v35 main_v38
  main_v39

def fn_part1 {F : FTy → Type} [FloatOps F] (main_arg1 : IVec S640000 32) (main_arg2 : IVec S640000 32) (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S640000 32 := broadcastInDim S640000 ![] bcast_S_S640000 main_c_8
  let main_v25 : IVec S640000 1 := cmpi .sge main_arg1 main_v24
  let main_c_9 : IVec S_ 1 := constantI S_ 1 1#1
  let main_v26 : IVec S_ 1 := (fun x v => Host.reduce IntOp.andi x v reducesTo_S640000_S_d0 h_S_) main_v25 main_c_9
  let main_v27 : IVec S_ 1 := andi main_v23 main_v26
  let main_c_10 : IVec S_ 32 := constantI S_ 32 100000#32
  let main_v28 : IVec S640000 32 := broadcastInDim S640000 ![] bcast_S_S640000 main_c_10
  let main_v29 : IVec S640000 1 := cmpi .slt main_arg1 main_v28
  let main_c_11 : IVec S_ 1 := constantI S_ 1 1#1
  let main_v30 : IVec S_ 1 := (fun x v => Host.reduce IntOp.andi x v reducesTo_S640000_S_d0 h_S_) main_v29 main_c_11
  let main_v31 : IVec S_ 1 := andi main_v27 main_v30
  let main_c_12 : IVec S_ 32 := constantI S_ 32 0#32
  let main_v32 : IVec S640000 32 := broadcastInDim S640000 ![] bcast_S_S640000 main_c_12
  fn_part2 (F := F) main_arg2 main_v31 main_v32

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S256x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x1 .f32 := Host.absf main_arg5
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg1 main_arg2 main_arg6 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S128x1 : Shape := ⟨2, ![128, 1]⟩
abbrev S1x128 : Shape := ⟨2, ![1, 128]⟩
abbrev S2x128 : Shape := ⟨2, ![2, 128]⟩
abbrev S_ : Shape := ⟨0, ![]⟩
abbrev S100000x2 : Shape := ⟨2, ![100000, 2]⟩
abbrev S10000x128 : Shape := ⟨2, ![10000, 128]⟩
abbrev S10000x2 : Shape := ⟨2, ![10000, 2]⟩
abbrev S10000 : Shape := ⟨1, ![10000]⟩
abbrev S10000x1 : Shape := ⟨2, ![10000, 1]⟩
abbrev S100000x1 : Shape := ⟨2, ![100000, 1]⟩
abbrev S100000 : Shape := ⟨1, ![100000]⟩
abbrev S640000x1 : Shape := ⟨2, ![640000, 1]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩
abbrev S640000x128 : Shape := ⟨2, ![640000, 128]⟩

abbrev nBuf : Space → Nat
  | .hbm => 119
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S128x1, .f32⟩
  | .hbm, ⟨8, _⟩ => ⟨S128x1, .f32⟩
  | .hbm, ⟨9, _⟩ => ⟨S128x1, .f32⟩
  | .hbm, ⟨10, _⟩ => ⟨S128, .f32⟩
  | .hbm, ⟨11, _⟩ => ⟨S128x1, .f32⟩
  | .hbm, ⟨12, _⟩ => ⟨S128, .f32⟩
  | .hbm, ⟨13, _⟩ => ⟨S1x128, .f32⟩
  | .hbm, ⟨14, _⟩ => ⟨S1x128, .f32⟩
  | .hbm, ⟨15, _⟩ => ⟨S2x128, .f32⟩
  | .hbm, ⟨16, _⟩ => ⟨S128, .f32⟩
  | .hbm, ⟨17, _⟩ => ⟨S128, .f32⟩
  | .hbm, ⟨18, _⟩ => ⟨S_, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S100000x2, .f32⟩
  | .hbm, ⟨28, _⟩ => ⟨S100000x1, .f32⟩
  | .hbm, ⟨29, _⟩ => ⟨S100000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S1, .i32⟩
  | .hbm, ⟨39, _⟩ => ⟨S_, .i32⟩
  | .hbm, ⟨40, _⟩ => ⟨S640000x1, .i32⟩
  | .hbm, ⟨41, _⟩ => ⟨S640000x1, .i1⟩
  | .hbm, ⟨42, _⟩ => ⟨S1x1, .i32⟩
  | .hbm, ⟨43, _⟩ => ⟨S640000x1, .i32⟩
  | .hbm, ⟨44, _⟩ => ⟨S640000x1, .i1⟩
  | .hbm, ⟨45, _⟩ => ⟨S640000x1, .i1⟩
  | .hbm, ⟨46, _⟩ => ⟨S_, .i1⟩
  | .hbm, ⟨47, _⟩ => ⟨S640000, .i1⟩
  | .hbm, ⟨48, _⟩ => ⟨S640000, .f32⟩
  | .hbm, ⟨49, _⟩ => ⟨S_, .f32⟩
  | .hbm, ⟨50, _⟩ => ⟨S640000, .f32⟩
  | .hbm, ⟨51, _⟩ => ⟨S640000, .f32⟩
  | .hbm, ⟨52, _⟩ => ⟨S640000, .f32⟩
  | .hbm, ⟨53, _⟩ => ⟨S640000, .f32⟩
  | .hbm, ⟨54, _⟩ => ⟨S100000x1, .f32⟩
  | .hbm, ⟨55, _⟩ => ⟨S100000, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S1, .i32⟩
  | .hbm, ⟨65, _⟩ => ⟨S_, .i32⟩
  | .hbm, ⟨66, _⟩ => ⟨S640000x1, .i32⟩
  | .hbm, ⟨67, _⟩ => ⟨S640000x1, .i1⟩
  | .hbm, ⟨68, _⟩ => ⟨S1x1, .i32⟩
  | .hbm, ⟨69, _⟩ => ⟨S640000x1, .i32⟩
  | .hbm, ⟨70, _⟩ => ⟨S640000x1, .i1⟩
  | .hbm, ⟨71, _⟩ => ⟨S640000x1, .i1⟩
  | .hbm, ⟨72, _⟩ => ⟨S_, .i1⟩
  | .hbm, ⟨73, _⟩ => ⟨S640000, .i1⟩
  | .hbm, ⟨74, _⟩ => ⟨S640000, .f32⟩
  | .hbm, ⟨75, _⟩ => ⟨S_, .f32⟩
  | .hbm, ⟨76, _⟩ => ⟨S640000, .f32⟩
  | .hbm, ⟨77, _⟩ => ⟨S640000, .f32⟩
  | .hbm, ⟨78, _⟩ => ⟨S_, .f32⟩
  | .hbm, ⟨79, _⟩ => ⟨S_, .f32⟩
  | .hbm, ⟨80, _⟩ => ⟨S640000, .f32⟩
  | .hbm, ⟨81, _⟩ => ⟨S_, .f32⟩
  | .hbm, ⟨82, _⟩ => ⟨S_, .f32⟩
  | .hbm, ⟨83, _⟩ => ⟨S640000, .f32⟩
  | .hbm, ⟨84, _⟩ => ⟨S5000x128, .f32⟩
  | .hbm, ⟨85, _⟩ => ⟨S5000x128, .f32⟩
  | .hbm, ⟨86, _⟩ => ⟨S5000x128, .f32⟩
  | .hbm, ⟨87, _⟩ => ⟨S640000, .f32⟩
  | .hbm, ⟨88, _⟩ => ⟨S640000x1, .f32⟩
  | .hbm, ⟨89, _⟩ => ⟨S_, .i32⟩
  | .hbm, ⟨90, _⟩ => ⟨S640000, .i32⟩
  | .hbm, ⟨91, _⟩ => ⟨S640000, .i1⟩
  | .hbm, ⟨92, _⟩ => ⟨S_, .i32⟩
  | .hbm, ⟨93, _⟩ => ⟨S640000, .i32⟩
  | .hbm, ⟨94, _⟩ => ⟨S640000, .i32⟩
  | .hbm, ⟨95, _⟩ => ⟨S640000, .i32⟩
  | .hbm, ⟨96, _⟩ => ⟨S640000x1, .i32⟩
  | .hbm, ⟨97, _⟩ => ⟨S1, .i32⟩
  | .hbm, ⟨98, _⟩ => ⟨S_, .i32⟩
  | .hbm, ⟨99, _⟩ => ⟨S640000x1, .i32⟩
  | .hbm, ⟨100, _⟩ => ⟨S640000x1, .i1⟩
  | .hbm, ⟨101, _⟩ => ⟨S1x1, .i32⟩
  | .hbm, ⟨102, _⟩ => ⟨S640000x1, .i32⟩
  | .hbm, ⟨103, _⟩ => ⟨S640000x1, .i1⟩
  | .hbm, ⟨104, _⟩ => ⟨S640000x1, .i1⟩
  | .hbm, ⟨105, _⟩ => ⟨S_, .i1⟩
  | .hbm, ⟨106, _⟩ => ⟨S640000, .i1⟩
  | .hbm, ⟨107, _⟩ => ⟨S640000x128, .f32⟩
  | .hbm, ⟨108, _⟩ => ⟨S640000x128, .i1⟩
  | .hbm, ⟨109, _⟩ => ⟨S_, .f32⟩
  | .hbm, ⟨110, _⟩ => ⟨S640000x128, .f32⟩
  | .hbm, ⟨111, _⟩ => ⟨S640000x128, .f32⟩
  | .hbm, ⟨112, _⟩ => ⟨S640000x128, .f32⟩
  | .hbm, ⟨113, _⟩ => ⟨S640000x128, .f32⟩
  | .hbm, ⟨114, _⟩ => ⟨S_, .f32⟩
  | .hbm, ⟨115, _⟩ => ⟨S100000x128, .f32⟩
  | .hbm, ⟨116, _⟩ => ⟨S640000x1, .i32⟩
  | .hbm, ⟨117, _⟩ => ⟨S100000x128, .f32⟩
  | .hbm, ⟨118, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S2x128, .f32⟩
  | .local _ .vmem, ⟨3, _⟩ => ⟨S10000x2, .f32⟩
  | .local _ .vmem, ⟨4, _⟩ => ⟨S10000x2, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_cst : Ref sig .tc := ⟨.hbm, 49, rfl⟩
abbrev main_call0_v14 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_cst : Ref sig .tc := ⟨.hbm, 75, rfl⟩
abbrev main_call1_v14 : Ref sig .tc := ⟨.hbm, 76, rfl⟩
abbrev main_v26 : Ref sig .tc := ⟨.hbm, 77, rfl⟩
abbrev main_cst_1 : Ref sig .tc := ⟨.hbm, 78, rfl⟩
abbrev main_call2_v0 : Ref sig .tc := ⟨.hbm, 79, rfl⟩
abbrev main_v27 : Ref sig .tc := ⟨.hbm, 80, rfl⟩
abbrev main_cst_2 : Ref sig .tc := ⟨.hbm, 81, rfl⟩
abbrev main_call3_v0 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_call4_c : Ref sig .tc := ⟨.hbm, 89, rfl⟩
abbrev main_call4_v0 : Ref sig .tc := ⟨.hbm, 90, rfl⟩
abbrev main_call4_v1 : Ref sig .tc := ⟨.hbm, 91, rfl⟩
abbrev main_call4_c_0 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_c_1 : Ref sig .tc := ⟨.hbm, 97, rfl⟩
abbrev main_call4_c_2 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_3 : Ref sig .tc := ⟨.hbm, 105, rfl⟩
abbrev main_call4_v12 : Ref sig .tc := ⟨.hbm, 106, rfl⟩
abbrev main_call4_v13 : Ref sig .tc := ⟨.hbm, 107, rfl⟩
abbrev main_call4_v14 : Ref sig .tc := ⟨.hbm, 108, rfl⟩
abbrev main_call4_cst : Ref sig .tc := ⟨.hbm, 109, rfl⟩
abbrev main_call4_v15 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_cst_3 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S5000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S5000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S5000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S256x1_S128x1_0_0 : S256x1.Slices ![0, 0] S128x1
  slices_S256x1_S128x1_128_0 : S256x1.Slices ![128, 0] S128x1
  shapeCasts_S128x1_S128 : S128x1.ShapeCasts S128
  bcast_S128_S1x128_1 : S128.BroadcastsInDim S1x128 (![1] : Fin 1 → Fin S1x128.rank)
  concatenates_S1x128_S1x128_S2x128_d0 : Shape.Concatenates [S1x128, S1x128] S2x128 0
  reducesTo_S128_S_d0 : S128.ReducesTo [0] S_
  h_S_ : 0 < S_.numel
  shapeCasts_S1_S_ : S1.ShapeCasts S_
  inb_S10000x128_S10000x128_0_0 : ∀ a, (![0, 0] : Fin 2 → Nat) a + S10000x128.size a ≤ S10000x128.size a
  h_S10000x128 : 0 < S10000x128.numel
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S2x128_o0_0_S1x128 : S2x128.Slices ![0, 0] S1x128
  slices_S2x128_o1_0_S1x128 : S2x128.Slices ![1, 0] S1x128
  broadcasts_S1x128_S10000x128 : S1x128.Broadcasts S10000x128
  reduces_S10000x128_S10000 : S10000x128.Reduces [1] S10000
  shapeCasts_S10000_S10000x1 : S10000.ShapeCasts S10000x1
  concatenates_S10000x1_S10000x1_S10000x2_d1 : Shape.Concatenates [S10000x1, S10000x1] S10000x2 1
  inb_S10000x2_S10000x2_0_0 : ∀ a, (![0, 0] : Fin 2 → Nat) a + S10000x2.size a ≤ S10000x2.size a
  h_S10000x2 : 0 < S10000x2.numel
  slices_S100000x2_S100000x1_0_0 : S100000x2.Slices ![0, 0] S100000x1
  shapeCasts_S100000x1_S100000 : S100000x1.ShapeCasts S100000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  slices_S100000x2_S100000x1_0_1 : S100000x2.Slices ![0, 1] S100000x1
  pads_S640000_S640000_000 : S640000.Pads (![0] : Fin 1 → Nat) ![0] ![0] S640000
  shapeCasts_S640000_S5000x128 : S640000.ShapeCasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  reduces_S5000x1_S1 : S5000x1.Reduces [0] S1
  shapeCasts_S1_S1x1 : S1.ShapeCasts S1x1
  broadcasts_S1x1_S5000x128 : S1x1.Broadcasts S5000x128
  shapeCasts_S5000x128_S640000 : S5000x128.ShapeCasts S640000
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S10000x128_S10000x128 : S10000x128.ShapeCasts S10000x128
  dot_S128x128_S128x1_S128x1_1_0_0_1_n_n_wf : DotDims.WF S128x128 S128x1 S128x1 [1] [0] [0] [1] [] []
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x2.size a ≤ S100000x2.size a
  hwx0_2 : ∀ i : grid0.Coords, EltTy.bits .f32 = 32 ∨ (Rect.block (s := S100000x2) S10000x2.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S5000x128.size a
  hwx1_0 : ∀ i : grid1.Coords, EltTy.bits .f32 = 32 ∨ (Rect.block (s := S5000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S5000x128.size a
  hwx1_1 : ∀ i : grid1.Coords, EltTy.bits .f32 = 32 ∨ (Rect.block (s := S5000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S5000x128.size a
  hwx1_2 : ∀ i : grid1.Coords, EltTy.bits .f32 = 32 ∨ (Rect.block (s := S5000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S10000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S256x1, .f32⟩
  | .hbm, ⟨6, _⟩ => ⟨S1, .f32⟩
  | .hbm, ⟨7, _⟩ => ⟨S100000x128, .f32⟩
  | .hbm, ⟨8, _⟩ => ⟨S1x128, .f32⟩
  | .hbm, ⟨9, _⟩ => ⟨S100000x128, .f32⟩
  | .hbm, ⟨10, _⟩ => ⟨S100000x128, .f32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x256, .f32⟩
  | .hbm, ⟨30, _⟩ => ⟨S640000x1, .f32⟩
  | .hbm, ⟨31, _⟩ => ⟨S1x1, .f32⟩
  | .hbm, ⟨32, _⟩ => ⟨S640000x1, .f32⟩
  | .hbm, ⟨33, _⟩ => ⟨S640000x1, .f32⟩
  | .hbm, ⟨34, _⟩ => ⟨S_, .f32⟩
  | .hbm, ⟨35, _⟩ => ⟨S_, .f32⟩
  | .hbm, ⟨36, _⟩ => ⟨S640000x1, .f32⟩
  | .hbm, ⟨37, _⟩ => ⟨S640000x1, .i1⟩
  | .hbm, ⟨38, _⟩ => ⟨S_, .f32⟩
  | .hbm, ⟨39, _⟩ => ⟨S640000x1, .f32⟩
  | .hbm, ⟨40, _⟩ => ⟨S640000x1, .f32⟩
  | .hbm, ⟨41, _⟩ => ⟨S640000x1, .f32⟩
  | .hbm, ⟨42, _⟩ => ⟨S_, .f32⟩
  | .hbm, ⟨43, _⟩ => ⟨S1, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S640000x1, .f32⟩
  | .hbm, ⟨49, _⟩ => ⟨S640000x1, .f32⟩
  | .hbm, ⟨50, _⟩ => ⟨S640000x1, .f32⟩
  | .hbm, ⟨51, _⟩ => ⟨S_, .f32⟩
  | .hbm, ⟨52, _⟩ => ⟨S1, .f32⟩
  | .hbm, ⟨53, _⟩ => ⟨S1x1, .f32⟩
  | .hbm, ⟨54, _⟩ => ⟨S640000x1, .f32⟩
  | .hbm, ⟨55, _⟩ => ⟨S640000x1, .f32⟩
  | .hbm, ⟨56, _⟩ => ⟨S640000, .f32⟩
  | .hbm, ⟨57, _⟩ => ⟨S640000x1, .f32⟩
  | .hbm, ⟨58, _⟩ => ⟨S_, .i32⟩
  | .hbm, ⟨59, _⟩ => ⟨S640000, .i32⟩
  | .hbm, ⟨60, _⟩ => ⟨S640000, .i1⟩
  | .hbm, ⟨61, _⟩ => ⟨S_, .i32⟩
  | .hbm, ⟨62, _⟩ => ⟨S640000, .i32⟩
  | .hbm, ⟨63, _⟩ => ⟨S640000, .i32⟩
  | .hbm, ⟨64, _⟩ => ⟨S640000, .i32⟩
  | .hbm, ⟨65, _⟩ => ⟨S640000x1, .i32⟩
  | .hbm, ⟨66, _⟩ => ⟨S640000x128, .f32⟩
  | .hbm, ⟨67, _⟩ => ⟨S640000x128, .f32⟩
  | .hbm, ⟨68, _⟩ => ⟨S640000x128, .f32⟩
  | .hbm, ⟨69, _⟩ => ⟨S_, .f32⟩
  | .hbm, ⟨70, _⟩ => ⟨S100000x128, .f32⟩
  | .hbm, ⟨71, _⟩ => ⟨S640000x1, .i32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_6 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  reducesTo_S640000x1_S1_d0 : S640000x1.ReducesTo [0] S1
  h_S_ : 0 < S_.numel
  bcast_S_S1 : S_.BroadcastsInDim S1 (![] : Fin 0 → Fin S1.rank)
  shapeCasts_S640000x1_S640000 : S640000x1.ShapeCasts S640000
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S640000x1_S640000x128_1_0_n_n_0_1_1128_wf : GatherDims.WF S100000x128 S640000x1 S640000x128 [1] [0] [] [0] [] 1 ![1, 128]
  dot_S640000x256_S256x1_S640000x1_1_0_0_1_n_n_wf : DotDims.WF S640000x256 S256x1 S640000x1 [1] [0] [0] [1] [] []
  scatter_S100000x128_S640000x1_S640000x128_1_0_0_1_wf : ScatterDims.WF S100000x128 S640000x1 S640000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf

class Facts : Prop extends Facts₀ where

variable [Facts]
-- ==== Proof.Spec.lean ====
/-
  The mathematics of one graph-attention layer with a global softmax, stated once, free of either program.

  A graph has 100000 nodes with 128 features each (`h`) and 640000 directed edges (`src e → dst e`). An edge's SCORE is an
  affine function of the projected features `hp = h · W + b` of its two endpoints, `⟨hp[src e] ‖ hp[dst e], a⟩ + β`; since the
  projection is linear, the score is also `p₀[src e] + p₁[dst e] + γ` with per-node numbers `p₀ = h · (W a_lo)`,
  `p₁ = h · (W a_hi)` and one constant `γ = ⟨b, a_lo⟩ + ⟨b, a_hi⟩ + β`: `rscore` and `kscore` below, equal whenever every
  entry is a real number (distributivity fails at the infinities, so finiteness is used exactly there).
  The edge's WEIGHT is the softmax, over ALL edges at once, of the leaky-rectified scores (`attn`); a node's new feature
  vector is the rectified sum, over the edges that point to it, of the source's ORIGINAL features times the edge's weight
  (`agg`).
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.GatSpec

open Idealize.ShloMosaic Idealize.ShloMosaic.ValueIdx

/-! ## The leaky rectifier and the global softmax -/

/-- The rectifier's slope below zero: the binary32 number nearest 0.01, which both programs carry as the same word. -/
abbrev slope : EReal := Ideal.ofBits .f32 0x3C23D70A#32

/-- The leaky rectifier: the identity from zero up, multiplication by the slope below. -/
def lrelu (x : EReal) : EReal := if 0 ≤ x then x else slope * x

/-- Whether zero is put with the upper branch or the lower makes no difference: the slope times zero is zero. -/
theorem lrelu_of_pos_test (x : EReal) : (if 0 < x then x else slope * x) = lrelu x := by
  unfold lrelu
  by_cases hpos : 0 < x
  · rw [if_pos hpos, if_pos hpos.le]
  · rw [if_neg hpos]
    by_cases hx : x = 0
    · subst hx
      rw [if_pos le_rfl, mul_zero]
    · have hneg : ¬ (0 ≤ x) := fun hle => hpos (lt_of_le_of_ne hle (Ne.symm hx))
      rw [if_neg hneg]

variable {n : ℕ}

/-- The greatest rectified score (`⊥` over no edges). -/
def emax (x : Fin n → EReal) : EReal := Finset.univ.fold max ⊥ fun e => lrelu (x e)

/-- The softmax's denominator: the shifted exponentials summed over all edges. -/
def esum (x : Fin n → EReal) : EReal := ∑ e, Ideal.exp (lrelu (x e) - emax x)

/-- An edge's attention weight: its shifted exponential over the denominator. -/
def attn (x : Fin n → EReal) (e : Fin n) : EReal := Ideal.div (Ideal.exp (lrelu (x e) - emax x)) (esum x)

/-- Folding `max` from `⊥` over a finite family is taking the family's supremum: on a linear order the join is the
    greater of the two. -/
theorem foldMax_eq_finsetSup {ι : Type*} (s : Finset ι) (g : ι → EReal) : s.fold max ⊥ g = s.sup g := rfl

/-- The greatest entry of a list cut into `R` rows of `C` is the greatest of the rows' greatest entries. -/
theorem fold_max_rows (R C : ℕ) (f : Fin (R * C) → EReal) :
    (Finset.univ.fold max ⊥ fun r : Fin R => Finset.univ.fold max ⊥ fun q : Fin C =>
      f ⟨r.val * C + q.val, by
        have hr := r.isLt; have hq := q.isLt
        calc r.val * C + q.val < r.val * C + C := by omega
          _ = (r.val + 1) * C := by rw [Nat.add_mul, Nat.one_mul]
          _ ≤ R * C := Nat.mul_le_mul_right C hr⟩)
      = Finset.univ.fold max ⊥ f := by
  simp only [foldMax_eq_finsetSup]
  apply le_antisymm
  · -- every entry of every row is an entry of the list
    exact Finset.sup_le fun r _ => Finset.sup_le fun q _ => Finset.le_sup (Finset.mem_univ _)
  · -- entry `i` sits in row `i / C` at place `i % C`
    refine Finset.sup_le fun i _ => ?_
    have hC : 0 < C := by
      rcases Nat.eq_zero_or_pos C with h | h
      · subst h
        exact absurd i.isLt (by simp)
      · exact h
    have hr : i.val / C < R := (Nat.div_lt_iff_lt_mul hC).mpr i.isLt
    have hq : i.val % C < C := Nat.mod_lt _ hC
    exact Finset.le_sup_of_le (Finset.mem_univ (⟨i.val / C, hr⟩ : Fin R))
      (Finset.le_sup_of_le (Finset.mem_univ (⟨i.val % C, hq⟩ : Fin C))
        (le_of_eq (congrArg f (Fin.ext (Nat.div_add_mod' i.val C).symm))))

/-! ## The aggregation -/

/-- The node an index word names: the word read as a signed integer, cut into the node range. -/
def nodeOf {N E : ℕ} (hN : 0 < N) (idx : (⟨1, ![E]⟩ : Shape).Idx → BitVec 32) (e : Fin E) : Fin N :=
  ⟨min (idx (ix1 e)).toInt.toNat (N - 1), by omega⟩

/-- Row `i`, column `k` of the result: the rectified sum of `w e · h[src e, k]` over the edges `e` whose destination word,
    read as a signed integer, is `i`. -/
def agg {N E C : ℕ} (h : (⟨2, ![N, C]⟩ : Shape).Idx → EReal) (s : Fin E → Fin N) (dst : (⟨1, ![E]⟩ : Shape).Idx → BitVec 32)
    (w : Fin E → EReal) (i : Fin N) (k : Fin C) : EReal :=
  max (∑ e : Fin E, if (dst (ix1 e)).toInt = (i.val : ℤ) then w e * h (ix2 (s e) k) else 0) 0

/-- Every index word, read as a signed integer, names a node: it lies in `[0, N)`. -/
def InRange (N : ℕ) {E : ℕ} (idx : (⟨1, ![E]⟩ : Shape).Idx → BitVec 32) : Prop :=
  ∀ e : Fin E, 0 ≤ (idx (ix1 e)).toInt ∧ (idx (ix1 e)).toInt < (N : ℤ)

/-- Every entry of an array of extended reals is a real number. -/
def AllReal {s : Shape} (x : s.Idx → EReal) : Prop := ∀ i, ∃ r : ℝ, x i = (r : EReal)

/-! ## The two spellings of an edge's score -/

section Scores

variable {N E : ℕ}
variable (h : (⟨2, ![N, 128]⟩ : Shape).Idx → EReal) (W : (⟨2, ![128, 128]⟩ : Shape).Idx → EReal)
  (b : (⟨1, ![128]⟩ : Shape).Idx → EReal) (a : (⟨2, ![256, 1]⟩ : Shape).Idx → EReal) (β : (⟨1, ![1]⟩ : Shape).Idx → EReal)

/-- The attention vector's first half (acting on the source's projection) and second half (on the destination's). -/
def aLo (i : Fin 128) : EReal := a (ix2 (⟨i.val, by omega⟩ : Fin 256) (0 : Fin 1))
def aHi (i : Fin 128) : EReal := a (ix2 (⟨128 + i.val, by omega⟩ : Fin 256) (0 : Fin 1))

/-- `W` applied to a half of the attention vector: entry `k` of `W a_lo` (half 0) or `W a_hi` (half 1). -/
def wa (half : Fin 2) (k : Fin 128) : EReal :=
  ∑ i : Fin 128, W (ix2 k i) * (if half = 0 then aLo a i else aHi a i)

/-- A node's two per-node numbers `⟨h[n], W a_lo⟩`, `⟨h[n], W a_hi⟩`. -/
def nodeProj (n : Fin N) (half : Fin 2) : EReal := ∑ k : Fin 128, h (ix2 n k) * wa W a half k

/-- The constant every score carries: `⟨b, a_lo⟩ + ⟨b, a_hi⟩ + β`. -/
def scoreConst : EReal :=
  ((∑ i : Fin 128, b (ix1 i) * aLo a i) + (∑ i : Fin 128, b (ix1 i) * aHi a i)) + β (ix1 (0 : Fin 1))

/-- The score, the factored way: per-node numbers of the two endpoints and the constant. -/
def kscore (s d : Fin E → Fin N) (e : Fin E) : EReal :=
  (nodeProj h W a (s e) 0 + scoreConst b a β) + nodeProj h W a (d e) 1

/-- A node's projected features `h[n] · W + b`. -/
def proj (n : Fin N) (j : Fin 128) : EReal := (∑ k : Fin 128, h (ix2 n k) * W (ix2 k j)) + b (ix1 j)

/-- The score, the direct way: the two endpoints' projections side by side against the attention vector, plus `β`. -/
def rscore (s d : Fin E → Fin N) (e : Fin E) : EReal :=
  (∑ j : Fin 256, (if hj : j.val < 128 then proj h W b (s e) ⟨j.val, hj⟩ else proj h W b (d e) ⟨j.val - 128, by omega⟩)
      * a (ix2 j (0 : Fin 1))) + β (ix1 (0 : Fin 1))

/-- The inclusion of the reals in the extended reals carries a finite sum to the sum of the images (it carries `0` to `0`
    and `+` to `+`). -/
theorem ereal_coe_finsetSum {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro i t hi ih
    rw [Finset.sum_insert hi, Finset.sum_insert hi, EReal.coe_add, ih]

/-- One endpoint's half of the direct score, over the reals: `∑ⱼ (∑ₖ xₖ Wₖⱼ + bⱼ) αⱼ = ∑ₖ xₖ (∑ⱼ Wₖⱼ αⱼ) + ∑ⱼ bⱼ αⱼ`
    (distribute, then exchange the two finite sums). -/
theorem score_half_real (x : Fin 128 → ℝ) (Wr : Fin 128 → Fin 128 → ℝ) (br al : Fin 128 → ℝ) :
    ∑ j, ((∑ k, x k * Wr k j) + br j) * al j = (∑ k, x k * ∑ i, Wr k i * al i) + ∑ i, br i * al i := by
  simp only [add_mul, Finset.sum_add_distrib, Finset.sum_mul, Finset.mul_sum]
  rw [Finset.sum_comm]
  congr 1
  refine Finset.sum_congr rfl fun k _ => Finset.sum_congr rfl fun i _ => ?_
  ring

/-- The two spellings of the score agree over the reals: each half by `score_half_real`, the rest is reordering a sum of five
    terms. -/
theorem score_identity_real (xs xd : Fin 128 → ℝ) (Wr : Fin 128 → Fin 128 → ℝ) (br alo ahi : Fin 128 → ℝ) (β0 : ℝ) :
    ((∑ k, xs k * ∑ i, Wr k i * alo i) + (((∑ i, br i * alo i) + ∑ i, br i * ahi i) + β0))
        + ∑ k, xd k * ∑ i, Wr k i * ahi i
      = ((∑ j, ((∑ k, xs k * Wr k j) + br j) * alo j) + ∑ j, ((∑ k, xd k * Wr k j) + br j) * ahi j) + β0 := by
  rw [score_half_real, score_half_real]
  ring

/-- The same identity between the images in the extended reals: every operation on images of reals is the image of the
    operation, so both sides are images of the two sides of `score_identity_real`. -/
theorem score_identity_coe (xs xd : Fin 128 → ℝ) (Wr : Fin 128 → Fin 128 → ℝ) (br alo ahi : Fin 128 → ℝ) (β0 : ℝ) :
    ((∑ k, (xs k : EReal) * ∑ i, (Wr k i : EReal) * (alo i : EReal))
          + (((∑ i, (br i : EReal) * (alo i : EReal)) + ∑ i, (br i : EReal) * (ahi i : EReal)) + (β0 : EReal)))
        + ∑ k, (xd k : EReal) * ∑ i, (Wr k i : EReal) * (ahi i : EReal)
      = ((∑ j, ((∑ k, (xs k : EReal) * (Wr k j : EReal)) + (br j : EReal)) * (alo j : EReal))
          + ∑ j, ((∑ k, (xd k : EReal) * (Wr k j : EReal)) + (br j : EReal)) * (ahi j : EReal)) + (β0 : EReal) := by
  simp only [← EReal.coe_mul, ← EReal.coe_add, ← ereal_coe_finsetSum]
  exact congrArg _ (score_identity_real xs xd Wr br alo ahi β0)

/-- A sum over 256 places is the sum over the first 128 plus the sum over the last 128. -/
theorem sum_fin256_split {M : Type*} [AddCommMonoid M] (F : Fin 256 → M) :
    ∑ j, F j = (∑ i : Fin 128, F ⟨i.val, by omega⟩) + ∑ i : Fin 128, F ⟨128 + i.val, by omega⟩ :=
  Fin.sum_univ_add (a := 128) (b := 128) F

/-- A family that is `A` on the first 128 places and `B`, shifted, on the last 128, paired against `c`: the sum splits
    into `A` against the first half of `c` and `B` against the second. -/
theorem sum_fin256_dite_halves (A B : Fin 128 → EReal) (c : Fin 256 → EReal) :
    (∑ j : Fin 256, (if hj : j.val < 128 then A ⟨j.val, hj⟩ else B ⟨j.val - 128, by omega⟩) * c j)
      = (∑ i : Fin 128, A i * c ⟨i.val, by omega⟩) + ∑ i : Fin 128, B i * c ⟨128 + i.val, by omega⟩ := by
  rw [sum_fin256_split]
  refine congrArg₂ (· + ·) (Finset.sum_congr rfl fun i _ => ?_) (Finset.sum_congr rfl fun i _ => ?_)
  · rw [dif_pos (show (⟨i.val, by omega⟩ : Fin 256).val < 128 from i.isLt)]
  · have hge : ¬ (⟨128 + i.val, by omega⟩ : Fin 256).val < 128 := Nat.not_lt.mpr (Nat.le_add_right 128 i.val)
    rw [dif_neg hge]
    exact congrArg (fun t => B t * c ⟨128 + i.val, by omega⟩) (Fin.ext (Nat.add_sub_cancel_left 128 i.val))

/-- Every entry a real number: the two spellings agree (linearity of the projection; distributivity is where finiteness
    is used). -/
theorem kscore_eq_rscore
    (hh : ∀ i, ∃ r : ℝ, h i = (r : EReal)) (hW : ∀ i, ∃ r : ℝ, W i = (r : EReal)) (hb : ∀ i, ∃ r : ℝ, b i = (r : EReal))
    (ha : ∀ i, ∃ r : ℝ, a i = (r : EReal)) (hβ : ∀ i, ∃ r : ℝ, β i = (r : EReal))
    (s d : Fin E → Fin N) (e : Fin E) :
    kscore h W b a β s d e = rscore h W b a β s d e := by
  choose hr hhr using hh
  choose Wr hWr using hW
  choose br hbr using hb
  choose ar har using ha
  choose βr hβr using hβ
  unfold kscore rscore nodeProj scoreConst wa
  rw [sum_fin256_dite_halves (proj h W b (s e)) (proj h W b (d e)) (fun j => a (ix2 j (0 : Fin 1)))]
  simp only [if_pos (rfl : (0 : Fin 2) = 0), if_neg (by decide : ¬ (1 : Fin 2) = 0)]
  unfold proj aLo aHi
  simp only [hhr, hWr, hbr, har, hβr]
  exact score_identity_coe (fun k => hr (ix2 (s e) k)) (fun k => hr (ix2 (d e) k)) (fun k i => Wr (ix2 k i))
    (fun i => br (ix1 i)) (fun i => ar (ix2 (⟨i.val, by omega⟩ : Fin 256) (0 : Fin 1)))
    (fun i => ar (ix2 (⟨128 + i.val, by omega⟩ : Fin 256) (0 : Fin 1))) (βr (ix1 (0 : Fin 1)))

end Scores

end Cert.GatSpec

end
-- ==== Proof.KLists.lean ====
/-
  The host operations of the kernel's program between its three launches, gathered into the three stretches the value
  argument reads through (before the node projection; between it and the softmax; between the softmax and the rectifier),
  and typed readers of the buffers the stretches take and leave.
-/
import proofs.«426828_j31739808318041_3_alg».proof.Proof.Gen.KernelIdeal.Launch
import proofs.«426828_j31739808318041_3_alg».proof.Proof.Spec
import Idealize.ShloMosaic.Lib.StableHlo.Run
import Idealize.ShloMosaic.PureOps.Ideal

noncomputable section

namespace Cert.KernelIdeal.Val

open Idealize.ShloMosaic Idealize.ShloMosaic.StableHlo Idealize.ShloMosaic.ValueIdx Idealize.SL.Sem
open Cert.KernelIdeal Cert.KernelIdeal.Gen

/-- Buffer contents after two lines run one after the other are those after their concatenation. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The host operations between the node projection and the softmax: the two columns of per-node numbers taken apart, each
    gathered along its endpoint, the constant added, the zero-width pads, the cut into 5000 rows of 128. -/
abbrev mid : List (HloOp τ sig (Elt Ideal)) :=
  hostOps1 ++ hostOps1_1 ++ hostOps1_2 ++ hostOps1_3 ++ hostOps1_4 ++ hostOps1_5 ++ hostOps1_6 ++ hostOps1_7 ++ hostOps1_8

/-- The host operations between the softmax and the rectifier: the weights laid out as one column, the sources' feature
    rows gathered and scaled, the scaled rows summed into their destinations. -/
abbrev post : List (HloOp τ sig (Elt Ideal)) := hostOps2 ++ hostOps2_1 ++ hostOps2_2

variable (X : Valuation τ sig (Elt Ideal))

/-- Typed readers of a valuation's buffers. -/
abbrev rdH : FVec Ideal S100000x128 .f32 := X (Proc.devRef .tc main_arg0)
abbrev rdSrc : IVec S640000 32 := X (Proc.devRef .tc main_arg1)
abbrev rdDst : IVec S640000 32 := X (Proc.devRef .tc main_arg2)
abbrev rdW : FVec Ideal S128x128 .f32 := X (Proc.devRef .tc main_arg3)
abbrev rdB : FVec Ideal S128 .f32 := X (Proc.devRef .tc main_arg4)
abbrev rdA : FVec Ideal S256x1 .f32 := X (Proc.devRef .tc main_arg5)
abbrev rdBeta : FVec Ideal S1 .f32 := X (Proc.devRef .tc main_arg6)
abbrev rdV8 : FVec Ideal S2x128 .f32 := X (Proc.devRef .tc main_v8)
abbrev rdV17 : FVec Ideal S_ .f32 := X (Proc.devRef .tc main_v17)
abbrev rdV18 : FVec Ideal S100000x2 .f32 := X (Proc.devRef .tc main_v18)
abbrev rdV29 : FVec Ideal S5000x128 .f32 := X (Proc.devRef .tc main_v29)
abbrev rdV30 : FVec Ideal S5000x128 .f32 := X (Proc.devRef .tc main_v30)
abbrev rdV31 : FVec Ideal S5000x128 .f32 := X (Proc.devRef .tc main_v31)
abbrev rdV39 : FVec Ideal S100000x128 .f32 := X (Proc.devRef .tc main_v39)
abbrev rdV40 : FVec Ideal S100000x128 .f32 := X (Proc.devRef .tc main_v40)

/-- Edge `r · 128 + q`: the edge at row `r`, lane `q` of the 5000 × 128 layout. -/
abbrev edge (r : Fin 5000) (q : Fin 128) : Fin 640000 := ⟨r.val * 128 + q.val, by omega⟩
/-- … and the row and lane of an edge. -/
abbrev rowOf (e : Fin 640000) : Fin 5000 := ⟨e.val / 128, by omega⟩
abbrev laneOf (e : Fin 640000) : Fin 128 := ⟨e.val % 128, Nat.mod_lt _ (by decide)⟩

end Cert.KernelIdeal.Val

end
-- ==== Proof.LibPlainDot.lean ====
/-
  A plain matrix product read at an index, generic in the sizes. For dimension numbers that contract the left
  operand's columns with the right operand's rows, with no batch axis (rows × contraction times contraction ×
  columns), the sum over the contraction shape's indices of the operands' products at the dot's operand indices is the
  sum over k < K of l[p, k] · r[k, q]. A kernel's matrix unit into a zero accumulator and the host's dot both read
  through it at the ideal values. Imports only the library.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat} (D : DotDims ⟨2, ![M, K]⟩ ⟨2, ![K, N]⟩ ⟨2, ![M, N]⟩)

/-- Two spellings of one axis position read the same coordinate. -/
theorem coord_val_congr {s : Shape} (j : s.Idx) (p q : Nat) (hp : p < s.rank) (hq : q < s.rank) (h : p = q) :
    (j ⟨p, hp⟩).val = (j ⟨q, hq⟩).val := by subst h; rfl

/-- The left operand's row is the result's row: axis 0 is the left operand's one free axis, first among the result's. -/
theorem lhs_row (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_val_congr (ix2 p q) _ 0 _ (show 0 < 2 by omega) (by simp [hlb, hln])

/-- The right operand's column is the result's column: axis 1 is the right operand's one free axis, second among the result's. -/
theorem rhs_col (hlb : D.lhsBatch = []) (hrb : D.rhsBatch = []) (hln : D.lhsNonContracting = [0]) (hrn : D.rhsNonContracting = [1])
    (p : Fin M) (q : Fin N) (k : D.contr.Idx) : (D.rhsIdx (ix2 p q) k 1).val = q.val := by
  unfold DotDims.rhsIdx
  rw [dif_neg (by rw [hrb]; exact List.not_mem_nil), dif_pos (by rw [hrn]; exact List.mem_singleton.mpr rfl)]
  simp only [Fin.val_cast]
  exact coord_val_congr (ix2 p q) _ 1 _ (show 1 < 2 by omega) (by simp [hlb, hln, hrn])

/-- The product at result index (p, q): the contraction re-indexed by its one coordinate. -/
theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_row D hlb hln p q _)
    | ⟨1, _⟩ => exact Fin.ext ((D.lhsIdx_val_of_single hlc (ix2 p q) _).trans hk)
  have e2 : D.rhsIdx (ix2 p q) ((contrEquiv1 D K hr hs).symm k) = ix2 k q := by
    funext a
    match a with
    | ⟨0, _⟩ => exact Fin.ext ((D.rhsIdx_val_of_single hrc (ix2 p q) _).trans hk)
    | ⟨1, _⟩ => exact Fin.ext (rhs_col D hlb hrb hln hrn p q _)
  rw [e1, e2]

/-- The matrix product as a function of the result index: entry (p, q) is ∑_k l[p, k] · r[k, q] on the extended reals. -/
def matProd (l : (⟨2, ![M, K]⟩ : Shape).Idx → EReal) (r : (⟨2, ![K, N]⟩ : Shape).Idx → EReal) :
    (⟨2, ![M, N]⟩ : Shape).Idx → EReal :=
  fun y => ∑ k : Fin K, l (ix2 (y 0) k) * r (ix2 k (y 1))

theorem matProd_ix2 (l : (⟨2, ![M, K]⟩ : Shape).Idx → EReal) (r : (⟨2, ![K, N]⟩ : Shape).Idx → EReal) (p : Fin M) (q : Fin N) :
    matProd l r (ix2 p q) = ∑ k : Fin K, l (ix2 p k) * r (ix2 k q) := rfl

/-- The matrix unit's product into the zero accumulator, at the ideal values, is the matrix product. -/
theorem matmul_zero_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = matProd (M := M) (K := K) (N := N) l r := by
  funext y
  obtain ⟨p, q, rfl⟩ : ∃ (p : Fin M) (q : Fin N), y = ix2 p q := ⟨y 0, y 1, eq_ix2 y⟩
  rw [Ideal.matmul_constant_zero_apply, matProd_ix2]
  exact sum_plain D hlc hrc hln hrn hlb hrb l r p q

/-- The host's dot, at the ideal values, is the matrix product, whatever its precision and schedule keys. -/
theorem dotGeneral_eq_matProd {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision) (sched : HostSchedule)
    (l : FVec Ideal ⟨2, ![M, K]⟩ φ₁) (r : FVec Ideal ⟨2, ![K, N]⟩ φ₂) :
    FloatOps.dotGeneral D prec sched l r = matProd (M := M) (K := K) (N := N) l r := by
  funext y
  obtain ⟨p, q, rfl⟩ : ∃ (p : Fin M) (q : Fin N), y = ix2 p q := ⟨y 0, y 1, eq_ix2 y⟩
  rw [Ideal.dotGeneral_apply, matProd_ix2]
  exact sum_plain D hlc hrc hln hrn hlb hrb l r p q

end Cert.LibPlainDot

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.LibIdxSums.lean ====
/-
  General lemmas on finite sums over index types, generic in the sizes and in the additive commutative monoid summed in.

  `sum_fin_mul`: a sum over `Fin (m * n)` is the double sum over quotient `a : Fin m` and remainder `b : Fin n` of the
  entry `a * n + b`. `sum_idx1`, `sum_idx3u`: a sum over the indices of a rank-1 array, or of an [n, 1, 1] array, is
  the sum over `Fin n` of the entries `ix1 k`, `ix3 q 0 0`. `sum_concat3`: the sum of a rank-1 concatenation of three
  pieces (StableHLO's concatenate along axis 0) is the sum of the three pieces' sums — the entry at position c comes
  from the first piece when c < n₁, from the second at c - n₁ when n₁ ≤ c < n₁ + n₂, from the third at
  c - (n₁ + n₂) otherwise.
-/
import Idealize.ShloMosaic.Lib.ValueIdx
import Idealize.ShloMosaic.Lib.Pipeline.Value
import Mathlib.Algebra.BigOperators.Fin
import Mathlib.Logic.Equiv.Fin.Basic

noncomputable section

namespace Cert.IdxSums

open Idealize.ShloMosaic Idealize.ShloMosaic.ValueIdx

/-- A sum over `Fin (m * n)` taken quotient by quotient: the entry `a * n + b` is met once, at quotient `a` and
    remainder `b`. -/
theorem sum_fin_mul {M : Type*} [AddCommMonoid M] (m n : ℕ) (f : Fin (m * n) → M) :
    ∑ i, f i = ∑ a : Fin m, ∑ b : Fin n,
      f ⟨a.val * n + b.val, by
        have ha := a.isLt; have hb := b.isLt
        calc a.val * n + b.val < a.val * n + n := by omega
          _ = (a.val + 1) * n := by rw [Nat.add_mul, Nat.one_mul]
          _ ≤ m * n := Nat.mul_le_mul_right n ha⟩ := by
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- A rank-1 index set is its coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The indices of an [n, 1, 1] array are the `(q, 0, 0)` … -/
def idxEquiv3u {n : Nat} : (⟨3, ![n, 1, 1]⟩ : Shape).Idx ≃ Fin n where
  toFun i := i 0
  invFun q := ix3 q (0 : Fin 1) (0 : Fin 1)
  left_inv i := by
    funext a
    match a with
    | ⟨0, _⟩ => rfl
    | ⟨1, _⟩ => exact (Subsingleton.elim (α := Fin 1) _ _)
    | ⟨2, _⟩ => exact (Subsingleton.elim (α := Fin 1) _ _)
  right_inv _ := rfl

/-- … so a sum over them is the sum over `q`. -/
theorem sum_idx3u {M : Type*} [AddCommMonoid M] {n : Nat} (f : (⟨3, ![n, 1, 1]⟩ : Shape).Idx → M) :
    ∑ i, f i = ∑ q : Fin n, f (ix3 q (0 : Fin 1) (0 : Fin 1)) := by
  rw [← Equiv.sum_comp (idxEquiv3u (n := n)).symm f]
  rfl

/-- The sum of a rank-1 concatenation of three pieces is the sum of the three pieces' sums. -/
theorem sum_concat3 {M : Type} [AddCommMonoid M] (n1 n2 n3 : Nat)
    (u : (⟨1, ![n1]⟩ : Shape).Idx → M) (v : (⟨1, ![n2]⟩ : Shape).Idx → M) (w : (⟨1, ![n3]⟩ : Shape).Idx → M)
    (h : Shape.Concatenates [(⟨1, ![n1]⟩ : Shape), ⟨1, ![n2]⟩, ⟨1, ![n3]⟩] ⟨1, ![n1 + n2 + n3]⟩ 0) :
    ∑ j : (⟨1, ![n1 + n2 + n3]⟩ : Shape).Idx,
        concatenate (⟨1, ![n1 + n2 + n3]⟩ : Shape) 0 [⟨(⟨1, ![n1]⟩ : Shape), u⟩, ⟨(⟨1, ![n2]⟩ : Shape), v⟩, ⟨(⟨1, ![n3]⟩ : Shape), w⟩] h j
      = ∑ i, u i + ∑ i, v i + ∑ i, w i := by
  rw [sum_idx1, sum_idx1 u, sum_idx1 v, sum_idx1 w, Fin.sum_univ_add, Fin.sum_univ_add]
  refine congrArg₂ (· + ·) (congrArg₂ (· + ·) ?_ ?_) ?_
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.castAdd n2 k))) 0 (by simp) (⟨1, ![n1]⟩ : Shape) u rfl rfl 0 rfl (ix1 k)
      (fun b hb => absurd (Subsingleton.elim (α := Fin 1) _ _) hb) (Nat.zero_add _)
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.castAdd n3 (Fin.natAdd n1 k))) 1 (by simp) (⟨1, ![n2]⟩ : Shape) v rfl rfl n1 (by simp) (ix1 k)
      (fun b hb => absurd (Subsingleton.elim (α := Fin 1) _ _) hb) rfl
  · refine Finset.sum_congr rfl fun k _ => ?_
    exact concatenate_apply_piece (t := (⟨1, ![n1 + n2 + n3]⟩ : Shape)) (0 : Fin 1)
      [⟨(⟨1, ![n1]⟩ : Shape), u⟩, ⟨(⟨1, ![n2]⟩ : Shape), v⟩, ⟨(⟨1, ![n3]⟩ : Shape), w⟩] h
      (ix1 (Fin.natAdd (n1 + n2) k)) 2 (by simp) (⟨1, ![n3]⟩ : Shape) w rfl rfl (n1 + n2) (by simp) (ix1 k)
      (fun b hb => absurd (Subsingleton.elim (α := Fin 1) _ _) hb) rfl

end Cert.IdxSums

end
-- ==== Proof.KHostPre.lean ====
/-
  What the host operations before the node projection leave: the 2 × 128 matrix whose rows are `W a_lo` and `W a_hi`, and
  the constant every score carries.
-/
import proofs.«426828_j31739808318041_3_alg».proof.Proof.KLists
import proofs.«426828_j31739808318041_3_alg».proof.Proof.LibPlainDot
import proofs.«426828_j31739808318041_3_alg».proof.Proof.LibRowOps
import proofs.«426828_j31739808318041_3_alg».proof.Proof.LibIdxSums

noncomputable section

namespace Cert.KernelIdeal.Val

open Idealize.ShloMosaic Idealize.ShloMosaic.StableHlo Idealize.ShloMosaic.ValueIdx Idealize.SL.Sem
open Cert.KernelIdeal Cert.KernelIdeal.Gen Cert.GatSpec

/-! ## The pieces, read at an index -/

/-- The lower half of the attention column: rows 0 … 127. -/
def loHalf (A : FVec Ideal S256x1 .f32) : FVec Ideal S128x1 .f32 :=
  extractStridedSlice S128x1 ![0, 0] A slices_S256x1_S128x1_0_0

/-- The upper half: rows 128 … 255. -/
def hiHalf (A : FVec Ideal S256x1 .f32) : FVec Ideal S128x1 .f32 :=
  extractStridedSlice S128x1 ![128, 0] A slices_S256x1_S128x1_128_0

theorem loHalf_apply (A : FVec Ideal S256x1 .f32) (i : Fin 128) (z : Fin 1) : loHalf A (ix2 i z) = aLo A i := by
  unfold loHalf aLo
  refine extractStridedSlice_apply _ A _ (ix2 i z) (ix2 (⟨i.val, by omega⟩ : Fin 256) (0 : Fin 1)) fun a => ?_
  match a with
  | ⟨0, _⟩ => show i.val = 0 + i.val; omega
  | ⟨1, _⟩ => show 0 = 0 + z.val; omega

theorem hiHalf_apply (A : FVec Ideal S256x1 .f32) (i : Fin 128) (z : Fin 1) : hiHalf A (ix2 i z) = aHi A i := by
  unfold hiHalf aHi
  refine extractStridedSlice_apply _ A _ (ix2 i z) (ix2 (⟨128 + i.val, by omega⟩ : Fin 256) (0 : Fin 1)) fun a => ?_
  match a with
  | ⟨0, _⟩ => show 128 + i.val = 128 + i.val; rfl
  | ⟨1, _⟩ => show 0 = 0 + z.val; omega

/-- A 128 × 1 column kept as a length-128 vector. -/
def colVec (c : FVec Ideal S128x1 .f32) : FVec Ideal S128 .f32 := shapeCast S128 c shapeCasts_S128x1_S128

theorem colVec_apply (c : FVec Ideal S128x1 .f32) (k : Fin 128) : colVec c (ix1 k) = c (ix2 k (0 : Fin 1)) := by
  unfold colVec
  refine shapeCast_apply c _ (ix1 k) (ix2 k (0 : Fin 1)) ?_
  rw [Shape.rowMajor_val_two, Shape.rowMajor_val_one]
  show k.val * 1 + 0 = k.val
  omega

/-- One row of the matrix the projection takes: `W` applied to a half of the attention column, laid out as a 1 × 128 row. -/
def waRow (W : FVec Ideal S128x128 .f32) (c : FVec Ideal S128x1 .f32) : FVec Ideal S1x128 .f32 :=
  broadcastInDim S1x128 ![1] bcast_S128_S1x128_1
    (colVec (Host.dotGeneral (F := Ideal) dot_S128x128_S128x1_S128x1_1_0_0_1_n_n none W c))

theorem waRow_apply (W : FVec Ideal S128x128 .f32) (c : FVec Ideal S128x1 .f32) (z : Fin 1) (k : Fin 128) :
    waRow W c (ix2 z k) = ∑ i : Fin 128, W (ix2 k i) * c (ix2 i (0 : Fin 1)) := by
  unfold waRow
  rw [LibRowOps.broadcastInDim_vec_row, colVec_apply]
  show FloatOps.dotGeneral dot_S128x128_S128x1_S128x1_1_0_0_1_n_n none .single W c (ix2 k (0 : Fin 1)) = _
  rw [LibPlainDot.dotGeneral_eq_matProd (M := 128) (K := 128) (N := 1) dot_S128x128_S128x1_S128x1_1_0_0_1_n_n
    rfl rfl rfl rfl rfl rfl none .single W c, LibPlainDot.matProd_ix2]

/-- The inner product of the bias with a half of the attention column, as the host sums it from the zero word. -/
def biasDot (B : FVec Ideal S128 .f32) (c : FVec Ideal S128x1 .f32) : FVec Ideal S_ .f32 :=
  Host.reduceAdd (F := Ideal) (mulf B (colVec c)) (constant (F := Ideal) S_ .f32 0x00000000#32) reducesTo_S128_S_d0 h_S_

theorem biasDot_apply (B : FVec Ideal S128 .f32) (c : FVec Ideal S128x1 .f32) :
    biasDot B c ix0 = ∑ i : Fin 128, B (ix1 i) * c (ix2 i (0 : Fin 1)) := by
  unfold biasDot Host.reduceAdd
  rw [Ideal.hostReduceAdd_def, Ideal.hostReduceAdd_total reducesTo_S128_S_d0 (fun b => b.elim0), IdxSums.sum_idx1]
  show Ideal.ofBits .f32 0x00000000#32 + _ = _
  rw [Ideal.ofBits_zero_f32, zero_add]
  exact Finset.sum_congr rfl fun i _ => by rw [mulf_apply, colVec_apply]

/-- The one-element offset vector kept as a rank-0 array. -/
def betaScalar (β : FVec Ideal S1 .f32) : FVec Ideal S_ .f32 := shapeCast S_ β shapeCasts_S1_S_

theorem betaScalar_apply (β : FVec Ideal S1 .f32) : betaScalar β ix0 = β (ix1 (0 : Fin 1)) := by
  unfold betaScalar
  refine shapeCast_apply β _ ix0 (ix1 (0 : Fin 1)) ?_
  rw [Shape.rowMajor_val_one]
  exact (Shape.rowMajorPi_zero _ _).symm

variable (X : Valuation τ sig (Elt Ideal))

/-! ## The two buffers the stretch leaves, as terms over the arguments -/

theorem pre_v8_term :
    rdV8 (after hostOps0 X)
      = concatenate S2x128 0 [⟨S1x128, waRow (rdW X) (loHalf (rdA X))⟩, ⟨S1x128, waRow (rdW X) (hiHalf (rdA X))⟩]
          concatenates_S1x128_S1x128_S2x128_d0 := by
  show after hostOps0 X (Proc.devRef .tc main_v8) = _
  simp only [hostOps0]
  after_results
  rfl

theorem pre_v17_term :
    rdV17 (after hostOps0 X)
      = addf (addf (biasDot (rdB X) (loHalf (rdA X))) (biasDot (rdB X) (hiHalf (rdA X)))) (betaScalar (rdBeta X)) := by
  show after hostOps0 X (Proc.devRef .tc main_v17) = _
  simp only [hostOps0]
  after_results_simp
  rfl

/-- Row `j` of the matrix the projection takes is `W` applied to half `j` of the attention vector. -/
theorem pre_v8 (j : Fin 2) (k : Fin 128) :
    rdV8 (after hostOps0 X) (ix2 j k) = wa (rdW X) (rdA X) j k := by
  rw [pre_v8_term]
  unfold wa
  match j with
  | ⟨0, _⟩ =>
    rw [concatenate_pair_apply_left (t := S2x128) (s₁ := S1x128) (s₂ := S1x128) (0 : Fin 2) _ _ concatenates_S1x128_S1x128_S2x128_d0 (ix2 (⟨0, by omega⟩ : Fin 2) k) rfl
      (ix2 (0 : Fin 1) k) (fun b => by match b with | ⟨0, _⟩ => rfl | ⟨1, _⟩ => rfl), waRow_apply]
    exact Finset.sum_congr rfl fun i _ => by rw [loHalf_apply, if_pos (show (⟨0, by omega⟩ : Fin 2) = 0 from rfl)]
  | ⟨1, _⟩ =>
    rw [concatenate_pair_apply_right (t := S2x128) (s₁ := S1x128) (s₂ := S1x128) (0 : Fin 2) _ _ concatenates_S1x128_S1x128_S2x128_d0 (ix2 (⟨1, by omega⟩ : Fin 2) k) rfl rfl
      (ix2 (0 : Fin 1) k) (fun b hb => by match b with | ⟨0, _⟩ => exact absurd rfl hb | ⟨1, _⟩ => rfl) rfl, waRow_apply]
    exact Finset.sum_congr rfl fun i _ => by rw [hiHalf_apply, if_neg (fun h => absurd (congrArg Fin.val h) Nat.one_ne_zero)]

/-- The constant: `⟨b, a_lo⟩ + ⟨b, a_hi⟩ + β`. -/
theorem pre_v17 : rdV17 (after hostOps0 X) ix0 = scoreConst (rdB X) (rdA X) (rdBeta X) := by
  rw [pre_v17_term, addf_apply, addf_apply, biasDot_apply, biasDot_apply, betaScalar_apply]
  unfold scoreConst
  congr 2
  · exact Finset.sum_congr rfl fun i _ => by rw [loHalf_apply]
  · exact Finset.sum_congr rfl fun i _ => by rw [hiHalf_apply]

/-- The stretch writes none of the features and the two index vectors. -/
theorem pre_keep_h : rdH (after hostOps0 X) = rdH X := by
  show after hostOps0 X (Proc.devRef .tc main_arg0) = _
  simp only [hostOps0]
  after_results_simp
theorem pre_keep_src : rdSrc (after hostOps0 X) = rdSrc X := by
  show after hostOps0 X (Proc.devRef .tc main_arg1) = _
  simp only [hostOps0]
  after_results_simp
theorem pre_keep_dst : rdDst (after hostOps0 X) = rdDst X := by
  show after hostOps0 X (Proc.devRef .tc main_arg2) = _
  simp only [hostOps0]
  after_results_simp

end Cert.KernelIdeal.Val

end
-- ==== Proof.LibGatherVec.lean ====
/-
  Reading a gather of single elements out of a vector at one element.

  `gather_vec_apply`: element `e` of a gather of `M` elements out of a vector of length `N`, the positions named by a
  column of `M` words, is the vector's element at word `e`, read signed and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibGatherVec

open Idealize.ShloMosaic Idealize.ShloMosaic.ValueIdx

/-- The element gather's dimension numbers: no offset axes, the operand's one axis collapsed and start-indexed, no
    batching axes, the index vector on axis 1 of the column of words, slices one element wide. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- On the operand's one axis the index read is the clamped start: the word at row `e` of the column read signed, cut
    into `[0, N - 1]`; the axis is collapsed, so there is no batching and no offset coordinate. -/
theorem vecGather_axis0 {N M w : Nat}
    (wf : GatherDims.WF ⟨1, ![N]⟩ ⟨2, ![M, 1]⟩ ⟨1, ![M]⟩ [] [0] [] [0] [] 1 ![1])
    (idx : IVec ⟨2, ![M, 1]⟩ w) (e : Fin M) :
    ((vecGatherDims N M wf).operandIdx (ix1 e) idx 0).val = min (idx (ix2 e (0 : Fin 1))).toInt.toNat (N - 1) := by
  show (vecGatherDims N M wf).start (ix1 e) idx 0 + (vecGatherDims N M wf).batchCoord (ix1 e) 0
    + (vecGatherDims N M wf).offCoord (ix1 e) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ELEMENT GATHER READ AT `e`: the vector at "word `e`, read signed and clamped into `[0, N - 1]`". -/
theorem gather_vec_apply {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1])
    (x : (⟨1, ![N]⟩ : Shape).Idx → α) (idx : IVec ⟨2, ![M, 1]⟩ w) (e : Fin M) (hN : 0 < N) :
    Host.gather d x idx (ix1 e)
      = x (ix1 (⟨min (idx (ix2 e (0 : Fin 1))).toInt.toNat (N - 1), by omega⟩ : Fin N)) := by
  obtain ⟨od, cd, ob, sb, sm, ivd, ss, wf⟩ := d
  simp only at hoff hcoll hob hsb hsim hivd hss
  subst hoff hcoll hob hsb hsim hivd hss
  show x ((vecGatherDims N M wf).operandIdx (ix1 e) idx) = _
  congr 1
  funext a
  obtain rfl : a = 0 := Subsingleton.elim _ _
  exact Fin.ext (vecGather_axis0 wf idx e)

end Cert.LibGatherVec

end
-- ==== Proof.KHostMid.lean ====
/-
  What the host operations between the node projection and the softmax leave, for index words that name nodes: at row `r`,
  lane `q` of the two 5000 × 128 operands, the source's first per-node number plus the constant, and the destination's second.
-/
import proofs.«426828_j31739808318041_3_alg».proof.Proof.KLists
import proofs.«426828_j31739808318041_3_alg».proof.Proof.LibGatherVec
import proofs.«426828_j31739808318041_3_alg».proof.Proof.LibRowOps
import Idealize.ShloMosaic.Lib.KernelVsHost
import Idealize.ShloMosaic.PureOps.Reduce

noncomputable section

namespace Cert.KernelIdeal.Val

open Idealize.ShloMosaic Idealize.ShloMosaic.StableHlo Idealize.ShloMosaic.ValueIdx Idealize.SL.Sem
open Cert.KernelIdeal Cert.KernelIdeal.Gen Cert.GatSpec

/-! ## Word comparisons against the two bounds -/

/-- A word that reads as a nonnegative integer is not below zero. -/
theorem cmpi_slt_zero {a : BitVec 32} (h : 0 ≤ a.toInt) : IntOp.cmpi .slt a 0#32 = 0#1 := by
  show BitVec.ofBool (a.slt 0#32) = 0#1
  have hz : (0#32 : BitVec 32).toInt = 0 := by decide
  have : a.slt 0#32 = false := by
    unfold BitVec.slt
    exact decide_eq_false (by rw [hz]; omega)
  rw [this]; rfl

/-- … it is at least zero … -/
theorem cmpi_sge_zero {a : BitVec 32} (h : 0 ≤ a.toInt) : IntOp.cmpi .sge a 0#32 = 1#1 := by
  show BitVec.ofBool ((0#32 : BitVec 32).sle a) = 1#1
  have hz : (0#32 : BitVec 32).toInt = 0 := by decide
  have : (0#32 : BitVec 32).sle a = true := by
    unfold BitVec.sle
    exact decide_eq_true (by rw [hz]; exact h)
  rw [this]; rfl

/-- … and a word that reads below the node count is at most the last node's number. -/
theorem cmpi_sle_last {a : BitVec 32} (h : a.toInt < 100000) : IntOp.cmpi .sle a 99999#32 = 1#1 := by
  show BitVec.ofBool (a.sle 99999#32) = 1#1
  have hz : (99999#32 : BitVec 32).toInt = 99999 := by decide
  have : a.sle 99999#32 = true := by
    unfold BitVec.sle
    exact decide_eq_true (by rw [hz]; omega)
  rw [this]; rfl

/-- A conjunction of bits folded from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## The element gather `take`, as one function of the vector and the index words -/

/-- The index words with a negative word moved up by the node count. -/
def wrapIdx (idx : IVec S640000 32) : IVec S640000 32 :=
  select (cmpi .slt idx (broadcastInDim S640000 ![] bcast_S_S640000 (constantI S_ 32 0#32)))
    (addi idx (broadcastInDim S640000 ![] bcast_S_S640000 (constantI S_ 32 100000#32))) idx

/-- … laid out as a column. -/
def idxCol (idx : IVec S640000 32) : IVec S640000x1 32 :=
  broadcastInDim S640000x1 ![0] bcast_S640000_S640000x1_0 (wrapIdx idx)

/-- The bit "the moved word lies in `[0, 99999]`", per edge. -/
def inMask (idx : IVec S640000 32) : IVec S640000 1 :=
  Host.reduce IntOp.andi
    (andi (cmpi .sge (idxCol idx) (broadcastInDim S640000x1 ![] bcast_S_S640000x1 (constantI S_ 32 0#32)))
      (cmpi .sle (idxCol idx) (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- The gather: the vector's element at the moved word where the bit is set, the not-a-number word elsewhere. -/
def takeVec (v : FVec Ideal S100000 .f32) (idx : IVec S640000 32) : FVec Ideal S640000 .f32 :=
  select (inMask idx) (Host.gather gather_S100000_S640000x1_S640000_n_0_n_n_0_1_1 v (idxCol idx))
    (broadcastInDim S640000 ![] bcast_S_S640000 (constant (F := Ideal) S_ .f32 0x7FC00000#32))

theorem wrapIdx_apply (idx : IVec S640000 32) (hi : InRange 100000 idx) (e : Fin 640000) :
    wrapIdx idx (ix1 e) = idx (ix1 e) := by
  unfold wrapIdx
  rw [select_apply]
  show Scalar.select (IntOp.cmpi .slt (idx (ix1 e)) (broadcastInDim S640000 ![] bcast_S_S640000 (constantI S_ 32 0#32) (ix1 e))) _ _ = _
  rw [LibRowOps.broadcastInDim_scalar]
  show Scalar.select (IntOp.cmpi .slt (idx (ix1 e)) 0#32) _ _ = _
  rw [cmpi_slt_zero (hi e).1, select_zero]

theorem idxCol_apply (idx : IVec S640000 32) (hi : InRange 100000 idx) (e : Fin 640000) (z : Fin 1) :
    idxCol idx (ix2 e z) = idx (ix1 e) := by
  unfold idxCol
  rw [LibRowOps.broadcastInDim_col, wrapIdx_apply idx hi e]

theorem inMask_apply (idx : IVec S640000 32) (hi : InRange 100000 idx) (j : S640000.Idx) : inMask idx j = 1#1 := by
  unfold inMask
  rw [Host.reduce_eq_foldl]
  show List.foldl _ 1#1 _ = 1#1
  refine foldl_andi_one _ _ fun n _ => ?_
  obtain ⟨e, z, rfl⟩ : ∃ (e : Fin 640000) (z : Fin 1), n = ix2 e z := ⟨n 0, n 1, eq_ix2 n⟩
  show IntOp.andi (IntOp.cmpi .sge (idxCol idx (ix2 e z)) (broadcastInDim S640000x1 ![] bcast_S_S640000x1 (constantI S_ 32 0#32) (ix2 e z)))
    (IntOp.cmpi .sle (idxCol idx (ix2 e z)) (broadcastInDim S640000x1 ![0, 1] bcast_S1x1_S640000x1_0_1
        (broadcastInDim S1x1 ![1] bcast_S1_S1x1_1 (constantI S1 32 99999#32)) (ix2 e z))) = 1#1
  rw [idxCol_apply idx hi e z, LibRowOps.broadcastInDim_scalar, LibRowOps.broadcastInDim_row_mat, LibRowOps.broadcastInDim_vec_row]
  show IntOp.andi (IntOp.cmpi .sge (idx (ix1 e)) 0#32) (IntOp.cmpi .sle (idx (ix1 e)) 99999#32) = 1#1
  rw [cmpi_sge_zero (hi e).1, cmpi_sle_last (hi e).2]
  rfl

theorem takeVec_apply (v : FVec Ideal S100000 .f32) (idx : IVec S640000 32) (hi : InRange 100000 idx) (e : Fin 640000) :
    takeVec v idx (ix1 e) = v (ix1 (nodeOf (N := 100000) (by decide) idx e)) := by
  unfold takeVec
  rw [select_apply, inMask_apply idx hi, select_one,
    LibGatherVec.gather_vec_apply gather_S100000_S640000x1_S640000_n_0_n_n_0_1_1 rfl rfl rfl rfl rfl rfl rfl v (idxCol idx) e
      (by decide)]
  refine congrArg (fun n : Fin 100000 => v (ix1 n)) (Fin.ext ?_)
  show min (idxCol idx (ix2 e (0 : Fin 1))).toInt.toNat (100000 - 1) = min (idx (ix1 e)).toInt.toNat (100000 - 1)
  rw [idxCol_apply idx hi e]

/-! ## The two columns of per-node numbers, each as a vector -/

def col0 (P : FVec Ideal S100000x2 .f32) : FVec Ideal S100000 .f32 :=
  shapeCast S100000 (extractStridedSlice S100000x1 ![0, 0] P slices_S100000x2_S100000x1_0_0) shapeCasts_S100000x1_S100000

def col1 (P : FVec Ideal S100000x2 .f32) : FVec Ideal S100000 .f32 :=
  shapeCast S100000 (extractStridedSlice S100000x1 ![0, 1] P slices_S100000x2_S100000x1_0_1) shapeCasts_S100000x1_S100000

theorem col0_apply (P : FVec Ideal S100000x2 .f32) (n : Fin 100000) : col0 P (ix1 n) = P (ix2 n (0 : Fin 2)) := by
  unfold col0
  rw [shapeCast_apply _ shapeCasts_S100000x1_S100000 (ix1 n) (ix2 n (0 : Fin 1)) (by
    rw [Shape.rowMajor_val_two, Shape.rowMajor_val_one]
    show n.val * 1 + 0 = n.val
    omega)]
  refine extractStridedSlice_apply _ P _ (ix2 n (0 : Fin 1)) (ix2 n (0 : Fin 2)) fun a => ?_
  match a with
  | ⟨0, _⟩ => show n.val = 0 + n.val; omega
  | ⟨1, _⟩ => rfl

theorem col1_apply (P : FVec Ideal S100000x2 .f32) (n : Fin 100000) : col1 P (ix1 n) = P (ix2 n (1 : Fin 2)) := by
  unfold col1
  rw [shapeCast_apply _ shapeCasts_S100000x1_S100000 (ix1 n) (ix2 n (0 : Fin 1)) (by
    rw [Shape.rowMajor_val_two, Shape.rowMajor_val_one]
    show n.val * 1 + 0 = n.val
    omega)]
  refine extractStridedSlice_apply _ P _ (ix2 n (0 : Fin 1)) (ix2 n (1 : Fin 2)) fun a => ?_
  match a with
  | ⟨0, _⟩ => show n.val = 0 + n.val; omega
  | ⟨1, _⟩ => rfl

/-! ## The zero-width pad and the cut into rows -/

/-- A vector of 640000 entries padded by nothing and cut into 5000 rows of 128. -/
def rows (x : FVec Ideal S640000 .f32) (fill : FVec Ideal S_ .f32) : FVec Ideal S5000x128 .f32 :=
  shapeCast S5000x128 (pad S640000 ![0] ![0] ![0] x fill pads_S640000_S640000_000 h_S_) shapeCasts_S640000_S5000x128

theorem rows_apply (x : FVec Ideal S640000 .f32) (fill : FVec Ideal S_ .f32) (r : Fin 5000) (q : Fin 128) :
    rows x fill (ix2 r q) = x (ix1 (edge r q)) := by
  unfold rows
  rw [shapeCast_apply _ shapeCasts_S640000_S5000x128 (ix2 r q) (ix1 (edge r q)) (by
    rw [Shape.rowMajor_val_two, Shape.rowMajor_val_one]
    rfl)]
  refine pad_apply_of_inside ![0] ![0] ![0] x fill pads_S640000_S640000_000 h_S_ (ix1 (edge r q)) (ix1 (edge r q)) fun a => ?_
  match a with
  | ⟨0, _⟩ => show r.val * 128 + q.val = 0 + (r.val * 128 + q.val) * (0 + 1); omega

variable (X : Valuation τ sig (Elt Ideal))

/-! ## The two buffers the stretch leaves, as terms over what it starts from -/

/-- A value carried to a buffer's own type and back along one equation of types is the value. -/
theorem ofBuf_toBuf_mk {Val : EltTy → Type} {T : BufTy} (r : Ref sig .tc) (h h' : r.ty = T) (a a' : r.space ≠ .host)
    (b b' : r.isScoped = false) (v : T.Contents Val) :
    (TRef.of r h a b).ofBuf ((TRef.of r h' a' b').toBuf v) = v := by
  subst h
  rfl

theorem mid_v29_term :
    rdV29 (after mid X)
      = rows (addf (takeVec (col0 (rdV18 X)) (rdSrc X)) (broadcastInDim S640000 ![] bcast_S_S640000 (rdV17 X)))
          (constant (F := Ideal) S_ .f32 0xFF333332#32) := by
  show after mid X (Proc.devRef .tc main_v29) = _
  simp only [mid, hostOps1, hostOps1_1, hostOps1_2, hostOps1_3, hostOps1_4, hostOps1_5, hostOps1_6, hostOps1_7, hostOps1_8,
    List.cons_append, List.nil_append, List.append_nil, List.append_assoc]
  after_results_simp
  simp only [ofBuf_toBuf_mk]
  simp only [cast_eq, id_eq]
  rfl

theorem mid_v30_term :
    rdV30 (after mid X)
      = rows (takeVec (col1 (rdV18 X)) (rdDst X)) (constant (F := Ideal) S_ .f32 0x00000000#32) := by
  show after mid X (Proc.devRef .tc main_v30) = _
  simp only [mid, hostOps1, hostOps1_1, hostOps1_2, hostOps1_3, hostOps1_4, hostOps1_5, hostOps1_6, hostOps1_7, hostOps1_8,
    List.cons_append, List.nil_append, List.append_nil, List.append_assoc]
  after_results_simp
  simp only [ofBuf_toBuf_mk]
  simp only [cast_eq, id_eq]
  rfl

theorem mid_v29 (hs : InRange 100000 (rdSrc X)) (r : Fin 5000) (q : Fin 128) :
    rdV29 (after mid X) (ix2 r q)
      = rdV18 X (ix2 (nodeOf (N := 100000) (by decide) (rdSrc X) (edge r q)) (0 : Fin 2)) + rdV17 X ix0 := by
  rw [mid_v29_term, rows_apply, addf_apply, takeVec_apply _ _ hs, col0_apply, LibRowOps.broadcastInDim_scalar]

theorem mid_v30 (hd : InRange 100000 (rdDst X)) (r : Fin 5000) (q : Fin 128) :
    rdV30 (after mid X) (ix2 r q)
      = rdV18 X (ix2 (nodeOf (N := 100000) (by decide) (rdDst X) (edge r q)) (1 : Fin 2)) := by
  rw [mid_v30_term, rows_apply, takeVec_apply _ _ hd, col1_apply]

/-- The stretch writes none of the features and the two index vectors. -/
theorem mid_keep_h : rdH (after mid X) = rdH X := by
  show after mid X (Proc.devRef .tc main_arg0) = _
  simp only [mid, hostOps1, hostOps1_1, hostOps1_2, hostOps1_3, hostOps1_4, hostOps1_5, hostOps1_6, hostOps1_7, hostOps1_8,
    List.cons_append, List.nil_append, List.append_nil, List.append_assoc]
  after_results_simp
theorem mid_keep_src : rdSrc (after mid X) = rdSrc X := by
  show after mid X (Proc.devRef .tc main_arg1) = _
  simp only [mid, hostOps1, hostOps1_1, hostOps1_2, hostOps1_3, hostOps1_4, hostOps1_5, hostOps1_6, hostOps1_7, hostOps1_8,
    List.cons_append, List.nil_append, List.append_nil, List.append_assoc]
  after_results_simp
theorem mid_keep_dst : rdDst (after mid X) = rdDst X := by
  show after mid X (Proc.devRef .tc main_arg2) = _
  simp only [mid, hostOps1, hostOps1_1, hostOps1_2, hostOps1_3, hostOps1_4, hostOps1_5, hostOps1_6, hostOps1_7, hostOps1_8,
    List.cons_append, List.nil_append, List.append_nil, List.append_assoc]
  after_results_simp

end Cert.KernelIdeal.Val

end
-- ==== Proof.LibScatterGather.lean ====
/-
  Reading an accumulating scatter and a row gather at one element, at the ideal instance.

  `scatterAdd_vec_apply`: a vector of `M` updates added into a vector of length `N` at the positions a column of `M` words
  names: element `i` of the result is the operand's element plus the sum of the updates whose word, read as a signed
  integer, is `i` (a word outside `[0, N)` contributes nowhere).
  `scatterAdd_rows_apply`: the same for `M` rows of width `C` added into an `N × C` array: row `i`, column `j` collects
  column `j` of the update rows whose word is `i`.
  `gather_rows_apply`: row `e` of a gather of `M` rows out of an `N × C` array is the array's row at word `e`, read signed
  and clamped into `[0, N - 1]`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibScatterGather

open Idealize.ShloMosaic Idealize.ShloMosaic.ValueIdx

/-! ## A vector of updates added into a vector -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- The vector scatter's dimension numbers: no window axes, the operand's one axis inserted and scatter-indexed, the
    index vector on axis 1 of the column of words. -/
abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j` lands on the operand's axis at its word read signed: the start is the word at row `j` of the column, the
    window coordinate is zero (the axis is inserted). -/
theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

/-- The update at `j` lands on element `i` exactly when its word, read signed, is `i`. -/
theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

/-- THE VECTOR SCATTER READ AT `i`: the operand's element plus the sum, over the `M` updates, of those whose word read
    signed is `i`. The filtered sum over update indices becomes the sum over `Fin M` with an `if` (`Finset.sum_filter`,
    then the update index set re-indexed by its one coordinate). -/
theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

/-! ## Rows of updates added into an array -/

/-- The row scatter's dimension numbers: the updates' axis 1 the window axis, the operand's axis 0 inserted and
    scatter-indexed, the index vector on axis 1 of the column of words. -/
abbrev rowDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- On the operand's axis 0 update `q` lands at its word read signed: the start is the word at row `q 0` of the column,
    the window coordinate zero (the axis is inserted). -/
theorem row_landing0 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 0 + ((rowDims N M C wf).window q 0 : ℤ) = (idx (ix2 (q 0) (0 : Fin 1))).toInt := by
  unfold ScatterDims.start ScatterDims.window
  rw [dif_pos (show (0 : Fin 2) ∈ (rowDims N M C wf).scatterDimsToOperandDims from List.mem_singleton.mpr rfl),
    dif_neg (show (0 : Fin 2) ∉ (rowDims N M C wf).sKept by
      show (0 : Fin 2) ∉ (List.finRange 2).filter (· ∉ [(0 : Fin 2)]); decide)]
  have hsi : (rowDims N M C wf).siIdx q ⟨List.idxOf (0 : Fin 2) (rowDims N M C wf).scatterDimsToOperandDims,
      List.idxOf_lt_length_iff.2 (List.mem_singleton.mpr rfl)⟩ = ix2 (q 0) (0 : Fin 1) := by
    funext b; refine Fin.ext ?_
    match b with
    | ⟨0, _⟩ => rfl
    | ⟨1, _⟩ => rfl
  rw [hsi]
  simp

/-- On the operand's axis 1 update `q` lands at its own column: the start is 0 (the axis is not scatter-indexed), the
    window coordinate the update's coordinate on its one window axis. -/
theorem row_landing1 {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) :
    (rowDims N M C wf).start q idx 1 + ((rowDims N M C wf).window q 1 : ℤ) = ((q 1).val : ℤ) := by
  unfold ScatterDims.start ScatterDims.window
  rw [dif_neg (show (1 : Fin 2) ∉ (rowDims N M C wf).scatterDimsToOperandDims by
      show (1 : Fin 2) ∉ [(0 : Fin 2)]; decide),
    dif_pos (show (1 : Fin 2) ∈ (rowDims N M C wf).sKept by
      show (1 : Fin 2) ∈ (List.finRange 2).filter (· ∉ [(0 : Fin 2)]); decide), Int.zero_add]
  rfl

/-- The update at `q` lands on element `(i, k)` exactly when its word, read signed, is `i` and its column is `k`. -/
theorem row_resultIdx {N M C w : Nat} (wf : ScatterDims.WF ⟨2, ![N, C]⟩ ⟨2, ![M, 1]⟩ ⟨2, ![M, C]⟩ [1] [0] [0] 1)
    (idx : IVec ⟨2, ![M, 1]⟩ w) (q : (⟨2, ![M, C]⟩ : Shape).Idx) (i : Fin N) (k : Fin C) :
    (rowDims N M C wf).resultIdx? q idx = some (ix2 i k)
      ↔ (idx (ix2 (q 0) (0 : Fin 1))).toInt = (i.val : ℤ) ∧ q 1 = k := by
  have hl0 := row_landing0 wf idx q
  have hl1 := row_landing1 wf idx q
  unfold ScatterDims.resultIdx?
  constructor
  · intro h
    split at h
    · next hc =>
      have hf := Option.some.inj h
      have h0 := congrArg Fin.val (congrFun hf 0)
      have h1 := congrArg Fin.val (congrFun hf 1)
      change ((rowDims N M C wf).start q idx 0 + ((rowDims N M C wf).window q 0 : ℤ)).toNat = i.val at h0
      change ((rowDims N M C wf).start q idx 1 + ((rowDims N M C wf).window q 1 : ℤ)).toNat = k.val at h1
      have hc0 := (hc 0).1
      rw [hl0] at h0 hc0
      rw [hl1] at h1
      refine ⟨by omega, Fin.ext ?_⟩
      simpa using h1
    · exact absurd h (by simp)
  · rintro ⟨h, hk⟩
    have hc : ∀ a, 0 ≤ (rowDims N M C wf).start q idx a + ((rowDims N M C wf).window q a : ℤ) ∧
        (rowDims N M C wf).start q idx a + ((rowDims N M C wf).window q a : ℤ) < ((⟨2, ![N, C]⟩ : Shape).size a : ℤ) := by
      intro a
      match a with
      | ⟨0, _⟩ =>
        have := i.isLt
        refine ⟨?_, ?_⟩
        · show 0 ≤ (rowDims N M C wf).start q idx 0 + ((rowDims N M C wf).window q 0 : ℤ)
          rw [hl0, h]; omega
        · show (rowDims N M C wf).start q idx 0 + ((rowDims N M C wf).window q 0 : ℤ) < (N : ℤ)
          rw [hl0, h]; omega
      | ⟨1, _⟩ =>
        have := idx2_lt1 q
        refine ⟨?_, ?_⟩
        · show 0 ≤ (rowDims N M C wf).start q idx 1 + ((rowDims N M C wf).window q 1 : ℤ)
          rw [hl1]; omega
        · show (rowDims N M C wf).start q idx 1 + ((rowDims N M C wf).window q 1 : ℤ) < (C : ℤ)
          rw [hl1]; omega
    rw [dif_pos hc]
    congr 1
    funext a
    refine Fin.ext ?_
    match a with
    | ⟨0, _⟩ =>
      show ((rowDims N M C wf).start q idx 0 + ((rowDims N M C wf).window q 0 : ℤ)).toNat = i.val
      rw [hl0, h]; simp
    | ⟨1, _⟩ =>
      show ((rowDims N M C wf).start q idx 1 + ((rowDims N M C wf).window q 1 : ℤ)).toNat = k.val
      rw [hl1, hk]; simp

/-- THE ROW SCATTER READ AT `(i, j)`: the operand's element plus the sum, over the `M` update rows, of column `j` of those
    whose word read signed is `i`. The filtered sum over update indices becomes the double sum over (row, column) with an
    `if` (`Finset.sum_filter`, `sum_idx2`); the column sum keeps the one term at `j` (`Finset.sum_ite_eq'`). -/
theorem scatterAdd_rows_apply {N M C w : Nat} {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ) (i : Fin N) (j : Fin C) :
    Host.scatterAdd d x idx upd (ix2 i j)
      = x (ix2 i j) + ∑ e : Fin M, if (idx (ix2 e (0 : Fin 1))).toInt = (i.val : ℤ) then upd (ix2 e j) else 0 := by
  obtain ⟨uw, iw, sd, ivd, wf⟩ := d
  simp only at huw hiw hsd hivd
  subst huw hiw hsd hivd
  show Ideal.hostScatterAdd (rowDims N M C wf) x idx upd (ix2 i j) = _
  unfold Ideal.hostScatterAdd
  congr 1
  rw [Finset.sum_filter, sum_idx2]
  refine Finset.sum_congr rfl fun e _ => ?_
  have hstep : ∀ b : Fin C,
      (if (rowDims N M C wf).resultIdx? (ix2 e b) idx = some (ix2 i j) then upd (ix2 e b) else 0)
        = if b = j then (if (idx (ix2 e (0 : Fin 1))).toInt = (i.val : ℤ) then upd (ix2 e b) else 0) else 0 := by
    intro b
    have hiff := row_resultIdx wf idx (ix2 e b) i j
    by_cases hb : b = j
    · rw [if_pos hb]
      exact if_congr (hiff.trans ⟨fun h => h.1, fun h => ⟨h, hb⟩⟩) rfl rfl
    · rw [if_neg hb, if_neg]
      exact fun h => hb (hiff.mp h).2
  rw [Finset.sum_congr rfl fun b _ => hstep b, Finset.sum_ite_eq' Finset.univ j, if_pos (Finset.mem_univ j)]

/-! ## Rows gathered out of an array -/

/-- The row gather's dimension numbers: the result's axis 1 the offset axis, the operand's axis 0 collapsed and
    start-indexed, no batching axes, the index vector on axis 1 of the column of words, slices one row wide. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- On the collapsed axis the operand index is the clamped start: the word at row `e` of the column read signed, cut
    into `[0, N - 1]`; no batching or offset coordinate. -/
theorem rowGather_axis0 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 0).val = min (idx (ix2 e (0 : Fin 1))).toInt.toNat (N - 1) := by
  show (rowGatherDims N M C wf).start (ix2 e j) idx 0 + (rowGatherDims N M C wf).batchCoord (ix2 e j) 0
    + (rowGatherDims N M C wf).offCoord (ix2 e j) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims N M C wf).startIndexMap from List.mem_singleton.mpr rfl)]
  have hsi : (rowGatherDims N M C wf).siIdx (ix2 e j) ⟨List.idxOf (0 : Fin 2) (rowGatherDims N M C wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the offset axis the operand index is the result's column: the start is 0 (the axis is not start-indexed), the
    offset coordinate the result's coordinate on its one offset axis. -/
theorem rowGather_axis1 {N M C w : Nat}
    (wf : GatherDims.WF ⟨2, ![N, C]⟩ ⟨2, ![M, 1]⟩ ⟨2, ![M, C]⟩ [1] [0] [] [0] [] 1 ![1, C])
    (idx : IVec ⟨2, ![M, 1]⟩ w) (e : Fin M) (j : Fin C) :
    ((rowGatherDims N M C wf).operandIdx (ix2 e j) idx 1).val = j.val := by
  show (rowGatherDims N M C wf).start (ix2 e j) idx 1 + (rowGatherDims N M C wf).batchCoord (ix2 e j) 1
    + (rowGatherDims N M C wf).offCoord (ix2 e j) 1 = _
  rw [GatherDims.batchCoord_eq_zero _ _ _ List.not_mem_nil, Nat.add_zero]
  unfold GatherDims.start
  rw [dif_neg (show (1 : Fin 2) ∉ (rowGatherDims N M C wf).startIndexMap by
    show (1 : Fin 2) ∉ [(0 : Fin 2)]; decide), Nat.zero_add]
  unfold GatherDims.offCoord
  rw [dif_pos (show (1 : Fin 2) ∈ (rowGatherDims N M C wf).sKept by
    show (1 : Fin 2) ∈ (List.finRange 2).filter (· ∉ [(0 : Fin 2)] ++ []); decide)]
  rfl

/-- THE ROW GATHER READ AT `(e, j)`: the array at row "word `e`, read signed and clamped into `[0, N - 1]`", column `j`. -/
theorem gather_rows_apply {α : Type} {N M C w : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C])
    (x : (⟨2, ![N, C]⟩ : Shape).Idx → α) (idx : IVec ⟨2, ![M, 1]⟩ w) (e : Fin M) (j : Fin C) (hN : 0 < N) :
    Host.gather d x idx (ix2 e j)
      = x (ix2 (⟨min (idx (ix2 e (0 : Fin 1))).toInt.toNat (N - 1), by omega⟩ : Fin N) j) := by
  obtain ⟨od, cd, ob, sb, sm, ivd, ss, wf⟩ := d
  simp only at hoff hcoll hob hsb hsim hivd hss
  subst hoff hcoll hob hsb hsim hivd hss
  show x ((rowGatherDims N M C wf).operandIdx (ix2 e j) idx) = _
  congr 1
  funext a
  refine Fin.ext ?_
  match a with
  | ⟨0, _⟩ => exact rowGather_axis0 wf idx e j
  | ⟨1, _⟩ => exact rowGather_axis1 wf idx e j

end Cert.LibScatterGather

end
-- ==== Proof.LibEdgeAggregate.lean ====
/-
  A message-passing aggregation read at one entry of its result, at the ideal instance, generic in the sizes.

  With `M` edges over `N` nodes carrying `C` features each: every edge `e` has a weight, a destination word and a row of `C`
  numbers; the rows, each scaled by its edge's weight, are summed into the destination rows of a zero `N × C` array. Entry
  `(i, k)` of the result is the sum, over the edges whose destination word read signed is `i`, of the weight times the
  row's column `k` (`weightedScatter_apply`). When the rows are gathered out of an `N × C` feature array along a column
  of source words, the row of edge `e` is the feature row at its word read signed and clamped into `[0, N - 1]`
  (`edgeAggregate_apply`). Around them: a vector laid along the rows of a matrix (`broadcastInDim_rows`), the index
  normalisation that adds the extent to a negative word (`wrapCol_apply`: a non-negative word is kept), the range test
  `0 ≤ word ≤ hi` and-reduced along the unit axis (`valid_apply`: a word in range passes), and a take that keeps the
  gathered row where the test passes (`maskedRows_apply`).
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«426828_j31739808318041_3_alg».proof.Proof.LibScatterGather
import proofs.«426828_j31739808318041_3_alg».proof.Proof.LibRowOps

noncomputable section

open scoped BigOperators

namespace Cert.LibEdgeAggregate

open Idealize.ShloMosaic Idealize.ShloMosaic.ValueIdx

/-! ## The weighted rows summed into their destinations -/

/-- THE WEIGHTED SCATTER READ AT `(i, k)`: rows scaled by their edge's weight (the weights as a column spread over the
    `C` columns) and added into a zero array at the rows a column of destination words names. Entry `(i, k)` is the sum,
    over the edges whose destination word read signed is `i`, of the weight times the row's column `k`. -/
theorem weightedScatter_apply {N M C wd : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (hz : (⟨0, ![]⟩ : Shape).BroadcastsInDim ⟨2, ![N, C]⟩ ![])
    (hcol : (⟨1, ![M]⟩ : Shape).BroadcastsInDim ⟨2, ![M, 1]⟩ ![0])
    (hmat : (⟨2, ![M, 1]⟩ : Shape).BroadcastsInDim ⟨2, ![M, C]⟩ ![0, 1])
    (wt : FVec Ideal ⟨1, ![M]⟩ .f32) (dst : IVec ⟨1, ![M]⟩ wd) (rows : FVec Ideal ⟨2, ![M, C]⟩ .f32)
    (i : Fin N) (k : Fin C) :
    Host.scatterAdd d (broadcastInDim ⟨2, ![N, C]⟩ ![] hz (constant (F := Ideal) ⟨0, ![]⟩ .f32 0x00000000#32))
        (broadcastInDim ⟨2, ![M, 1]⟩ ![0] hcol dst)
        (mulf (broadcastInDim ⟨2, ![M, C]⟩ ![0, 1] hmat (broadcastInDim ⟨2, ![M, 1]⟩ ![0] hcol wt)) rows) (ix2 i k)
      = ∑ e : Fin M, if (dst (ix1 e)).toInt = (i.val : ℤ) then wt (ix1 e) * rows (ix2 e k) else 0 := by
  rw [LibScatterGather.scatterAdd_rows_apply d huw hiw hsd hivd, LibRowOps.broadcastInDim_scalar, constant_apply,
    Ideal.ofBits_zero_f32, zero_add]
  refine Finset.sum_congr rfl fun e _ => ?_
  rw [LibRowOps.broadcastInDim_col, mulf_apply, LibRowOps.broadcastInDim_col_mat, LibRowOps.broadcastInDim_col]

/-- THE AGGREGATION READ AT `(i, k)`: the rows are gathered out of a feature array along a column of source words. Entry
    `(i, k)` is the sum, over the edges whose destination word is `i`, of the weight times column `k` of the feature row
    at the source word read signed and clamped into `[0, N - 1]`. -/
theorem edgeAggregate_apply {N M C wd : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (g : GatherDims ⟨2, ![N, C]⟩ ⟨2, ![M, 1]⟩ ⟨2, ![M, C]⟩)
    (hoff : g.offsetDims = [1]) (hcoll : g.collapsedSliceDims = [0]) (hob : g.operandBatchingDims = [])
    (hsb : g.startIndicesBatchingDims = []) (hsim : g.startIndexMap = [0]) (hgivd : g.indexVectorDim = 1)
    (hss : g.sliceSizes = ![1, C])
    (hz : (⟨0, ![]⟩ : Shape).BroadcastsInDim ⟨2, ![N, C]⟩ ![])
    (hcol : (⟨1, ![M]⟩ : Shape).BroadcastsInDim ⟨2, ![M, 1]⟩ ![0])
    (hmat : (⟨2, ![M, 1]⟩ : Shape).BroadcastsInDim ⟨2, ![M, C]⟩ ![0, 1])
    (wt : FVec Ideal ⟨1, ![M]⟩ .f32) (h : FVec Ideal ⟨2, ![N, C]⟩ .f32) (sc : IVec ⟨2, ![M, 1]⟩ wd)
    (dst : IVec ⟨1, ![M]⟩ wd) (hN : 0 < N) (i : Fin N) (k : Fin C) :
    Host.scatterAdd d (broadcastInDim ⟨2, ![N, C]⟩ ![] hz (constant (F := Ideal) ⟨0, ![]⟩ .f32 0x00000000#32))
        (broadcastInDim ⟨2, ![M, 1]⟩ ![0] hcol dst)
        (mulf (broadcastInDim ⟨2, ![M, C]⟩ ![0, 1] hmat (broadcastInDim ⟨2, ![M, 1]⟩ ![0] hcol wt))
          (Host.gather g h sc)) (ix2 i k)
      = ∑ e : Fin M, if (dst (ix1 e)).toInt = (i.val : ℤ)
          then wt (ix1 e) * h (ix2 (⟨min (sc (ix2 e (0 : Fin 1))).toInt.toNat (N - 1), by omega⟩ : Fin N) k) else 0 := by
  rw [weightedScatter_apply d huw hiw hsd hivd hz hcol hmat]
  refine Finset.sum_congr rfl fun e _ => ?_
  rw [LibScatterGather.gather_rows_apply g hoff hcoll hob hsb hsim hgivd hss h sc e k hN]

/-! ## A vector laid along the rows -/

/-- The host's broadcast of a length-R vector along axis 0 of R × C reads, at (b, o), the vector at b. -/
theorem broadcastInDim_rows {R C : Nat} {α : Type} (u : (⟨1, ![R]⟩ : Shape).Idx → α)
    (h : (⟨1, ![R]⟩ : Shape).BroadcastsInDim ⟨2, ![R, C]⟩ ![0]) (b : Fin R) (o : Fin C) :
    broadcastInDim ⟨2, ![R, C]⟩ ![0] h u (ix2 b o) = u (ix1 b) := by
  refine broadcastInDim_apply _ h u (ix2 b o) (ix1 b) fun a => ?_
  match a with
  | ⟨0, _⟩ =>
    show b.val = if R = 1 then 0 else b.val
    split
    · have := b.isLt; omega
    · rfl

/-! ## The index normalisation, the range test and the masked take, at a word in range -/

/-- A word that is not negative is not below the zero word, signed. -/
theorem slt_zero_of_nonneg (x : BitVec 32) (h0 : 0 ≤ x.toInt) : IntOp.cmpi .slt x 0#32 = 0#1 := by
  have hlt : ¬ (x.toInt < (0#32 : BitVec 32).toInt) := by
    rw [show (0#32 : BitVec 32).toInt = 0 from rfl]; omega
  show BitVec.ofBool (decide (x.toInt < (0#32 : BitVec 32).toInt)) = 0#1
  rw [decide_eq_false hlt]
  rfl

/-- THE INDEX NORMALISATION AT A NON-NEGATIVE WORD: "where the word is negative, the word plus the extent, else the word",
    laid out as a column, keeps a word that is not negative. -/
theorem wrapCol_apply {M : Nat} (n : BitVec 32)
    (hb : (⟨0, ![]⟩ : Shape).BroadcastsInDim ⟨1, ![M]⟩ ![])
    (hcol : (⟨1, ![M]⟩ : Shape).BroadcastsInDim ⟨2, ![M, 1]⟩ ![0])
    (idx : IVec ⟨1, ![M]⟩ 32) (e : Fin M) (z : Fin 1) (h0 : 0 ≤ (idx (ix1 e)).toInt) :
    broadcastInDim ⟨2, ![M, 1]⟩ ![0] hcol
        (select (cmpi .slt idx (broadcastInDim ⟨1, ![M]⟩ ![] hb (constantI ⟨0, ![]⟩ 32 0#32)))
          (addi idx (broadcastInDim ⟨1, ![M]⟩ ![] hb (constantI ⟨0, ![]⟩ 32 n))) idx) (ix2 e z)
      = idx (ix1 e) := by
  rw [LibRowOps.broadcastInDim_col, select_apply]
  have hc : cmpi .slt idx (broadcastInDim ⟨1, ![M]⟩ ![] hb (constantI ⟨0, ![]⟩ 32 0#32)) (ix1 e) = 0#1 :=
    slt_zero_of_nonneg (idx (ix1 e)) h0
  rw [hc, select_zero]

/-- A left fold by `and` from 1 over `i1` words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A word between zero and `hi`, signed, passes both comparisons. -/
theorem range_bits (x hi : BitVec 32) (h0 : 0 ≤ x.toInt) (h1 : x.toInt ≤ hi.toInt) :
    IntOp.andi (IntOp.cmpi .sge x 0#32) (IntOp.cmpi .sle x hi) = 1#1 := by
  have ha : IntOp.cmpi .sge x 0#32 = 1#1 := by
    show BitVec.ofBool (decide ((0#32 : BitVec 32).toInt ≤ x.toInt)) = 1#1
    rw [decide_eq_true (by rw [show (0#32 : BitVec 32).toInt = 0 from rfl]; exact h0)]
    rfl
  have hb : IntOp.cmpi .sle x hi = 1#1 := by
    show BitVec.ofBool (decide (x.toInt ≤ hi.toInt)) = 1#1
    rw [decide_eq_true h1]
    rfl
  rw [ha, hb]
  decide

/-- THE RANGE TEST AT A WORD IN RANGE: "zero ≤ word and word ≤ hi" on a column of words, and-reduced along the unit
    axis from 1, is 1 at an edge whose word lies between zero and `hi`. -/
theorem valid_apply {M : Nat} {u : Shape} (hi : BitVec 32)
    (hb0 : (⟨0, ![]⟩ : Shape).BroadcastsInDim ⟨2, ![M, 1]⟩ ![])
    (hb1 : (⟨1, ![1]⟩ : Shape).BroadcastsInDim ⟨2, ![1, 1]⟩ ![1])
    (hb2 : (⟨2, ![1, 1]⟩ : Shape).BroadcastsInDim ⟨2, ![M, 1]⟩ ![0, 1])
    (hr : (⟨2, ![M, 1]⟩ : Shape).ReducesTo [1] ⟨1, ![M]⟩) (hu : 0 < u.numel)
    (c : IVec ⟨2, ![M, 1]⟩ 32) (e : Fin M)
    (h0 : 0 ≤ (c (ix2 e (0 : Fin 1))).toInt) (h1 : (c (ix2 e (0 : Fin 1))).toInt ≤ hi.toInt) :
    Host.reduce IntOp.andi
        (andi (cmpi .sge c (broadcastInDim ⟨2, ![M, 1]⟩ ![] hb0 (constantI ⟨0, ![]⟩ 32 0#32)))
          (cmpi .sle c (broadcastInDim ⟨2, ![M, 1]⟩ ![0, 1] hb2
            (broadcastInDim ⟨2, ![1, 1]⟩ ![1] hb1 (constantI ⟨1, ![1]⟩ 32 hi)))))
        (constantI u 1 1#1) hr hu (ix1 e) = 1#1 := by
  rw [Host.reduce_eq_foldl]
  refine foldl_andi_one _ _ fun i hi' => ?_
  have hd : hr.drop i = ix1 e := of_decide_eq_true (List.mem_filter.1 hi').2
  -- the one index that drops to edge `e` is `(e, 0)`
  have hv : (hr.drop i 0 : Nat) = i 0 := Shape.ReducesTo.drop_apply_val hr i 0
  have hi0 : i = ix2 e (0 : Fin 1) := by
    funext a
    match a with
    | ⟨0, _⟩ =>
      have he : (hr.drop i 0 : Nat) = e.val := congrArg (fun j : (⟨1, ![M]⟩ : Shape).Idx => (j 0).val) hd
      exact Fin.ext (show (i 0).val = e.val by rw [← hv, he])
    | ⟨1, _⟩ => exact Fin.ext (show (i 1).val = 0 by have := idx2_lt1 i; omega)
  rw [hi0]
  exact range_bits (c (ix2 e (0 : Fin 1))) hi h0 h1

/-- THE MASKED TAKE AT A VALID EDGE: rows kept where a per-edge bit, laid along the rows, is 1 and replaced by a fill
    elsewhere read, at an edge whose bit is 1, the row itself. -/
theorem maskedRows_apply {M C : Nat} {α : Type} (hbm : (⟨1, ![M]⟩ : Shape).BroadcastsInDim ⟨2, ![M, C]⟩ ![0])
    (valid : IVec ⟨1, ![M]⟩ 1) (rows fill : (⟨2, ![M, C]⟩ : Shape).Idx → α) (e : Fin M) (k : Fin C)
    (hv : valid (ix1 e) = 1#1) :
    select (broadcastInDim ⟨2, ![M, C]⟩ ![0] hbm valid) rows fill (ix2 e k) = rows (ix2 e k) := by
  rw [select_apply, broadcastInDim_rows, hv, select_one]

end Cert.LibEdgeAggregate

end
-- ==== Proof.KHostPost.lean ====
/-
  What the host operations between the softmax and the rectifier leave, for source words that name nodes: row `i`, column
  `k` of the summed messages is the sum, over the edges whose destination word is `i`, of the edge's weight times column `k`
  of its source's features.
-/
import proofs.«426828_j31739808318041_3_alg».proof.Proof.KLists
import proofs.«426828_j31739808318041_3_alg».proof.Proof.LibScatterGather
import proofs.«426828_j31739808318041_3_alg».proof.Proof.LibRowOps
import proofs.«426828_j31739808318041_3_alg».proof.Proof.LibEdgeAggregate

noncomputable section

namespace Cert.KernelIdeal.Val

open Idealize.ShloMosaic Idealize.ShloMosaic.StableHlo Idealize.ShloMosaic.ValueIdx Idealize.SL.Sem
open Cert.KernelIdeal Cert.KernelIdeal.Gen Cert.GatSpec

/-! ## The stretch as one term over the buffers it reads -/

/-- The index normalisation (a negative word has the extent added), laid out as the column a gather takes. -/
def wrapK (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 100000#32))) src)

/-- The take's range test of a column of words: the word lies in [0, 99999]; and-reduced along the unit axis. -/
def validK (c : IVec S640000x1 32) : IVec S640000 1 :=
  Host.reduce IntOp.andi
    (andi (cmpi .sge c (broadcastInDim S640000x1 ![] bcast_S_S640000x1 (constantI S_ 32 0#32)))
      (cmpi .sle c (broadcastInDim S640000x1 ![0, 1] bcast_S1x1_S640000x1_0_1
        (broadcastInDim S1x1 ![1] bcast_S1_S1x1_1 (constantI S1 32 99999#32)))))
    (constantI S_ 1 1#1) reducesTo_S640000x1_S640000_d1 h_S_

/-- The take: the gathered rows where the word passes the range test, a not-a-number elsewhere. -/
def takeK (h : FVec Ideal S100000x128 .f32) (c : IVec S640000x1 32) : FVec Ideal S640000x128 .f32 :=
  select (broadcastInDim S640000x128 ![0] bcast_S640000_S640000x128_0 (validK c))
    (Host.gather gather_S100000x128_S640000x1_S640000x128_1_0_n_n_0_1_1128 h c)
    (broadcastInDim S640000x128 ![] bcast_S_S640000x128 (constant S_ .f32 0x7FC00000#32))

/-- The summed messages as one term over the weights (5000 rows of 128), the features and the two index vectors: the
    weights flattened and laid out as a column over the 128 feature columns, times the taken rows, added into a zero array
    at the destination rows. -/
def aggK (w : FVec Ideal S5000x128 .f32) (h : FVec Ideal S100000x128 .f32) (src dst : IVec S640000 32) :
    FVec Ideal S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 dst)
    (mulf
      (broadcastInDim S640000x128 ![0, 1] bcast_S640000x1_S640000x128_0_1
        (broadcastInDim S640000x1 ![0] bcast_S640000_S640000x1_0
          (shapeCast S640000 w shapeCasts_S5000x128_S640000)))
      (takeK h (wrapK src)))

variable (X : Valuation τ sig (Elt Ideal))

/-- After the 31 host operations the buffer of the summed messages holds that term of the entry buffers. -/
theorem post_v39_eq : rdV39 (after post X) = aggK (rdV31 X) (rdH X) (rdSrc X) (rdDst X) := by
  simp only [post, hostOps2, hostOps2_1, hostOps2_2, List.cons_append, List.nil_append, List.append_nil, List.append_assoc]
  after_results_simp
  simp only [TRef.ofBuf, TRef.toBuf, cast_eq]
  rfl

/-! ## The term read at one entry -/

/-- The flattened weights: entry `e` of the 640000-vector is row `e / 128`, lane `e % 128` of the 5000 × 128 array (both
    sit at row-major position `e`). -/
theorem weights_flat (w : FVec Ideal S5000x128 .f32) (e : Fin 640000) :
    shapeCast S640000 w shapeCasts_S5000x128_S640000 (ix1 e) = w (ix2 (rowOf e) (laneOf e)) :=
  shapeCast_apply w _ _ _ (by
    rw [Shape.rowMajor_val_two, Shape.rowMajor_val_one]
    show e.val / 128 * 128 + e.val % 128 = e.val
    omega)

/-- The index normalisation keeps a source word that names a node: such a word is not negative. -/
theorem wrapK_of_inRange (src : IVec S640000 32) (hs : InRange 100000 src) (e : Fin 640000) :
    wrapK src (ix2 e (0 : Fin 1)) = src (ix1 e) :=
  Cert.LibEdgeAggregate.wrapCol_apply _ _ _ src e 0 (hs e).1

/-- A source word that names a node passes the take's range test: it lies between 0 and 99999. -/
theorem validK_of_inRange (src : IVec S640000 32) (hs : InRange 100000 src) (e : Fin 640000) :
    validK (wrapK src) (ix1 e) = 1#1 := by
  unfold validK
  refine Cert.LibEdgeAggregate.valid_apply 99999#32 _ _ _ _ _ (wrapK src) e ?_ ?_
  · rw [wrapK_of_inRange src hs e]; exact (hs e).1
  · rw [wrapK_of_inRange src hs e, show (99999#32 : BitVec 32).toInt = 99999 from by decide]
    have := (hs e).2
    omega

/-- So the take of edge `e` is the plain gathered row: the feature row of the node its source word names. -/
theorem takeK_of_inRange (h : FVec Ideal S100000x128 .f32) (src : IVec S640000 32) (hs : InRange 100000 src)
    (e : Fin 640000) (k : Fin 128) :
    takeK h (wrapK src) (ix2 e k) = h (ix2 (nodeOf (N := 100000) (by decide) src e) k) := by
  unfold takeK
  rw [Cert.LibEdgeAggregate.maskedRows_apply _ _ _ _ e k (validK_of_inRange src hs e),
    Cert.LibScatterGather.gather_rows_apply _ rfl rfl rfl rfl rfl rfl rfl h (wrapK src) e k (by decide)]
  refine congrArg h (congrArg (fun a : Fin 100000 => ix2 a k) (Fin.ext ?_))
  show min (wrapK src (ix2 e (0 : Fin 1))).toInt.toNat (100000 - 1) = min (src (ix1 e)).toInt.toNat (100000 - 1)
  rw [wrapK_of_inRange src hs e]

/-- Entry `(i, k)` of the summed messages: the accumulating scatter of the weighted taken rows is the sum over the edges
    whose destination word is `i`; edge `e`'s weight is the softmax's entry at row `e / 128`, lane `e % 128`, and its taken
    row the features of its source node. -/
theorem post_v39 (hs : InRange 100000 (rdSrc X)) (i : Fin 100000) (k : Fin 128) :
    rdV39 (after post X) (ix2 i k)
      = ∑ e : Fin 640000, if (rdDst X (ix1 e)).toInt = (i.val : ℤ)
          then rdV31 X (ix2 (rowOf e) (laneOf e)) * rdH X (ix2 (nodeOf (N := 100000) (by decide) (rdSrc X) e) k) else 0 := by
  rw [post_v39_eq X]
  unfold aggK
  rw [Cert.LibEdgeAggregate.weightedScatter_apply _ rfl rfl rfl rfl _ _ _ _ (rdDst X) _ i k]
  refine Finset.sum_congr rfl fun e _ => ?_
  rw [weights_flat, takeK_of_inRange (rdH X) (rdSrc X) hs e k]

end Cert.KernelIdeal.Val

end
-- ==== Proof.LibPairBlocks.lean ====
/-
  General lemmas for a contraction whose index runs over interleaved pairs, taken block by block, generic in the sizes
  and in the additive commutative monoid summed in.

  `sum_pairs_blocked`: a sum over `Fin (K * T * 2)` is the sum over the blocks `s : Fin K` of the block's sum of
  EVEN entries `(s * T + c) * 2` plus its sum of ODD entries `(s * T + c) * 2 + 1`, `c : Fin T`.
  `concat_cols_left` / `concat_cols_right`: a rank-2 concatenation of two [R, T] pieces along the columns reads its
  left piece at a column `c < T` and its right piece at a column `T + c`.
  `sum_concat_cols`: so a sum over the `n = T + T` columns of a product of two such concatenations (at rows `p`, `q`)
  is the left pieces' sum of products plus the right pieces'.
-/
import Idealize.ShloMosaic.Lib.ValueIdx
import Idealize.ShloMosaic.Lib.Pipeline.Value
import Mathlib.Algebra.BigOperators.Fin
import proofs.«426828_j31739808318041_3_alg».proof.Proof.LibIdxSums

noncomputable section

namespace Cert.PairBlocks

open Idealize.ShloMosaic Idealize.ShloMosaic.ValueIdx

/-- Entry `c` of block `s` lies below `K * T`. -/
theorem block_lt {K T s c : ℕ} (hs : s < K) (hc : c < T) : s * T + c < K * T :=
  calc s * T + c < s * T + T := by omega
    _ = (s + 1) * T := by rw [Nat.add_mul, Nat.one_mul]
    _ ≤ K * T := Nat.mul_le_mul_right T hs

/-- A sum over interleaved pairs, block by block: each block's even entries, then its odd entries. -/
theorem sum_pairs_blocked {M : Type*} [AddCommMonoid M] (K T : ℕ) (f : Fin (K * T * 2) → M) :
    ∑ i, f i = ∑ s : Fin K,
      ((∑ c : Fin T, f ⟨(s.val * T + c.val) * 2, by have := block_lt s.isLt c.isLt; omega⟩)
        + ∑ c : Fin T, f ⟨(s.val * T + c.val) * 2 + 1, by have := block_lt s.isLt c.isLt; omega⟩) := by
  rw [Cert.IdxSums.sum_fin_mul (K * T) 2 f]
  simp only [Fin.sum_univ_two]
  rw [Cert.IdxSums.sum_fin_mul K T]
  refine Finset.sum_congr rfl fun s _ => ?_
  rw [← Finset.sum_add_distrib]
  rfl

variable {α : Type}

/-- A column `c < T` of a two-piece concatenation along the columns is the left piece's column `c`. -/
theorem concat_cols_left {R T n : ℕ} (u v : (⟨2, ![R, T]⟩ : Shape).Idx → α)
    (h : Shape.Concatenates [(⟨2, ![R, T]⟩ : Shape), ⟨2, ![R, T]⟩] ⟨2, ![R, n]⟩ 1)
    (p : Fin R) (c : Fin T) (c' : Fin n) (hc : c'.val = c.val) :
    concatenate (⟨2, ![R, n]⟩ : Shape) 1 [⟨(⟨2, ![R, T]⟩ : Shape), u⟩, ⟨(⟨2, ![R, T]⟩ : Shape), v⟩] h (ix2 p c')
      = u (ix2 p c) :=
  concatenate_apply_piece (t := (⟨2, ![R, n]⟩ : Shape)) (1 : Fin 2)
    [⟨(⟨2, ![R, T]⟩ : Shape), u⟩, ⟨(⟨2, ![R, T]⟩ : Shape), v⟩] h (ix2 p c') 0 (by simp)
    (⟨2, ![R, T]⟩ : Shape) u rfl rfl 0 rfl (ix2 p c)
    (fun b hb => by
      match b with
      | ⟨0, _⟩ => rfl
      | ⟨1, _⟩ => exact absurd rfl hb)
    (by show 0 + c.val = c'.val; omega)

/-- A column `T + c` of it is the right piece's column `c`. -/
theorem concat_cols_right {R T n : ℕ} (u v : (⟨2, ![R, T]⟩ : Shape).Idx → α)
    (h : Shape.Concatenates [(⟨2, ![R, T]⟩ : Shape), ⟨2, ![R, T]⟩] ⟨2, ![R, n]⟩ 1)
    (p : Fin R) (c : Fin T) (c' : Fin n) (hc : c'.val = T + c.val) :
    concatenate (⟨2, ![R, n]⟩ : Shape) 1 [⟨(⟨2, ![R, T]⟩ : Shape), u⟩, ⟨(⟨2, ![R, T]⟩ : Shape), v⟩] h (ix2 p c')
      = v (ix2 p c) :=
  concatenate_apply_piece (t := (⟨2, ![R, n]⟩ : Shape)) (1 : Fin 2)
    [⟨(⟨2, ![R, T]⟩ : Shape), u⟩, ⟨(⟨2, ![R, T]⟩ : Shape), v⟩] h (ix2 p c') 1 (by simp)
    (⟨2, ![R, T]⟩ : Shape) v rfl rfl T (by simp) (ix2 p c)
    (fun b hb => by
      match b with
      | ⟨0, _⟩ => rfl
      | ⟨1, _⟩ => exact absurd rfl hb)
    (by show T + c.val = c'.val; omega)

/-- The sum over the `n = T + T` columns of a product of two such concatenations, one read at row `p` and the other
    at row `q`, is the left pieces' sum of products plus the right pieces'. -/
theorem sum_concat_cols {M : Type} [AddCommMonoid M] [Mul M] {R R' T n : ℕ} (hn : n = T + T)
    (u v : (⟨2, ![R, T]⟩ : Shape).Idx → M) (u' v' : (⟨2, ![R', T]⟩ : Shape).Idx → M)
    (h : Shape.Concatenates [(⟨2, ![R, T]⟩ : Shape), ⟨2, ![R, T]⟩] ⟨2, ![R, n]⟩ 1)
    (h' : Shape.Concatenates [(⟨2, ![R', T]⟩ : Shape), ⟨2, ![R', T]⟩] ⟨2, ![R', n]⟩ 1)
    (p : Fin R) (q : Fin R') :
    ∑ c' : Fin n,
        concatenate (⟨2, ![R, n]⟩ : Shape) 1 [⟨(⟨2, ![R, T]⟩ : Shape), u⟩, ⟨(⟨2, ![R, T]⟩ : Shape), v⟩] h (ix2 p c')
          * concatenate (⟨2, ![R', n]⟩ : Shape) 1 [⟨(⟨2, ![R', T]⟩ : Shape), u'⟩, ⟨(⟨2, ![R', T]⟩ : Shape), v'⟩] h' (ix2 q c')
      = (∑ c : Fin T, u (ix2 p c) * u' (ix2 q c)) + ∑ c : Fin T, v (ix2 p c) * v' (ix2 q c) := by
  subst hn
  rw [Fin.sum_univ_add]
  refine congrArg₂ (· + ·) (Finset.sum_congr rfl fun c _ => ?_) (Finset.sum_congr rfl fun c _ => ?_)
  · rw [concat_cols_left u v h p c (Fin.castAdd T c) rfl, concat_cols_left u' v' h' q c (Fin.castAdd T c) rfl]
  · rw [concat_cols_right u v h p c (Fin.natAdd T c) rfl, concat_cols_right u' v' h' q c (Fin.natAdd T c) rfl]

end Cert.PairBlocks

end
-- ==== Proof.KRegion0.lean ====
/-
  The node projection's launch: whatever its two operand arrays hold when it is entered, the 100000 × 2 array it leaves
  holds at (n, j) the inner product of row `n` of the first with row `j` of the second.
-/
import proofs.«426828_j31739808318041_3_alg».proof.Proof.Gen.KernelIdeal.Frame
import proofs.«426828_j31739808318041_3_alg».proof.Proof.Spec
import proofs.«426828_j31739808318041_3_alg».proof.Proof.LibRowOps
import proofs.«426828_j31739808318041_3_alg».proof.Proof.LibPairBlocks
import Idealize.ShloMosaic.Lib.Pipeline.Value
import Idealize.ShloMosaic.Lib.ValueLayout

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The launch's operand and result arrays at their literal types. -/
abbrev r0H (c : Dev nD) : FVec Ideal S100000x128 .f32 := V c main_arg0
abbrev r0M (c : Dev nD) : FVec Ideal S2x128 .f32 := V c main_v8
abbrev r0Out (c : Dev nD) : FVec Ideal S100000x2 .f32 := (dat0 V c).arrAt 2 cfg0.N

/-! ## The body's arithmetic at one entry of its block -/

/-- One of the body's two lane sums, kept as a column and read at row p: the inner product of the block's row p with
    row r of the small operand (the row the slice at offset o takes, spread over all 10000 rows). -/
theorem proj_lane (x0 : FVec Ideal S10000x128 .f32) (x1 : FVec Ideal S2x128 .f32) (o : Nat) (r : Fin 2) (hr : r.val = o)
    (hs : S2x128.Slices ![o, 0] S1x128) (hb : S1x128.Broadcasts S10000x128) (hred : S10000x128.Reduces [1] S10000)
    (hφ : FKind.Formats .f32) (hacc : (0x00000000#32 : BitVec 32) = FKind.add.neutral .f32 hφ)
    (hsc : S10000.ShapeCasts S10000x1) (p : Fin 10000) (z : Fin 1) :
    shapeCast S10000x1 (multiReduction (F := Ideal) .add [1] S10000
        (mulf x0 (broadcastTo S10000x128 (extractStridedSlice S1x128 ![o, 0] x1 hs) hb)) 0x00000000#32 hred hφ hacc) hsc (ix2 p z)
      = ∑ k : Fin 128, x0 (ix2 p k) * x1 (ix2 r k) := by
  refine (Cert.LibRowOps.shapeCast_col _ hsc p z).trans ?_
  refine (Cert.LibRowOps.multiReduction_row _ _ hred hφ hacc p).trans ?_
  refine Finset.sum_congr rfl fun k _ => ?_
  rw [mulf_apply, broadcastTo_1b_ab_apply, slice2_axis0_apply o x1 hs (0 : Fin 1) k r (by rw [hr]; rfl)]

/-- The stored block at (p, q): the two lane sums side by side, so column q holds the inner product with row q. -/
theorem proj_pay (x0 : Vec Ideal S10000x128 .f32) (x1 : Vec Ideal S2x128 .f32) (p : Fin 10000) (q : Fin 2) :
    k0_pay1 (F := Ideal) x0 x1 (ix2 p q) = ∑ k : Fin 128, x0 (ix2 p k) * x1 (ix2 q k) := by
  unfold k0_pay1
  rw [shapeCast_self]
  match q with
  | ⟨0, _⟩ =>
    refine (Cert.PairBlocks.concat_cols_left _ _ concatenates_S10000x1_S10000x1_S10000x2_d1 p (0 : Fin 1) (0 : Fin 2) rfl).trans ?_
    exact proj_lane x0 x1 0 0 rfl _ _ _ _ _ _ p 0
  | ⟨1, _⟩ =>
    refine (Cert.PairBlocks.concat_cols_right _ _ concatenates_S10000x1_S10000x1_S10000x2_d1 p (0 : Fin 1) (1 : Fin 2) rfl).trans ?_
    exact proj_lane x0 x1 1 1 rfl _ _ _ _ _ _ p 0

/-! ## From the blocks to the array -/

/-- The two spellings of the zero offsets. -/
theorem proj_hz : (![0, 0] : Fin 2 → Nat) = fun _ => 0 := funext fun a => by fin_cases a <;> rfl

/-- The first operand's and the result's blocks move down the rows with the grid point and never along the columns;
    the second operand's one block stays where it is. -/
theorem proj_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of a grid point's block is a row of the array: ten blocks of 10000 rows. -/
theorem proj_row_lt (t : Fin cfg0.N) (p : Fin 10000) : t.val * 10000 + p.val < 100000 := by
  have ht : t.val < grid0.N := t.isLt
  have hN : grid0.N = 10 := N_0
  omega

/-- Entry (p, q) of grid point t's result block is entry (t · 10000 + p, q) of the result array. -/
theorem proj_emb_out (t : Fin cfg0.N) (p : Fin 10000) (q : Fin 2) :
    ((cfg0.win 2).blk t).view.emb (ix2 p q) = ix2 (⟨t.val * 10000 + p.val, proj_row_lt t p⟩ : Fin 100000) q := by
  obtain ⟨-, -, -, -, e4, e5⟩ := proj_idx t
  funext a; apply Fin.ext
  match a with
  | ⟨0, _⟩ =>
    show win0_2.index t (0 : Fin 2) * 10000 + 1 * p.val = t.val * 10000 + p.val
    rw [e4]; omega
  | ⟨1, _⟩ =>
    show win0_2.index t (1 : Fin 2) * 2 + 1 * q.val = q.val
    rw [e5]; omega

/-- Entry (p, k) of grid point t's block of the first operand is entry (t · 10000 + p, k) of that array. -/
theorem proj_emb_h (t : Fin cfg0.N) (p : Fin 10000) (k : Fin 128) :
    ((cfg0.win 0).blk t).view.emb (ix2 p k) = ix2 (⟨t.val * 10000 + p.val, proj_row_lt t p⟩ : Fin 100000) k := by
  obtain ⟨e0, e1, -, -, -, -⟩ := proj_idx t
  funext a; apply Fin.ext
  match a with
  | ⟨0, _⟩ =>
    show win0_0.index t (0 : Fin 2) * 10000 + 1 * p.val = t.val * 10000 + p.val
    rw [e0]; omega
  | ⟨1, _⟩ =>
    show win0_0.index t (1 : Fin 2) * 128 + 1 * k.val = k.val
    rw [e1]; omega

/-- The second operand's block is the whole of its array. -/
theorem proj_emb_m (t : Fin cfg0.N) (q : Fin 2) (k : Fin 128) :
    ((cfg0.win 1).blk t).view.emb (ix2 q k) = ix2 q k := by
  obtain ⟨-, -, e2, e3, -, -⟩ := proj_idx t
  funext a; apply Fin.ext
  match a with
  | ⟨0, _⟩ =>
    show win0_1.index t (0 : Fin 2) * 2 + 1 * q.val = q.val
    rw [e2]; omega
  | ⟨1, _⟩ =>
    show win0_1.index t (1 : Fin 2) * 128 + 1 * k.val = k.val
    rw [e3]; omega

/-- The inner product of row n of the first operand with row j of the second. -/
abbrev projAt (c : Dev nD) (n : Fin 100000) (j : Fin 2) : Elt Ideal .f32 :=
  ∑ k : Fin 128, r0H V c (ix2 n k) * r0M V c (ix2 j k)

/-- The whole result array as one function of the two operand arrays. -/
abbrev projG (c : Dev nD) : S100000x2.Idx → Elt Ideal .f32 := fun i => projAt V c (i 0) (i 1)

/-- The body's result at an entry of grid point t's block is that function at the entry's place in the array. -/
theorem proj_block (c : Dev nD) (t : Fin cfg0.N) (y : S10000x2.Idx) :
    k0_pay1 (F := Ideal) (iblk0 V c 0 t) (iblk0 V c 1 t) y = projG V c (((cfg0.win 2).blk t).view.emb y) := by
  obtain ⟨p, q, rfl⟩ : ∃ (p : Fin 10000) (q : Fin 2), y = ix2 p q := ⟨y 0, y 1, eq_ix2 y⟩
  refine (proj_pay (iblk0 V c 0 t) (iblk0 V c 1 t) p q).trans ?_
  rw [proj_emb_out t p q]
  show (∑ k : Fin 128, r0H V c (((cfg0.win 0).blk t).view.emb (ix2 p k)) * r0M V c (((cfg0.win 1).blk t).view.emb (ix2 q k)))
    = ∑ k : Fin 128, r0H V c (ix2 (⟨t.val * 10000 + p.val, proj_row_lt t p⟩ : Fin 100000) k) * r0M V c (ix2 q k)
  refine Finset.sum_congr rfl fun k _ => ?_
  rw [proj_emb_h t p k, proj_emb_m t q k]

/-- What a grid point writes back is its block of that function. -/
theorem proj_flushed (c : Dev nD) (t : Fin cfg0.N) :
    (dat0 V c).flushed 2 t = ((cfg0.win 2).blk t).view.read (Elt Ideal) (projG V c) := by
  show (cfg0.win 2).cut (grid0.coords t) ((dat0 V c).after 2 t) = _
  rw [after0_2]
  unfold out0_2
  rw [View.canon_unit_zero proj_hz]
  simp only [View.ld_unit_zero (S := S10000x128) proj_hz, View.ld_unit_zero (S := S2x128) proj_hz]
  funext y
  exact proj_block V c t ((win0 2).xinj (grid0.coords t) y)

/-- An entry of the array lies in a grid point's result block exactly when each coordinate lies in the block's range. -/
theorem proj_mem_blk (t : Fin cfg0.N) (i : S100000x2.Idx) :
    i ∈ ((cfg0.win 2).blk t).view.set ↔ ∀ a : Fin 2, win0_2.index t a * S10000x2.size a ≤ (i a).val
      ∧ (i a).val < win0_2.index t a * S10000x2.size a + S10000x2.size a := by
  show i ∈ ((View.whole main_v18).slice (win0_2.rect t)).set ↔ _
  rw [View.set_slice_whole, Rect.mem_set_unit]
  exact Iff.rfl

/-- Row r of the result is written back by grid point r / 10000: the ten blocks of 10000 rows tile the 100000 rows. -/
theorem proj_cover (i : S100000x2.Idx) :
    ∃ t : Fin cfg0.N, (cfg0.win 2).flush t = true ∧ i ∈ ((cfg0.win 2).blk t).view.set := by
  have hi0 : (i 0).val < 100000 := (i 0).isLt
  have hi1 : (i 1).val < 2 := (i 1).isLt
  have hN : grid0.N = 10 := N_0
  obtain ⟨t, ht⟩ : ∃ t : Fin cfg0.N, t.val = (i 0).val / 10000 :=
    ⟨⟨(i 0).val / 10000, by show (i 0).val / 10000 < grid0.N; omega⟩, rfl⟩
  obtain ⟨-, -, -, -, e4, e5⟩ := proj_idx t
  refine ⟨t, flush0_2 t, ?_⟩
  rw [proj_mem_blk]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 2 ≤ (i 1).val ∧ (i 1).val < win0_2.index t (1 : Fin 2) * 2 + 2
    rw [e5]; omega

theorem proj_arr (c : Dev nD) (n : Fin 100000) (j : Fin 2) :
    r0Out V c (ix2 n j) = ∑ k : Fin 128, r0H V c (ix2 n k) * r0M V c (ix2 j k) :=
  congrFun ((dat0 V c).arrAt_eq_of_cover 2 (projG V c) (fun t _ => proj_flushed V c t) proj_cover) (ix2 n j)

/-- The launch leaves its two operand arrays as it found them. -/
theorem proj_keep_h (c : Dev nD) : (dat0 V c).arrAt 0 cfg0.N = V c main_arg0 :=
  ((dat0 V c).arrAt_in 0 rfl _).trans (A_eq0 V c 0)

end Cert.KernelIdeal.Val

end
-- ==== Proof.KRegion1.lean ====
/-
  The softmax's launch (one grid point, the whole 5000 × 128 arrays resident): whatever its two operand arrays hold when it is
  entered, the array it leaves holds at row `r`, lane `q` the attention weight of edge `r · 128 + q` for the scores that are
  the two operands' entrywise sums.
-/
import proofs.«426828_j31739808318041_3_alg».proof.Proof.Gen.KernelIdeal.Frame
import proofs.«426828_j31739808318041_3_alg».proof.Proof.Spec
import proofs.«426828_j31739808318041_3_alg».proof.Proof.KLists
import proofs.«426828_j31739808318041_3_alg».proof.Proof.LibRowOps
import proofs.«426828_j31739808318041_3_alg».proof.Proof.LibIdxSums
import Idealize.ShloMosaic.Lib.Pipeline.Value
import Idealize.ShloMosaic.Lib.ValueLayout

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.GatSpec

open scoped BigOperators

/-! ## Reductions along one axis, and the spread of a single entry, read at an index -/

section Generic

variable {R C : Nat} {α : Type} {φ : FTy}

/-- A lane maximum at row p: the fold of max from the accumulator over the row. -/
theorem laneMax_row (v : FVec Ideal ⟨2, ![R, C]⟩ φ) (acc : BitVec φ.bits)
    (h : (⟨2, ![R, C]⟩ : Shape).Reduces [1] ⟨1, ![R]⟩) (hφ : FKind.Formats φ) (hacc : acc = FKind.maximumf.neutral φ hφ) (p : Fin R) :
    multiReduction .maximumf [1] ⟨1, ![R]⟩ v acc h hφ hacc (ix1 p)
      = (Finset.univ : Finset (Fin C)).fold max (Ideal.ofBits φ acc) fun k => v (ix2 p k) := by
  rw [Ideal.multiReduction_maximumf_single]
  exact Finset.fold_congr fun k _ => congrArg v (Cert.LibRowOps.lift_row h p k)

/-- The index over the one kept unit column with row p inserted is (p, z). -/
theorem lift_col (h : (⟨2, ![R, 1]⟩ : Shape).Reduces [0] ⟨1, ![1]⟩) (z : Fin 1) (p : Fin R) :
    h.lift (ix1 z) p = ix2 p z := by
  funext a
  match a with
  | ⟨0, _⟩ => exact Fin.ext rfl
  | ⟨1, _⟩ => exact Fin.ext rfl

/-- The maximum down an R × 1 column. -/
theorem colMax (v : FVec Ideal ⟨2, ![R, 1]⟩ φ) (acc : BitVec φ.bits)
    (h : (⟨2, ![R, 1]⟩ : Shape).Reduces [0] ⟨1, ![1]⟩) (hφ : FKind.Formats φ) (hacc : acc = FKind.maximumf.neutral φ hφ) (z : Fin 1) :
    multiReduction .maximumf [0] ⟨1, ![1]⟩ v acc h hφ hacc (ix1 z)
      = (Finset.univ : Finset (Fin R)).fold max (Ideal.ofBits φ acc) fun p => v (ix2 p z) := by
  rw [Ideal.multiReduction_maximumf_single]
  exact Finset.fold_congr fun p _ => congrArg v (lift_col h z p)

/-- The sum down an R × 1 column. -/
theorem colSum (v : FVec Ideal ⟨2, ![R, 1]⟩ φ) (acc : BitVec φ.bits)
    (h : (⟨2, ![R, 1]⟩ : Shape).Reduces [0] ⟨1, ![1]⟩) (hφ : FKind.Formats φ) (hacc : acc = FKind.add.neutral φ hφ) (z : Fin 1) :
    multiReduction .add [0] ⟨1, ![1]⟩ v acc h hφ hacc (ix1 z) = ∑ p : Fin R, v (ix2 p z) := by
  rw [Ideal.multiReduction_add_single]
  exact Finset.sum_congr rfl fun p _ => congrArg v (lift_col h z p)

/-- A 1 × 1 array spread over R × C reads its one element everywhere. -/
theorem broadcastTo_unit (w : (⟨2, ![1, 1]⟩ : Shape).Idx → α) (h : (⟨2, ![1, 1]⟩ : Shape).Broadcasts ⟨2, ![R, C]⟩)
    (p : Fin R) (q : Fin C) : broadcastTo ⟨2, ![R, C]⟩ w h (ix2 p q) = w (ix2 (0 : Fin 1) (0 : Fin 1)) := by
  refine broadcastTo_apply w h (ix2 p q) (ix2 (0 : Fin 1) (0 : Fin 1)) fun ax => ?_
  match ax with
  | ⟨0, _⟩ => rfl
  | ⟨1, _⟩ => rfl

end Generic

/-! ## The body's arithmetic, in three named parts -/

/-- The rectified entrywise sum, as the body spells it: a select on the test "greater than zero". -/
def rectK (x0 x1 : FVec Ideal S5000x128 .f32) : FVec Ideal S5000x128 .f32 :=
  select (cmpf .ogt (addf (shapeCast S5000x128 x0 shapeCasts_S5000x128_S5000x128) (shapeCast S5000x128 x1 shapeCasts_S5000x128_S5000x128))
      (broadcast S5000x128 (Scalar.ofBits (F := Ideal) .f32 0x00000000#32)))
    (addf (shapeCast S5000x128 x0 shapeCasts_S5000x128_S5000x128) (shapeCast S5000x128 x1 shapeCasts_S5000x128_S5000x128))
    (mulf (broadcast S5000x128 (Scalar.ofBits (F := Ideal) .f32 0x3C23D70A#32))
      (addf (shapeCast S5000x128 x0 shapeCasts_S5000x128_S5000x128) (shapeCast S5000x128 x1 shapeCasts_S5000x128_S5000x128)))

/-- The greatest entry of a matrix, spread back over the matrix, as the body spells it: along the lanes, then down the column of row maxima. -/
def gmaxK (a : FVec Ideal S5000x128 .f32) : FVec Ideal S5000x128 .f32 :=
  broadcastTo S5000x128
    (shapeCast S1x1
      (multiReduction (F := Ideal) .maximumf [0] S1
        (shapeCast S5000x1 (multiReduction (F := Ideal) .maximumf [1] S5000 a 0xFF800000#32 reduces_S5000x128_S5000 (.inl rfl) rfl) shapeCasts_S5000_S5000x1)
        0xFF800000#32 reduces_S5000x1_S1 (.inl rfl) rfl)
      shapeCasts_S1_S1x1)
    broadcasts_S1x1_S5000x128

/-- The sum of all entries of a matrix, spread back over the matrix, as the body spells it. -/
def gsumK (a : FVec Ideal S5000x128 .f32) : FVec Ideal S5000x128 .f32 :=
  broadcastTo S5000x128
    (shapeCast S1x1
      (multiReduction (F := Ideal) .add [0] S1
        (shapeCast S5000x1 (multiReduction (F := Ideal) .add [1] S5000 a 0x00000000#32 reduces_S5000x128_S5000 (.inl rfl) rfl) shapeCasts_S5000_S5000x1)
        0x00000000#32 reduces_S5000x1_S1 (.inl rfl) rfl)
      shapeCasts_S1_S1x1)
    broadcasts_S1x1_S5000x128

/-- The body's stored value is the quotient of the shifted exponentials by their total. -/
theorem pay_form (x0 x1 : Vec Ideal S5000x128 .f32) :
    k1_pay1 (F := Ideal) x0 x1
      = divf (exp (subf (rectK x0 x1) (gmaxK (rectK x0 x1)))) (gsumK (exp (subf (rectK x0 x1) (gmaxK (rectK x0 x1))))) := rfl

/-- The word of minus infinity denotes the least extended real. -/
theorem ofBits_negInf : Ideal.ofBits .f32 0xFF800000#32 = ⊥ := by simp [Ideal.ofBits, Ideal.ieee]

/-- Entry by entry the body's rectifier is the specification's: the two tests differ only at zero, where both branches give zero. -/
theorem rectK_apply (x0 x1 : FVec Ideal S5000x128 .f32) (i : S5000x128.Idx) :
    rectK x0 x1 i = lrelu (x0 i + x1 i) := by
  unfold rectK
  rw [shapeCast_self, shapeCast_self, ← lrelu_of_pos_test]
  show Scalar.select (Ideal.cmp .ogt (x0 i + x1 i) (Ideal.ofBits .f32 0x00000000#32)) (x0 i + x1 i)
      (Ideal.ofBits .f32 0x3C23D70A#32 * (x0 i + x1 i)) = _
  rw [Ideal.ofBits_zero_f32]
  show Scalar.select (BitVec.ofBool (decide ((0 : EReal) < x0 i + x1 i))) _ _ = _
  by_cases h : (0 : EReal) < x0 i + x1 i
  · rw [if_pos h, decide_eq_true h]; exact select_one _ _
  · rw [if_neg h, decide_eq_false h]; exact select_zero _ _

/-- The greatest entry, read anywhere: the greatest of the rows' greatest entries. -/
theorem gmaxK_apply (a : FVec Ideal S5000x128 .f32) (r : Fin 5000) (q : Fin 128) :
    gmaxK a (ix2 r q)
      = (Finset.univ : Finset (Fin 5000)).fold max ⊥ fun p => (Finset.univ : Finset (Fin 128)).fold max ⊥ fun k => a (ix2 p k) := by
  unfold gmaxK
  refine (broadcastTo_unit _ _ r q).trans ?_
  refine (Cert.LibRowOps.shapeCast_col _ _ (0 : Fin 1) (0 : Fin 1)).trans ?_
  refine (colMax _ _ _ _ _ (0 : Fin 1)).trans ?_
  rw [ofBits_negInf]
  refine Finset.fold_congr fun p _ => ?_
  refine (Cert.LibRowOps.shapeCast_col _ _ p (0 : Fin 1)).trans ?_
  exact (laneMax_row _ _ _ _ _ p).trans (by rw [ofBits_negInf])

/-- The total, read anywhere: the sum of the rows' sums. -/
theorem gsumK_apply (a : FVec Ideal S5000x128 .f32) (r : Fin 5000) (q : Fin 128) :
    gsumK a (ix2 r q) = ∑ p : Fin 5000, ∑ k : Fin 128, a (ix2 p k) := by
  unfold gsumK
  refine (broadcastTo_unit _ _ r q).trans ?_
  refine (Cert.LibRowOps.shapeCast_col _ _ (0 : Fin 1) (0 : Fin 1)).trans ?_
  refine (colSum _ _ _ _ _ (0 : Fin 1)).trans ?_
  refine Finset.sum_congr rfl fun p _ => ?_
  refine (Cert.LibRowOps.shapeCast_col _ _ p (0 : Fin 1)).trans ?_
  exact Cert.LibRowOps.multiReduction_row _ _ _ _ _ p

/-! ## The launch's edge scores and the specification's softmax -/

/-- The scores the launch rectifies, listed edge by edge: the two operands' entrywise sum at the edge's row and lane. -/
abbrev score (x0 x1 : FVec Ideal S5000x128 .f32) : Fin 640000 → EReal :=
  fun e => x0 (ix2 (rowOf e) (laneOf e)) + x1 (ix2 (rowOf e) (laneOf e))

theorem rowOf_edge (r : Fin 5000) (q : Fin 128) (h : r.val * 128 + q.val < 640000) : rowOf ⟨r.val * 128 + q.val, h⟩ = r :=
  Fin.ext (by show (r.val * 128 + q.val) / 128 = r.val; omega)

theorem laneOf_edge (r : Fin 5000) (q : Fin 128) (h : r.val * 128 + q.val < 640000) : laneOf ⟨r.val * 128 + q.val, h⟩ = q :=
  Fin.ext (by show (r.val * 128 + q.val) % 128 = q.val; omega)

/-- The score of edge r · 128 + q is the sum of the operands' entries at (r, q). -/
theorem score_edge (x0 x1 : FVec Ideal S5000x128 .f32) (r : Fin 5000) (q : Fin 128) (h : r.val * 128 + q.val < 640000) :
    score x0 x1 ⟨r.val * 128 + q.val, h⟩ = x0 (ix2 r q) + x1 (ix2 r q) := by
  show x0 (ix2 (rowOf ⟨_, h⟩) (laneOf ⟨_, h⟩)) + x1 (ix2 (rowOf ⟨_, h⟩) (laneOf ⟨_, h⟩)) = _
  rw [rowOf_edge, laneOf_edge]

/-- The greatest of the 5000 row maxima of the rectified matrix is the greatest rectified score over all edges. -/
theorem emax_rows (x0 x1 : FVec Ideal S5000x128 .f32) :
    ((Finset.univ : Finset (Fin 5000)).fold max ⊥ fun p => (Finset.univ : Finset (Fin 128)).fold max ⊥ fun k => rectK x0 x1 (ix2 p k))
      = emax (score x0 x1) := by
  unfold emax
  refine Eq.trans ?_ (fold_max_rows 5000 128 (fun e : Fin (5000 * 128) => lrelu (score x0 x1 e)))
  refine Finset.fold_congr fun p _ => Finset.fold_congr fun k _ => ?_
  rw [rectK_apply]
  exact congrArg lrelu (score_edge x0 x1 p k _).symm

/-- The sum of the 5000 row sums of the shifted exponentials is their sum over all edges. -/
theorem esum_rows (x0 x1 : FVec Ideal S5000x128 .f32) (M : EReal) :
    (∑ p : Fin 5000, ∑ k : Fin 128, Ideal.exp (rectK x0 x1 (ix2 p k) - M))
      = ∑ e : Fin 640000, Ideal.exp (lrelu (score x0 x1 e) - M) := by
  refine Eq.trans ?_ (Cert.IdxSums.sum_fin_mul 5000 128 (fun e : Fin (5000 * 128) => Ideal.exp (lrelu (score x0 x1 e) - M))).symm
  refine Finset.sum_congr rfl fun p _ => Finset.sum_congr rfl fun k _ => ?_
  rw [rectK_apply]
  exact congrArg (fun z => Ideal.exp (lrelu z - M)) (score_edge x0 x1 p k _).symm

/-- THE BODY'S STORED VALUE at row r, lane q: the attention weight of edge r · 128 + q. -/
theorem pay_apply (x0 x1 : FVec Ideal S5000x128 .f32) (r : Fin 5000) (q : Fin 128) :
    k1_pay1 (F := Ideal) x0 x1 (ix2 r q) = attn (score x0 x1) (edge r q) := by
  rw [pay_form]
  show Ideal.div (Ideal.exp (rectK x0 x1 (ix2 r q) - gmaxK (rectK x0 x1) (ix2 r q)))
      (gsumK (exp (subf (rectK x0 x1) (gmaxK (rectK x0 x1)))) (ix2 r q)) = _
  have hs : gsumK (exp (subf (rectK x0 x1) (gmaxK (rectK x0 x1)))) (ix2 r q) = esum (score x0 x1) := by
    unfold esum
    rw [gsumK_apply, ← esum_rows]
    refine Finset.sum_congr rfl fun p _ => Finset.sum_congr rfl fun k _ => ?_
    show Ideal.exp (rectK x0 x1 (ix2 p k) - gmaxK (rectK x0 x1) (ix2 p k)) = _
    rw [gmaxK_apply, emax_rows]
  rw [hs, gmaxK_apply, emax_rows, rectK_apply]
  unfold attn
  rw [← score_edge x0 x1 r q (edge r q).isLt]

/-! ## From the one grid point's block to the array -/

variable (V : (c : Dev nD) → (b : Ref sig .tc) → Buf (Elt Ideal) ((c : Thread nD τ).loc b))

/-- The launch's operand and result arrays at their literal types. -/
abbrev r1A (c : Dev nD) : FVec Ideal S5000x128 .f32 := V c main_v29
abbrev r1B (c : Dev nD) : FVec Ideal S5000x128 .f32 := V c main_v30
abbrev r1Out (c : Dev nD) : FVec Ideal S5000x128 .f32 := (dat1 V c).arrAt 2 cfg1.N

theorem zeros2 : (![0, 0] : Fin 2 → Nat) = fun _ => 0 := funext fun a => by fin_cases a <;> rfl

/-- At every point of the grid every window's block index is zero on both axes: each block is its whole array. -/
theorem index_zero : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- So the first operand's block at a point is the first operand array … -/
theorem iblk_A (c : Dev nD) (t : Fin cfg1.N) : (iblk1 V c 0 t : FVec Ideal S5000x128 .f32) = r1A V c := by
  obtain ⟨e0, e1, -⟩ := index_zero t
  unfold iblk1
  funext y
  show V c main_v29 (((cfg1.win 0).blk t).view.emb y) = V c main_v29 y
  refine congrArg (V c main_v29) (funext fun a => Fin.ext ?_)
  match a with
  | ⟨0, _⟩ => show win1_0.index t (0 : Fin 2) * 5000 + 1 * (y 0).val = (y 0).val; omega
  | ⟨1, _⟩ => show win1_0.index t (1 : Fin 2) * 128 + 1 * (y 1).val = (y 1).val; omega

/-- … and the second's the second. -/
theorem iblk_B (c : Dev nD) (t : Fin cfg1.N) : (iblk1 V c 1 t : FVec Ideal S5000x128 .f32) = r1B V c := by
  obtain ⟨-, -, e2, e3, -⟩ := index_zero t
  unfold iblk1
  funext y
  show V c main_v30 (((cfg1.win 1).blk t).view.emb y) = V c main_v30 y
  refine congrArg (V c main_v30) (funext fun a => Fin.ext ?_)
  match a with
  | ⟨0, _⟩ => show win1_1.index t (0 : Fin 2) * 5000 + 1 * (y 0).val = (y 0).val; omega
  | ⟨1, _⟩ => show win1_1.index t (1 : Fin 2) * 128 + 1 * (y 1).val = (y 1).val; omega

/-- What a point writes back is its block of the body's value of the two operand arrays. -/
theorem flushed_out (c : Dev nD) (t : Fin cfg1.N) :
    (dat1 V c).flushed 2 t = ((cfg1.win 2).blk t).view.read (Elt Ideal) (k1_pay1 (F := Ideal) (r1A V c) (r1B V c)) := by
  show (cfg1.win 2).cut (grid1.coords t) ((dat1 V c).after 2 t) = _
  rw [after1_2]
  unfold out1_2
  rw [View.canon_unit_zero zeros2]
  simp only [View.ld_unit_zero (S := S5000x128) zeros2]
  rw [iblk_A, iblk_B]
  obtain ⟨-, -, -, -, e4, e5⟩ := index_zero t
  funext y
  show k1_pay1 (F := Ideal) (r1A V c) (r1B V c) ((cfg1.win 2).xinj (grid1.coords t) y)
    = k1_pay1 (F := Ideal) (r1A V c) (r1B V c) (((cfg1.win 2).blk t).view.emb y)
  refine congrArg _ (funext fun a => Fin.ext ?_)
  match a with
  | ⟨0, _⟩ => show (y 0).val = win1_2.index t (0 : Fin 2) * 5000 + 1 * (y 0).val; omega
  | ⟨1, _⟩ => show (y 1).val = win1_2.index t (1 : Fin 2) * 128 + 1 * (y 1).val; omega

/-- The one point's result block is the whole result array. -/
theorem cover_out (i : S5000x128.Idx) :
    ∃ t : Fin cfg1.N, (cfg1.win 2).flush t = true ∧ i ∈ ((cfg1.win 2).blk t).view.set := by
  refine ⟨t1_0, flush1_2 _, ?_⟩
  show i ∈ ((View.whole main_v31).slice (win1_2.rect t1_0)).set
  rw [View.set_slice_whole, Rect.mem_set_unit]
  have e : ∀ a, win1_2.index t1_0 a * win1_2.size a = 0 ∧ win1_2.xsize (grid1.coords t1_0) a = S5000x128.size a := by
    decide +kernel
  intro a
  rw [(e a).1, (e a).2, Nat.zero_add]
  exact ⟨Nat.zero_le _, (i a).isLt⟩

/-- The array the launch leaves is the body's value of the two operand arrays. -/
theorem r1Out_eq (c : Dev nD) : r1Out V c = k1_pay1 (F := Ideal) (r1A V c) (r1B V c) :=
  (dat1 V c).arrAt_eq_of_cover 2 _ (fun t _ => flushed_out V c t) cover_out

theorem attn_arr (c : Dev nD) (r : Fin 5000) (q : Fin 128) :
    r1Out V c (ix2 r q)
      = attn (fun e : Fin 640000 => r1A V c (ix2 (rowOf e) (laneOf e)) + r1B V c (ix2 (rowOf e) (laneOf e))) (edge r q) :=
  (congrFun (r1Out_eq V c) (ix2 r q)).trans (pay_apply (r1A V c) (r1B V c) r q)

end Cert.KernelIdeal.Val

end
-- ==== Proof.KRegion2.lean ====
/-
  The rectifier's launch: whatever its operand array holds when it is entered, the array it leaves holds the operand's
  entries with the negative ones replaced by zero.
-/
import proofs.«426828_j31739808318041_3_alg».proof.Proof.Gen.KernelIdeal.Frame
import proofs.«426828_j31739808318041_3_alg».proof.Proof.Spec
import Idealize.ShloMosaic.Lib.Pipeline.Value

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The launch's operand and result arrays at their literal types. -/
abbrev r2In (c : Dev nD) : FVec Ideal S100000x128 .f32 := V c main_v39
abbrev r2Out (c : Dev nD) : FVec Ideal S100000x128 .f32 := (dat2 V c).arrAt 1 cfg2.N

/-- The body's arithmetic at one entry of its block: the entry, or zero when the entry is negative (the zero word
    reads as the number zero). -/
theorem relu_pay (x : Vec Ideal S10000x128 .f32) (j : S10000x128.Idx) :
    k2_pay1 (F := Ideal) x j = max (x j) 0 := by
  unfold k2_pay1
  rw [shapeCast_self]
  show max (x j) (Ideal.ofBits .f32 0x00000000#32) = max (x j) 0
  rw [Ideal.ofBits_zero_f32]

/-- The two spellings of the zero offsets. -/
theorem relu_hz : (![0, 0] : Fin 2 → Nat) = fun _ => 0 := funext fun a => by fin_cases a <;> rfl

/-- Both windows' blocks move down the rows with the grid point and never along the columns. -/
theorem relu_idx : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- The whole result array as one function of the operand array. -/
abbrev reluG (c : Dev nD) : S100000x128.Idx → Elt Ideal .f32 := fun i => max (r2In V c i) 0

/-- What a grid point writes back is its block of that function: the operand's block and the result's block sit at
    the same rows of their arrays. -/
theorem relu_flushed (c : Dev nD) (t : Fin cfg2.N) :
    (dat2 V c).flushed 1 t = ((cfg2.win 1).blk t).view.read (Elt Ideal) (reluG V c) := by
  show (cfg2.win 1).cut (grid2.coords t) ((dat2 V c).after 1 t) = _
  rw [after2_1]
  unfold out2_1
  rw [View.canon_unit_zero relu_hz]
  simp only [View.ld_unit_zero (S := S10000x128) relu_hz]
  funext j
  refine (relu_pay (iblk2 V c 0 t) ((win2 1).xinj (grid2.coords t) j)).trans ?_
  show max (r2In V c (((cfg2.win 0).blk t).view.emb j)) 0 = max (r2In V c (((cfg2.win 1).blk t).view.emb j)) 0
  obtain ⟨e0, e1, e2, e3⟩ := relu_idx t
  have h0 : ((cfg2.win 0).blk t).view.emb j = ((cfg2.win 1).blk t).view.emb j := by
    funext a; apply Fin.ext
    match a with
    | ⟨0, _⟩ =>
      show win2_0.index t (0 : Fin 2) * 10000 + 1 * (j 0).val = win2_1.index t (0 : Fin 2) * 10000 + 1 * (j 0).val
      rw [e0, e2]
    | ⟨1, _⟩ =>
      show win2_0.index t (1 : Fin 2) * 128 + 1 * (j 1).val = win2_1.index t (1 : Fin 2) * 128 + 1 * (j 1).val
      rw [e1, e3]
  rw [h0]

/-- An entry of the array lies in a grid point's result block exactly when each coordinate lies in the block's range. -/
theorem relu_mem_blk (t : Fin cfg2.N) (i : S100000x128.Idx) :
    i ∈ ((cfg2.win 1).blk t).view.set ↔ ∀ a : Fin 2, win2_1.index t a * S10000x128.size a ≤ (i a).val
      ∧ (i a).val < win2_1.index t a * S10000x128.size a + S10000x128.size a := by
  show i ∈ ((View.whole main_v40).slice (win2_1.rect t)).set ↔ _
  rw [View.set_slice_whole, Rect.mem_set_unit]
  exact Iff.rfl

/-- Row r of the array is written back by grid point r / 10000: the ten blocks of 10000 rows tile the 100000 rows. -/
theorem relu_cover (i : S100000x128.Idx) :
    ∃ t : Fin cfg2.N, (cfg2.win 1).flush t = true ∧ i ∈ ((cfg2.win 1).blk t).view.set := by
  have hi0 : (i 0).val < 100000 := (i 0).isLt
  have hi1 : (i 1).val < 128 := (i 1).isLt
  have hN : grid2.N = 10 := N_2
  obtain ⟨t, ht⟩ : ∃ t : Fin cfg2.N, t.val = (i 0).val / 10000 :=
    ⟨⟨(i 0).val / 10000, by show (i 0).val / 10000 < grid2.N; omega⟩, rfl⟩
  obtain ⟨-, -, e2, e3⟩ := relu_idx t
  refine ⟨t, flush2_1 t, ?_⟩
  rw [relu_mem_blk]
  intro a
  match a with
  | ⟨0, _⟩ =>
    show win2_1.index t (0 : Fin 2) * 10000 ≤ (i 0).val ∧ (i 0).val < win2_1.index t (0 : Fin 2) * 10000 + 10000
    rw [e2, ht]; omega
  | ⟨1, _⟩ =>
    show win2_1.index t (1 : Fin 2) * 128 ≤ (i 1).val ∧ (i 1).val < win2_1.index t (1 : Fin 2) * 128 + 128
    rw [e3]; omega

theorem relu_arr (c : Dev nD) (i : S100000x128.Idx) : r2Out V c i = max (r2In V c i) 0 :=
  congrFun ((dat2 V c).arrAt_eq_of_cover 1 (reluG V c) (fun t _ => relu_flushed V c t) relu_cover) i

end Cert.KernelIdeal.Val

end
-- ==== Proof.KAssemble.lean ====
/-
  The kernel's result buffer after its run, for index words that name nodes: the fold through the three launches and the
  host operations between them, read back to the launch memory. The last launch rectifies the summed messages; those are
  the aggregation of the source rows under the second launch's weights; the weights are the softmax of the sums of the two
  operands the middle stretch prepares; those hold the first launch's per-node numbers of the two endpoints and the
  constant; the first launch's operand rows are `W a_lo` and `W a_hi`.
-/
import proofs.«426828_j31739808318041_3_alg».proof.Proof.Gen.KernelIdeal.Frame
import proofs.«426828_j31739808318041_3_alg».proof.Proof.KLists
import proofs.«426828_j31739808318041_3_alg».proof.Proof.KHostPre
import proofs.«426828_j31739808318041_3_alg».proof.Proof.KHostMid
import proofs.«426828_j31739808318041_3_alg».proof.Proof.KHostPost
import proofs.«426828_j31739808318041_3_alg».proof.Proof.KRegion0
import proofs.«426828_j31739808318041_3_alg».proof.Proof.KRegion1
import proofs.«426828_j31739808318041_3_alg».proof.Proof.KRegion2

noncomputable section

namespace Cert.KernelIdeal.Val

open Idealize.ShloMosaic Idealize.ShloMosaic.StableHlo Idealize.ShloMosaic.TcCoe Idealize.ShloMosaic.ValueIdx Idealize.SL.Sem
open Cert.KernelIdeal Cert.KernelIdeal.Gen Cert.GatSpec

variable (m : (ℓ : Loc nD τ sig) → Buf (Elt Ideal) ℓ) (ρ : Dev nD → PrngReg)

/-! ## The boundaries between the launches, as the three stretches -/

theorem W11_eq (c : Dev nD) : W11 m ρ c = after mid (W2 m ρ c) := by
  simp only [mid, after_append]

theorem W15_eq (c : Dev nD) : W15 m ρ c = after post (W12 m ρ c) := by
  simp only [post, after_append]

/-! ## The arguments the later stretches read are still the launch's -/

theorem W1_h (c : Dev nD) : rdH (W1 m ρ c) = rdH (W0 m ρ c) := pre_keep_h (W0 m ρ c)
theorem W1_src (c : Dev nD) : rdSrc (W1 m ρ c) = rdSrc (W0 m ρ c) := pre_keep_src (W0 m ρ c)
theorem W1_dst (c : Dev nD) : rdDst (W1 m ρ c) = rdDst (W0 m ρ c) := pre_keep_dst (W0 m ρ c)

theorem W2_h (c : Dev nD) : rdH (W2 m ρ c) = rdH (W0 m ρ c) :=
  ((W2_arr m ρ c 0).trans (proj_keep_h (V1 m ρ) c)).trans (W1_h m ρ c)
theorem W2_src (c : Dev nD) : rdSrc (W2 m ρ c) = rdSrc (W0 m ρ c) :=
  (W2_of_ne m ρ c main_arg1 (by decide)).trans (W1_src m ρ c)
theorem W2_dst (c : Dev nD) : rdDst (W2 m ρ c) = rdDst (W0 m ρ c) :=
  (W2_of_ne m ρ c main_arg2 (by decide)).trans (W1_dst m ρ c)

theorem W12_h (c : Dev nD) : rdH (W12 m ρ c) = rdH (W0 m ρ c) := by
  refine (W12_of_ne m ρ c main_arg0 (by decide)).trans ?_
  show rdH (W11 m ρ c) = _
  rw [W11_eq, mid_keep_h, W2_h]
theorem W12_src (c : Dev nD) : rdSrc (W12 m ρ c) = rdSrc (W0 m ρ c) := by
  refine (W12_of_ne m ρ c main_arg1 (by decide)).trans ?_
  show rdSrc (W11 m ρ c) = _
  rw [W11_eq, mid_keep_src, W2_src]
theorem W12_dst (c : Dev nD) : rdDst (W12 m ρ c) = rdDst (W0 m ρ c) := by
  refine (W12_of_ne m ρ c main_arg2 (by decide)).trans ?_
  show rdDst (W11 m ρ c) = _
  rw [W11_eq, mid_keep_dst, W2_dst]

/-! ## The first launch's per-node numbers, and the constant -/

/-- After the first launch, entry (n, half) of its result is node `n`'s per-node number for that half. -/
theorem W2_v18 (c : Dev nD) (n : Fin 100000) (half : Fin 2) :
    rdV18 (W2 m ρ c) (ix2 n half)
      = nodeProj (rdH (W0 m ρ c)) (rdW (W0 m ρ c)) (rdA (W0 m ρ c)) n half := by
  have e : rdV18 (W2 m ρ c) = r0Out (V1 m ρ) c := W2_arr m ρ c 2
  rw [e, proj_arr]
  unfold nodeProj
  refine Finset.sum_congr rfl fun k _ => ?_
  have eh : r0H (V1 m ρ) c = rdH (W0 m ρ c) := W1_h m ρ c
  have ev : r0M (V1 m ρ) c (ix2 half k) = wa (rdW (W0 m ρ c)) (rdA (W0 m ρ c)) half k := pre_v8 (W0 m ρ c) half k
  rw [eh, ev]

theorem W2_v17 (c : Dev nD) :
    rdV17 (W2 m ρ c) ix0 = scoreConst (rdB (W0 m ρ c)) (rdA (W0 m ρ c)) (rdBeta (W0 m ρ c)) := by
  have e : rdV17 (W2 m ρ c) = rdV17 (W1 m ρ c) := W2_of_ne m ρ c main_v17 (by decide)
  rw [e]
  exact pre_v17 (W0 m ρ c)

/-! ## The softmax's operands, and its weights -/

/-- An edge is the edge at its own row and lane. -/
theorem edge_row_lane (e : Fin 640000) : edge (rowOf e) (laneOf e) = e :=
  Fin.ext (by show e.val / 128 * 128 + e.val % 128 = e.val; omega)

variable (c : Dev nD) (hs : InRange 100000 (rdSrc (W0 m ρ c))) (hd : InRange 100000 (rdDst (W0 m ρ c)))

include hs hd in
/-- The two operands of the softmax's launch sum, at an edge's row and lane, to the edge's factored score. -/
theorem W11_score (e : Fin 640000) :
    rdV29 (W11 m ρ c) (ix2 (rowOf e) (laneOf e)) + rdV30 (W11 m ρ c) (ix2 (rowOf e) (laneOf e))
      = kscore (rdH (W0 m ρ c)) (rdW (W0 m ρ c)) (rdB (W0 m ρ c)) (rdA (W0 m ρ c)) (rdBeta (W0 m ρ c))
          (nodeOf (N := 100000) (by decide) (rdSrc (W0 m ρ c))) (nodeOf (N := 100000) (by decide) (rdDst (W0 m ρ c))) e := by
  have hs2 : InRange 100000 (rdSrc (W2 m ρ c)) := by rw [W2_src]; exact hs
  have hd2 : InRange 100000 (rdDst (W2 m ρ c)) := by rw [W2_dst]; exact hd
  rw [W11_eq, mid_v29 (W2 m ρ c) hs2, mid_v30 (W2 m ρ c) hd2, edge_row_lane, W2_v18, W2_v18, W2_v17, W2_src, W2_dst]
  rfl

include hs hd in
/-- After the second launch, row `r`, lane `q` of its result is the attention weight of edge `r · 128 + q`. -/
theorem W12_v31 (r : Fin 5000) (q : Fin 128) :
    rdV31 (W12 m ρ c) (ix2 r q)
      = attn (kscore (rdH (W0 m ρ c)) (rdW (W0 m ρ c)) (rdB (W0 m ρ c)) (rdA (W0 m ρ c)) (rdBeta (W0 m ρ c))
          (nodeOf (N := 100000) (by decide) (rdSrc (W0 m ρ c))) (nodeOf (N := 100000) (by decide) (rdDst (W0 m ρ c)))) (edge r q) := by
  have e : rdV31 (W12 m ρ c) = r1Out (V11 m ρ) c := W12_arr m ρ c 2
  rw [e, attn_arr]
  refine congrArg (fun x => attn x (edge r q)) (funext fun e' => ?_)
  exact W11_score m ρ c hs hd e'

/-! ## The result -/

include hs hd in
theorem kernel_value (i : Fin 100000) (k : Fin 128) :
    rdV40 (W16 m ρ c) (ix2 i k)
      = agg (rdH (W0 m ρ c)) (nodeOf (N := 100000) (by decide) (rdSrc (W0 m ρ c))) (rdDst (W0 m ρ c))
          (attn (kscore (rdH (W0 m ρ c)) (rdW (W0 m ρ c)) (rdB (W0 m ρ c)) (rdA (W0 m ρ c)) (rdBeta (W0 m ρ c))
            (nodeOf (N := 100000) (by decide) (rdSrc (W0 m ρ c))) (nodeOf (N := 100000) (by decide) (rdDst (W0 m ρ c))))) i k := by
  have hs12 : InRange 100000 (rdSrc (W12 m ρ c)) := by rw [W12_src]; exact hs
  have e : rdV40 (W16 m ρ c) = r2Out (V15 m ρ) c := W16_arr m ρ c 1
  have e39 : r2In (V15 m ρ) c = rdV39 (after post (W12 m ρ c)) := by
    show rdV39 (W15 m ρ c) = _
    rw [W15_eq]
  rw [e, relu_arr, e39, post_v39 (W12 m ρ c) hs12]
  unfold agg
  refine congrArg (fun x => max x 0) (Finset.sum_congr rfl fun e' _ => ?_)
  rw [W12_dst, W12_src, W12_h, W12_v31 m ρ c hs hd, edge_row_lane]

end Cert.KernelIdeal.Val

end
-- ==== Proof.RefTerms.lean ====
/-
  The reference's @main as four pure functions of the argument arrays, in the order it computes them: an edge's score from
  the projected features of its two endpoints; the leaky rectifier; the softmax over all edges; the weighted source rows
  summed into their destinations and rectified.
-/
import proofs.«426828_j31739808318041_3_alg».proof.Proof.Gen.ReferenceIdeal
import Idealize.ShloMosaic.PureOps.Ideal

noncomputable section

namespace Cert.ReferenceIdeal.Val

open Idealize.ShloMosaic Idealize.SL.Sem
open Cert.ReferenceIdeal
open Cert.ReferenceIdeal.Facts₀ Cert.ReferenceIdeal.Facts

/-- jnp's index normalisation (a negative word has the extent added), laid out as the column a gather takes. -/
def wrapCol (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 100000#32))) idx)

/-- The projected features `h · W + b`. -/
def projT (h : FVec Ideal S100000x128 .f32) (W : FVec Ideal S128x128 .f32) (b : FVec Ideal S128 .f32) :
    FVec Ideal S100000x128 .f32 :=
  addf (Host.dotGeneral dot_S100000x128_S128x128_S100000x128_1_0_0_1_n_n none h W)
    (broadcastInDim S100000x128 ![0, 1] bcast_S1x128_S100000x128_0_1 (broadcastInDim S1x128 ![1] bcast_S128_S1x128_1 b))

/-- The scores: the two endpoints' projected rows side by side, against the attention vector, plus its bias. -/
def scoreT (h : FVec Ideal S100000x128 .f32) (src dst : IVec S640000 32) (W : FVec Ideal S128x128 .f32)
    (b : FVec Ideal S128 .f32) (a : FVec Ideal S256x1 .f32) (β : FVec Ideal S1 .f32) : FVec Ideal S640000x1 .f32 :=
  addf
    (Host.dotGeneral dot_S640000x256_S256x1_S640000x1_1_0_0_1_n_n none
      (concatenate S640000x256 1
        [⟨S640000x128, Host.gather gather_S100000x128_S640000x1_S640000x128_1_0_n_n_0_1_1128 (projT h W b) (wrapCol src)⟩,
         ⟨S640000x128, Host.gather gather_S100000x128_S640000x1_S640000x128_1_0_n_n_0_1_1128 (projT h W b) (wrapCol dst)⟩]
        concatenates_S640000x128_S640000x128_S640000x256_d1) a)
    (broadcastInDim S640000x1 ![0, 1] bcast_S1x1_S640000x1_0_1 (broadcastInDim S1x1 ![1] bcast_S1_S1x1_1 β))

/-- The leaky rectifier, zero put with the upper branch. -/
def lreluT (x : FVec Ideal S640000x1 .f32) : FVec Ideal S640000x1 .f32 :=
  select (cmpf .oge x (broadcastInDim S640000x1 ![] bcast_S_S640000x1 (constant S_ .f32 0x00000000#32))) x
    (mulf (broadcastInDim S640000x1 ![] bcast_S_S640000x1 (constant S_ .f32 0x3C23D70A#32)) x)

/-- The softmax over all edges, as one vector of weights. -/
def softT (y : FVec Ideal S640000x1 .f32) : FVec Ideal S640000 .f32 :=
  let mx : FVec Ideal S1 .f32 :=
    maximumf (broadcastInDim S1 ![] bcast_S_S1 (constant S_ .f32 0xFF800000#32))
      (Host.reduce FloatOps.maximumf y (constant S_ .f32 0xFF800000#32) reducesTo_S640000x1_S1_d0 h_S_)
  let ex : FVec Ideal S640000x1 .f32 :=
    Host.exp (subf y (broadcastInDim S640000x1 ![0, 1] bcast_S1x1_S640000x1_0_1 (broadcastInDim S1x1 ![1] bcast_S1_S1x1_1 mx)))
  let sm : FVec Ideal S1 .f32 := Host.reduceAdd ex (constant S_ .f32 0x00000000#32) reducesTo_S640000x1_S1_d0 h_S_
  shapeCast S640000
    (Host.divf ex (broadcastInDim S640000x1 ![0, 1] bcast_S1x1_S640000x1_0_1 (broadcastInDim S1x1 ![1] bcast_S1_S1x1_1 sm)))
    shapeCasts_S640000x1_S640000

/-- The aggregation: each edge's weight times its source's ORIGINAL feature row, summed into the edge's destination row,
    negative sums replaced by zero. -/
def tailT (w : FVec Ideal S640000 .f32) (h : FVec Ideal S100000x128 .f32) (src dst : IVec S640000 32) :
    FVec Ideal S100000x128 .f32 :=
  maximumf
    (Host.scatterAdd scatter_S100000x128_S640000x1_S640000x128_1_0_0_1
      (broadcastInDim S100000x128 ![] bcast_S_S100000x128 (constant S_ .f32 0x00000000#32))
      (broadcastInDim S640000x1 ![0] bcast_S640000_S640000x1_0 dst)
      (mulf
        (broadcastInDim S640000x128 ![0, 1] bcast_S640000x1_S640000x128_0_1
          (broadcastInDim S640000x1 ![0] bcast_S640000_S640000x1_0 w))
        (Host.gather gather_S100000x128_S640000x1_S640000x128_1_0_n_n_0_1_1128 h (wrapCol src))))
    (broadcastInDim S100000x128 ![] bcast_S_S100000x128 (constant S_ .f32 0x00000000#32))

end Cert.ReferenceIdeal.Val

end
-- ==== Proof.RefRun.lean ====
/-
  The reference's run: its @main is one straight line of host operations (the functions jax outlined unfolded where they
  are called), so every weakly fair execution terminates with each buffer at the fold of the operations' results over the
  launch contents.
-/
import proofs.«426828_j31739808318041_3_alg».proof.Proof.Gen.ReferenceIdeal
import proofs.«426828_j31739808318041_3_alg».proof.Proof.RefTerms
import Idealize.ShloMosaic.Lib.StableHlo.Run
import Idealize.ShloMosaic.PureOps.Ideal

noncomputable section

namespace Cert.ReferenceIdeal.Val

open Idealize.ShloMosaic Idealize.ShloMosaic.StableHlo Idealize.SL.Sem
open Cert.ReferenceIdeal Cert.ReferenceIdeal.Gen

variable {F : FTy → Type} [FloatOps F]

/-- @main's operations in order, the bodies of `leaky_relu` (with its `_where`) and `relu` listed at their calls. -/
abbrev ops : List (HloOp τ sig (Elt F)) :=
  [ -- the projected features: h · W, plus the bias row spread over all nodes
    binary main_arg0 main_arg3 main_v0 (fun l r => Host.dotGeneral dot_S100000x128_S128x128_S100000x128_1_0_0_1_n_n none l r),
    unary main_arg4 main_v1 (broadcastInDim S1x128 ![1] bcast_S128_S1x128_1),
    unary main_v1 main_v2 (broadcastInDim S100000x128 ![0, 1] bcast_S1x128_S100000x128_0_1),
    binary main_v0 main_v2 main_v3 addf,
    -- the source index, a negative word wrapped by the node count, as a column; the projected rows it selects
    nullary main_c (constantI S_ 32 0#32),
    unary main_c main_v4 (broadcastInDim S640000 ![] bcast_S_S640000),
    binary main_arg1 main_v4 main_v5 (cmpi .slt),
    nullary main_c_0 (constantI S_ 32 100000#32),
    unary main_c_0 main_v6 (broadcastInDim S640000 ![] bcast_S_S640000),
    binary main_arg1 main_v6 main_v7 addi,
    ternary main_v5 main_v7 main_arg1 main_v8 select,
    unary main_v8 main_v9 (broadcastInDim S640000x1 ![0] bcast_S640000_S640000x1_0),
    binary main_v3 main_v9 main_v10 (fun x i => Host.gather gather_S100000x128_S640000x1_S640000x128_1_0_n_n_0_1_1128 x i),
    -- the same for the destination index
    nullary main_c_1 (constantI S_ 32 0#32),
    unary main_c_1 main_v11 (broadcastInDim S640000 ![] bcast_S_S640000),
    binary main_arg2 main_v11 main_v12 (cmpi .slt),
    nullary main_c_2 (constantI S_ 32 100000#32),
    unary main_c_2 main_v13 (broadcastInDim S640000 ![] bcast_S_S640000),
    binary main_arg2 main_v13 main_v14 addi,
    ternary main_v12 main_v14 main_arg2 main_v15 select,
    unary main_v15 main_v16 (broadcastInDim S640000x1 ![0] bcast_S640000_S640000x1_0),
    binary main_v3 main_v16 main_v17 (fun x i => Host.gather gather_S100000x128_S640000x1_S640000x128_1_0_n_n_0_1_1128 x i),
    -- the two rows side by side against the attention vector, plus its bias: the score of each edge
    binary main_v10 main_v17 main_v18 (fun a b => concatenate S640000x256 1 [⟨S640000x128, a⟩, ⟨S640000x128, b⟩] concatenates_S640000x128_S640000x128_S640000x256_d1),
    binary main_v18 main_arg5 main_v19 (fun l r => Host.dotGeneral dot_S640000x256_S256x1_S640000x1_1_0_0_1_n_n none l r),
    unary main_arg6 main_v20 (broadcastInDim S1x1 ![1] bcast_S1_S1x1_1),
    unary main_v20 main_v21 (broadcastInDim S640000x1 ![0, 1] bcast_S1x1_S640000x1_0_1),
    binary main_v19 main_v21 main_v22 addf,
    nullary main_cst (constant S_ .f32 0x3C23D70A#32),
    -- the leaky rectifier of the scores with that slope: the comparison with zero, the scaled scores, the choice between them
    TRef.nullary main_call0.cst (constant S_ .f32 0x00000000#32),
    TRef.unary main_call0.cst main_call0.v0 (broadcastInDim S640000x1 ![] bcast_S_S640000x1),
    TRef.binary (.of main_v22) main_call0.v0 main_call0.v1 (cmpf .oge),
    TRef.unary (.of main_cst) main_call0.v2 id,
    TRef.unary main_call0.v2 main_call0.v3 (broadcastInDim S640000x1 ![] bcast_S_S640000x1),
    TRef.binary main_call0.v3 (.of main_v22) main_call0.v4 mulf,
    TRef.ternary main_call0.v1 (.of main_v22) main_call0.v4 main_call0.call0.v0 select,
    -- the softmax over all edges: the largest rectified score, the exponentials of the differences from it, their sum, the quotients
    nullary main_cst_3 (constant S_ .f32 0xFF800000#32),
    binary main_v23 main_cst_3 main_v24 (fun x v => Host.reduce FloatOps.maximumf x v reducesTo_S640000x1_S1_d0 h_S_),
    nullary main_cst_4 (constant S_ .f32 0xFF800000#32),
    unary main_cst_4 main_v25 (broadcastInDim S1 ![] bcast_S_S1),
    binary main_v25 main_v24 main_v26 maximumf,
    unary main_v26 main_v27 (broadcastInDim S1x1 ![1] bcast_S1_S1x1_1),
    unary main_v27 main_v28 (broadcastInDim S640000x1 ![0, 1] bcast_S1x1_S640000x1_0_1),
    binary main_v23 main_v28 main_v29 subf,
    unary main_v29 main_v30 Host.exp,
    nullary main_cst_5 (constant S_ .f32 0x00000000#32),
    binary main_v30 main_cst_5 main_v31 (fun x v => Host.reduceAdd x v reducesTo_S640000x1_S1_d0 h_S_),
    unary main_v31 main_v32 (broadcastInDim S1x1 ![1] bcast_S1_S1x1_1),
    unary main_v32 main_v33 (broadcastInDim S640000x1 ![0, 1] bcast_S1x1_S640000x1_0_1),
    binary main_v30 main_v33 main_v34 Host.divf,
    reshape main_v34 main_v35 rfl shapeCasts_S640000x1_S640000,
    -- each edge's weight times its source's original feature row
    unary main_v35 main_v36 (broadcastInDim S640000x1 ![0] bcast_S640000_S640000x1_0),
    nullary main_c_6 (constantI S_ 32 0#32),
    unary main_c_6 main_v37 (broadcastInDim S640000 ![] bcast_S_S640000),
    binary main_arg1 main_v37 main_v38 (cmpi .slt),
    nullary main_c_7 (constantI S_ 32 100000#32),
    unary main_c_7 main_v39 (broadcastInDim S640000 ![] bcast_S_S640000),
    binary main_arg1 main_v39 main_v40 addi,
    ternary main_v38 main_v40 main_arg1 main_v41 select,
    unary main_v41 main_v42 (broadcastInDim S640000x1 ![0] bcast_S640000_S640000x1_0),
    binary main_arg0 main_v42 main_v43 (fun x i => Host.gather gather_S100000x128_S640000x1_S640000x128_1_0_n_n_0_1_1128 x i),
    unary main_v36 main_v44 (broadcastInDim S640000x128 ![0, 1] bcast_S640000x1_S640000x128_0_1),
    binary main_v44 main_v43 main_v45 mulf,
    -- summed into the rows of the destinations, from zero
    nullary main_cst_8 (constant S_ .f32 0x00000000#32),
    unary main_cst_8 main_v46 (broadcastInDim S100000x128 ![] bcast_S_S100000x128),
    unary main_arg2 main_v47 (broadcastInDim S640000x1 ![0] bcast_S640000_S640000x1_0),
    ternary main_v46 main_v47 main_v45 main_v48 (fun x i u => Host.scatterAdd scatter_S100000x128_S640000x1_S640000x128_1_0_0_1 x i u),
    -- the rectifier of the sums: the larger of each and zero
    TRef.nullary main_call1.cst (constant S_ .f32 0x00000000#32),
    TRef.unary main_call1.cst main_call1.v0 (broadcastInDim S100000x128 ![] bcast_S_S100000x128),
    TRef.binary (.of main_v48) main_call1.v0 main_call1.v1 maximumf ]

-- sixty-nine binds to reassociate, one level of recursion per statement
set_option maxRecDepth 4096 in
/-- @main is that straight line: its two windows and the three functions' bodies opened at their calls, the records read at
    their fields, both sides are one chain of single operations once sequencing is associated to the right. -/
theorem main_eq (c : Dev nD) : main (F := F) c = seq ops := by
  simp only [main, main_part0, main_part1, fn_leaky_relu.body, fn_where.body, fn_relu.body, seq, bind_assoc, pure_bind]
  rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [List.Forall, nullary_bufs_sub, unary_bufs_sub, binary_bufs_sub, ternary_bufs_sub, reshape_bufs_sub, and_self]

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## What the operations leave, at the ideal values -/

variable (X : Valuation τ sig (Elt Ideal))

/-- Typed readers of a valuation's buffers. -/
abbrev rdH : FVec Ideal S100000x128 .f32 := X (Proc.devRef .tc main_arg0)
abbrev rdSrc : IVec S640000 32 := X (Proc.devRef .tc main_arg1)
abbrev rdDst : IVec S640000 32 := X (Proc.devRef .tc main_arg2)
abbrev rdW : FVec Ideal S128x128 .f32 := X (Proc.devRef .tc main_arg3)
abbrev rdB : FVec Ideal S128 .f32 := X (Proc.devRef .tc main_arg4)
abbrev rdA : FVec Ideal S256x1 .f32 := X (Proc.devRef .tc main_arg5)
abbrev rdBeta : FVec Ideal S1 .f32 := X (Proc.devRef .tc main_arg6)
abbrev rdOut : FVec Ideal S100000x128 .f32 := X (Proc.devRef .tc main_v49)

set_option maxRecDepth 8192 in
/-- The result buffer holds the four stages composed: scores, rectifier, softmax, aggregation.
    Read at the result buffer, the fold is the last operation's function applied to the contents of its operands, each of
    which is in turn the result of the one operation that writes it, down to the seven arguments: every buffer has exactly
    one writer, and an operation leaves every buffer but its own result as it was. At the outlined functions' buffers the
    transport of contents along the buffer's type is the identity (the type is the value's own), and the conversion of the
    slope to its own format is the identity. The composed term is then the stages' term over the same arguments: the
    projected features occur twice in the scores (once per endpoint), the original features once more in the aggregation,
    and the evidence of the shape relations, being proofs, is equal however it was obtained. -/
theorem out_eq :
    rdOut (after (ops (F := Ideal)) X)
      = tailT (softT (lreluT (scoreT (rdH X) (rdSrc X) (rdDst X) (rdW X) (rdB X) (rdA X) (rdBeta X)))) (rdH X) (rdSrc X) (rdDst X) := by
  show after (ops (F := Ideal)) X (Proc.devRef .tc main_v49) = _
  after_results_simp
  unfold tailT softT lreluT scoreT projT wrapCol
  rfl

/-- No operation writes an argument: each operation's result buffer is a value of @main's or of an outlined body's, never
    one of the seven argument buffers, so the fold leaves an argument's contents as the valuation gave them. -/
theorem keep_arg (b : Ref sig .tc)
    (hb : b = main_arg0 ∨ b = main_arg1 ∨ b = main_arg2 ∨ b = main_arg3 ∨ b = main_arg4 ∨ b = main_arg5 ∨ b = main_arg6) :
    after (ops (F := Ideal)) X (Proc.devRef .tc b) = X (Proc.devRef .tc b) := by
  rcases hb with rfl | rfl | rfl | rfl | rfl | rfl | rfl <;> after_results_simp

end Cert.ReferenceIdeal.Val

end
-- ==== Proof.RefScore.lean ====
/-
  The reference's score of an edge, read at the edge: for index words that name nodes it is the specification's direct
  score — the two endpoints' projected feature rows side by side against the attention vector, plus its bias.
-/
import proofs.«426828_j31739808318041_3_alg».proof.Proof.RefTerms
import proofs.«426828_j31739808318041_3_alg».proof.Proof.Spec
import proofs.«426828_j31739808318041_3_alg».proof.Proof.LibScatterGather
import proofs.«426828_j31739808318041_3_alg».proof.Proof.LibRowOps
import proofs.«426828_j31739808318041_3_alg».proof.Proof.LibPlainDot
import proofs.«426828_j31739808318041_3_alg».proof.Proof.LibPairBlocks
import proofs.«426828_j31739808318041_3_alg».proof.Proof.LibIdxSums

noncomputable section

namespace Cert.ReferenceIdeal.Val

open Idealize.ShloMosaic Idealize.ShloMosaic.ValueIdx Idealize.SL.Sem
open Cert.ReferenceIdeal Cert.GatSpec
open Cert.ReferenceIdeal.Facts₀ Cert.ReferenceIdeal.Facts

/-! ## The projection -/

/-- Entry (n, j) of the projected features: row n of `h` against column j of `W`, plus entry j of the bias (the bias,
    a length-128 vector, is laid as a 1 × 128 row and that row repeated down the 100000 rows). -/
theorem projT_apply (h : FVec Ideal S100000x128 .f32) (W : FVec Ideal S128x128 .f32) (b : FVec Ideal S128 .f32)
    (n : Fin 100000) (j : Fin 128) : projT h W b (ix2 n j) = proj h W b n j := by
  unfold projT proj
  refine congrArg₂ (· + ·) ?_ ?_
  · exact (congrFun (Cert.LibPlainDot.dotGeneral_eq_matProd (M := 100000) (K := 128) (N := 128)
      dot_S100000x128_S128x128_S100000x128_1_0_0_1_n_n rfl rfl rfl rfl rfl rfl none .single h W) (ix2 n j)).trans
      (Cert.LibPlainDot.matProd_ix2 h W n j)
  · exact (Cert.LibRowOps.broadcastInDim_row_mat (R := 100000) (C := 128) _ _ n j).trans
      (Cert.LibRowOps.broadcastInDim_vec_row (C := 128) b _ (0 : Fin 1) j)

/-! ## The index column -/

/-- A word that is not negative as a signed integer fails the test "below zero". -/
theorem slt_zero_of_nonneg (x : BitVec 32) (hx : 0 ≤ x.toInt) : IntOp.cmpi .slt x 0#32 = 0#1 := by
  unfold IntOp.cmpi
  have : x.slt 0#32 = false := by
    simp only [BitVec.slt, BitVec.toInt_zero, decide_eq_false_iff_not, not_lt]
    exact hx
  rw [this]; rfl

/-- For words that name nodes the index normalisation changes nothing: row e of the column is word e itself. -/
theorem wrapCol_apply (idx : IVec S640000 32) (hin : InRange 100000 idx) (e : Fin 640000) :
    wrapCol idx (ix2 e (0 : Fin 1)) = idx (ix1 e) := by
  unfold wrapCol
  refine (Cert.LibRowOps.broadcastInDim_col (R := 640000) _ _ e (0 : Fin 1)).trans ?_
  rw [select_apply]
  have hc : cmpi .slt idx (broadcastInDim S640000 ![] bcast_S_S640000 (constantI S_ 32 0#32)) (ix1 e) = 0#1 := by
    show IntOp.cmpi .slt (idx (ix1 e)) _ = 0#1
    rw [Cert.LibRowOps.broadcastInDim_scalar]
    exact slt_zero_of_nonneg _ (hin e).1
  rw [hc, select_zero]

/-! ## A gathered row -/

/-- Row e of the rows gathered at the words of `idx` is the projected row of the node word e names. -/
theorem gather_proj_apply (h : FVec Ideal S100000x128 .f32) (W : FVec Ideal S128x128 .f32) (b : FVec Ideal S128 .f32)
    (idx : IVec S640000 32) (hin : InRange 100000 idx) (e : Fin 640000) (c : Fin 128) :
    Host.gather gather_S100000x128_S640000x1_S640000x128_1_0_n_n_0_1_1128 (projT h W b) (wrapCol idx) (ix2 e c)
      = proj h W b (nodeOf (N := 100000) (by decide) idx e) c := by
  refine (Cert.LibScatterGather.gather_rows_apply (N := 100000) (M := 640000) (C := 128)
    gather_S100000x128_S640000x1_S640000x128_1_0_n_n_0_1_1128 rfl rfl rfl rfl rfl rfl rfl (projT h W b) (wrapCol idx) e c
    (by decide)).trans ?_
  rw [← projT_apply]
  refine congrArg (projT h W b) (congrArg (fun n => ix2 n c) (Fin.ext ?_))
  show min (wrapCol idx (ix2 e (0 : Fin 1))).toInt.toNat (100000 - 1) = min (idx (ix1 e)).toInt.toNat (100000 - 1)
  rw [wrapCol_apply idx hin e]

/-! ## The score -/

/-- The reference's score at edge e, for index words that name nodes: the sum over the 256 columns of the two endpoints'
    projected rows laid side by side (columns below 128 the source's, the others the destination's) times the attention
    vector, plus the bias — the specification's direct score. -/
theorem score_apply (h : FVec Ideal S100000x128 .f32) (src dst : IVec S640000 32) (W : FVec Ideal S128x128 .f32)
    (b : FVec Ideal S128 .f32) (a : FVec Ideal S256x1 .f32) (β : FVec Ideal S1 .f32)
    (hs : InRange 100000 src) (hd : InRange 100000 dst) (e : Fin 640000) :
    scoreT h src dst W b a β (ix2 e (0 : Fin 1))
      = rscore h W b a β (nodeOf (N := 100000) (by decide) src) (nodeOf (N := 100000) (by decide) dst) e := by
  unfold scoreT rscore
  refine congrArg₂ (· + ·) ?_ ?_
  · -- the product against the attention vector, column by column of the side-by-side rows
    refine (congrFun (Cert.LibPlainDot.dotGeneral_eq_matProd (M := 640000) (K := 256) (N := 1)
      dot_S640000x256_S256x1_S640000x1_1_0_0_1_n_n rfl rfl rfl rfl rfl rfl none .single _ a) (ix2 e (0 : Fin 1))).trans ?_
    refine (Cert.LibPlainDot.matProd_ix2 _ a e (0 : Fin 1)).trans ?_
    refine Finset.sum_congr rfl fun j _ => congrArg (· * a (ix2 j (0 : Fin 1))) ?_
    by_cases hj : j.val < 128
    · -- a column of the left half: the source's projected row
      rw [dif_pos hj]
      exact (Cert.PairBlocks.concat_cols_left (R := 640000) (T := 128) (n := 256) _ _ _ e ⟨j.val, hj⟩ j rfl).trans
        (gather_proj_apply h W b src hs e ⟨j.val, hj⟩)
    · -- a column of the right half: the destination's projected row
      rw [dif_neg hj]
      exact (Cert.PairBlocks.concat_cols_right (R := 640000) (T := 128) (n := 256) _ _ _ e
        ⟨j.val - 128, by omega⟩ j (by show j.val = 128 + (j.val - 128); omega)).trans
        (gather_proj_apply h W b dst hd e ⟨j.val - 128, by omega⟩)
  · -- the bias: one number laid as a 1 × 1 array and repeated down the 640000 rows
    exact (Cert.LibRowOps.broadcastInDim_row_mat (R := 640000) (C := 1) _ _ e (0 : Fin 1)).trans
      (Cert.LibRowOps.broadcastInDim_vec_row (C := 1) β _ (0 : Fin 1) (0 : Fin 1))

end Cert.ReferenceIdeal.Val

end
-- ==== Proof.RefSoft.lean ====
/-
  The reference's softmax over all edges of the leaky-rectified scores, read at an edge: the specification's attention
  weight (no finiteness is needed: the same maximum, the same sum, the same exponential and quotient).
-/
import proofs.«426828_j31739808318041_3_alg».proof.Proof.RefTerms
import proofs.«426828_j31739808318041_3_alg».proof.Proof.Spec
import proofs.«426828_j31739808318041_3_alg».proof.Proof.LibRowOps
import proofs.«426828_j31739808318041_3_alg».proof.Proof.LibIdxSums
import Idealize.ShloMosaic.Lib.IdealHost

noncomputable section

open scoped BigOperators

namespace Cert.ReferenceIdeal.Val

open Idealize.ShloMosaic Idealize.ShloMosaic.ValueIdx Idealize.SL.Sem
open Cert.ReferenceIdeal Cert.GatSpec

/-! ## A column of R entries, kept as an R × 1 matrix, reduced over its rows -/

section Col

variable {R : Nat} {α : Type}

/-- Removing axis 0 of R × 1 leaves one axis, so the host's shape fact is also the vector dialect's. -/
theorem reduces_col (h' : (⟨2, ![R, 1]⟩ : Shape).ReducesTo [0] ⟨1, ![1]⟩) :
    (⟨2, ![R, 1]⟩ : Shape).Reduces [0] ⟨1, ![1]⟩ :=
  ⟨h'.1, Nat.one_pos, h'.2⟩

/-- The index over the one result position with row k inserted is (k, 0). -/
theorem lift_col (h : (⟨2, ![R, 1]⟩ : Shape).Reduces [0] ⟨1, ![1]⟩) (j : (⟨1, ![1]⟩ : Shape).Idx) (k : Fin R) :
    h.lift j k = ix2 k (0 : Fin 1) := by
  funext a
  match a with
  | ⟨0, _⟩ => exact Fin.ext rfl
  | ⟨1, _⟩ =>
    refine Fin.ext ?_
    show (j ⟨0, _⟩).val = 0
    have hj : (j ⟨0, Nat.one_pos⟩).val < 1 := (j ⟨0, Nat.one_pos⟩).isLt
    omega

/-- The host's reduce with a maximum body over the rows: the maximum of the initial value and of every entry. -/
theorem hostReduceMax_col {u : Shape} (x : FVec Ideal ⟨2, ![R, 1]⟩ .f32) (init : u.Idx → Ideal .f32)
    (h' : (⟨2, ![R, 1]⟩ : Shape).ReducesTo [0] ⟨1, ![1]⟩) (hu : 0 < u.numel) (j : (⟨1, ![1]⟩ : Shape).Idx) :
    Host.reduce FloatOps.maximumf x init h' hu j
      = (Finset.univ : Finset (Fin R)).fold max (init (Shape.Idx.first hu)) fun k => x (ix2 k (0 : Fin 1)) := by
  refine (Host.reduce_eq_fold_single FloatOps.maximumf x init h' (reduces_col h') hu j).trans ?_
  have hf : (x ∘ (reduces_col h').lift j) = fun k : Fin R => x (ix2 k (0 : Fin 1)) :=
    funext fun k => congrArg x (lift_col _ j k)
  exact congrArg (fun g : Fin R → EReal => (Finset.univ : Finset (Fin R)).fold max (init (Shape.Idx.first hu)) g) hf

/-- The host's reduce with an add body over the rows, from the zero word: the sum of every entry. -/
theorem hostReduceAdd_col_zero {u : Shape} (x : FVec Ideal ⟨2, ![R, 1]⟩ .f32)
    (h' : (⟨2, ![R, 1]⟩ : Shape).ReducesTo [0] ⟨1, ![1]⟩) (hu : 0 < u.numel) (j : (⟨1, ![1]⟩ : Shape).Idx) :
    Host.reduceAdd x (constant (F := Ideal) u .f32 0x00000000#32) h' hu j = ∑ k : Fin R, x (ix2 k (0 : Fin 1)) := by
  rw [hostReduceAdd_apply, Ideal.hostReduceAdd_single h' (reduces_col h')]
  show Ideal.ofBits .f32 0x00000000#32 + _ = _
  rw [Ideal.ofBits_zero_f32, zero_add]
  exact Finset.sum_congr rfl fun k _ => congrArg x (lift_col _ j k)

/-- A one-entry vector as a 1 × 1 matrix, spread down R rows, reads the entry at every row. -/
theorem bcast_one_col (m : (⟨1, ![1]⟩ : Shape).Idx → α) (h1 : (⟨1, ![1]⟩ : Shape).BroadcastsInDim ⟨2, ![1, 1]⟩ ![1])
    (h2 : (⟨2, ![1, 1]⟩ : Shape).BroadcastsInDim ⟨2, ![R, 1]⟩ ![0, 1]) (p : Fin R) :
    broadcastInDim ⟨2, ![R, 1]⟩ ![0, 1] h2 (broadcastInDim ⟨2, ![1, 1]⟩ ![1] h1 m) (ix2 p (0 : Fin 1))
      = m (ix1 (0 : Fin 1)) := by
  rw [LibRowOps.broadcastInDim_row_mat, LibRowOps.broadcastInDim_vec_row]

/-- An R × 1 matrix flattened to R entries reads, at e, the matrix at (e, 0). -/
theorem shapeCast_flat (w : (⟨2, ![R, 1]⟩ : Shape).Idx → α) (h : (⟨2, ![R, 1]⟩ : Shape).ShapeCasts ⟨1, ![R]⟩) (e : Fin R) :
    shapeCast ⟨1, ![R]⟩ w h (ix1 e) = w (ix2 e (0 : Fin 1)) :=
  shapeCast_apply w h _ _ (by
    rw [Shape.rowMajor_val_two, Shape.rowMajor_val_one]
    show e.val * 1 + 0 = e.val
    omega)

/-- The word of minus infinity is the least extended real. -/
theorem ofBits_neg_inf_f32 : Ideal.ofBits .f32 0xFF800000#32 = ⊥ := by simp [Ideal.ofBits, Ideal.ieee]

/-- The column's maximum as the reference takes it — the reduce from minus infinity, then once more the maximum with a
    minus-infinity splat — is the maximum of the entries from the least element. -/
theorem colMax_apply (z : FVec Ideal ⟨2, ![R, 1]⟩ .f32) (hb : (⟨0, ![]⟩ : Shape).BroadcastsInDim ⟨1, ![1]⟩ ![])
    (h' : (⟨2, ![R, 1]⟩ : Shape).ReducesTo [0] ⟨1, ![1]⟩) (hu : 0 < (⟨0, ![]⟩ : Shape).numel)
    (j : (⟨1, ![1]⟩ : Shape).Idx) :
    maximumf (broadcastInDim ⟨1, ![1]⟩ ![] hb (constant (F := Ideal) ⟨0, ![]⟩ .f32 0xFF800000#32))
        (Host.reduce FloatOps.maximumf z (constant (F := Ideal) ⟨0, ![]⟩ .f32 0xFF800000#32) h' hu) j
      = (Finset.univ : Finset (Fin R)).fold max ⊥ fun k => z (ix2 k (0 : Fin 1)) := by
  rw [maximumf_apply, LibRowOps.broadcastInDim_scalar, hostReduceMax_col]
  show max (Ideal.ofBits .f32 0xFF800000#32) (Finset.univ.fold max (Ideal.ofBits .f32 0xFF800000#32) _) = _
  rw [ofBits_neg_inf_f32]
  exact max_eq_right bot_le

/-- The host's exponential at an entry is the extended reals' exponential of the entry. -/
theorem hostExp_apply {s : Shape} (x : FVec Ideal s .f32) (i : s.Idx) : Host.exp x i = Ideal.exp (x i) := rfl

/-- The shifted exponential at row p: the column's maximum, spread back down the rows, taken off the entry. -/
theorem colShiftExp_apply (z : FVec Ideal ⟨2, ![R, 1]⟩ .f32) (hb : (⟨0, ![]⟩ : Shape).BroadcastsInDim ⟨1, ![1]⟩ ![])
    (h' : (⟨2, ![R, 1]⟩ : Shape).ReducesTo [0] ⟨1, ![1]⟩) (hu : 0 < (⟨0, ![]⟩ : Shape).numel)
    (h1 : (⟨1, ![1]⟩ : Shape).BroadcastsInDim ⟨2, ![1, 1]⟩ ![1])
    (h2 : (⟨2, ![1, 1]⟩ : Shape).BroadcastsInDim ⟨2, ![R, 1]⟩ ![0, 1]) (p : Fin R) :
    Host.exp (subf z (broadcastInDim ⟨2, ![R, 1]⟩ ![0, 1] h2 (broadcastInDim ⟨2, ![1, 1]⟩ ![1] h1
        (maximumf (broadcastInDim ⟨1, ![1]⟩ ![] hb (constant (F := Ideal) ⟨0, ![]⟩ .f32 0xFF800000#32))
          (Host.reduce FloatOps.maximumf z (constant (F := Ideal) ⟨0, ![]⟩ .f32 0xFF800000#32) h' hu)))))
        (ix2 p (0 : Fin 1))
      = Ideal.exp (z (ix2 p (0 : Fin 1)) - (Finset.univ : Finset (Fin R)).fold max ⊥ fun k => z (ix2 k (0 : Fin 1))) := by
  rw [hostExp_apply, subf_apply, bcast_one_col, colMax_apply]

end Col

/-! ## The rectifier at an entry -/

/-- The reference's rectifier, a select on "the entry is at least zero", is the specification's at every entry. -/
theorem lreluT_apply (y : FVec Ideal S640000x1 .f32) (j : S640000x1.Idx) : lreluT y j = lrelu (y j) := by
  unfold lreluT lrelu
  rw [select_apply, cmpf_apply, mulf_apply, LibRowOps.broadcastInDim_scalar, LibRowOps.broadcastInDim_scalar]
  show Scalar.select (Ideal.cmp .oge (y j) (Ideal.ofBits .f32 0x00000000#32)) (y j) (Ideal.ofBits .f32 0x3C23D70A#32 * y j) = _
  rw [Ideal.ofBits_zero_f32]
  by_cases h : (0 : EReal) ≤ y j
  · have hc : Ideal.cmp .oge (y j) 0 = 1#1 := by simp [Ideal.cmp, h]
    rw [hc, select_one, if_pos h]
  · have hc : Ideal.cmp .oge (y j) 0 = 0#1 := by simp [Ideal.cmp, h]
    rw [hc, select_zero, if_neg h]

/-! ## The softmax at an edge -/

/-- The reference's softmax of a column z, read at edge e: the exponential of z's entry less the column's maximum, over
    the sum of those exponentials. -/
theorem softT_apply (z : FVec Ideal S640000x1 .f32) (e : Fin 640000) :
    softT z (ix1 e)
      = Ideal.div
          (Ideal.exp (z (ix2 e (0 : Fin 1)) - Finset.univ.fold max ⊥ fun k : Fin 640000 => z (ix2 k (0 : Fin 1))))
          (∑ k : Fin 640000,
            Ideal.exp (z (ix2 k (0 : Fin 1)) - Finset.univ.fold max ⊥ fun k' : Fin 640000 => z (ix2 k' (0 : Fin 1)))) := by
  unfold softT
  refine (shapeCast_flat _ _ e).trans ?_
  rw [hostDivf_apply, bcast_one_col, hostReduceAdd_col_zero, colShiftExp_apply]
  exact congrArg (Ideal.div _) (Finset.sum_congr rfl fun k _ => colShiftExp_apply z _ _ _ _ _ k)

theorem soft_apply (y : FVec Ideal S640000x1 .f32) (e : Fin 640000) :
    softT (lreluT y) (ix1 e) = attn (fun e' : Fin 640000 => y (ix2 e' (0 : Fin 1))) e := by
  rw [softT_apply]
  unfold attn esum emax
  simp only [lreluT_apply]

end Cert.ReferenceIdeal.Val

end
-- ==== Proof.RefTail.lean ====
/-
  The reference's aggregation read at one entry of the result, for source words that name nodes: the rectified sum, over
  the edges whose destination word is the row, of the edge's weight times the source's feature in the column.
-/
import proofs.«426828_j31739808318041_3_alg».proof.Proof.RefTerms
import proofs.«426828_j31739808318041_3_alg».proof.Proof.Spec
import proofs.«426828_j31739808318041_3_alg».proof.Proof.LibScatterGather
import proofs.«426828_j31739808318041_3_alg».proof.Proof.LibRowOps
import proofs.«426828_j31739808318041_3_alg».proof.Proof.LibEdgeAggregate

noncomputable section

namespace Cert.ReferenceIdeal.Val

open Idealize.ShloMosaic Idealize.ShloMosaic.ValueIdx Idealize.SL.Sem
open Cert.ReferenceIdeal Cert.GatSpec
open Cert.ReferenceIdeal.Facts₀ Cert.ReferenceIdeal.Facts

/-- The index normalisation keeps a source word that names a node: such a word is not negative, so the branch that adds
    the extent is not taken. -/
theorem wrapCol_of_inRange (src : IVec S640000 32) (hs : InRange 100000 src) (e : Fin 640000) :
    wrapCol src (ix2 e (0 : Fin 1)) = src (ix1 e) :=
  Cert.LibEdgeAggregate.wrapCol_apply _ _ _ src e 0 (hs e).1

/-- Entry `(i, k)` of the reference's result. The outer maximum against the zero splat is the specification's outer
    `max … 0`; under it, the accumulating scatter of the weighted gathered rows is the sum over the edges whose destination
    word is `i`; the gathered row of edge `e` is the feature row at its normalised source word, clamped, and for a word that
    names a node the normalised word is the word itself, so that row is the specification's `nodeOf`. -/
theorem tail_apply (w : FVec Ideal S640000 .f32) (h : FVec Ideal S100000x128 .f32) (src dst : IVec S640000 32)
    (hs : InRange 100000 src) (i : Fin 100000) (k : Fin 128) :
    tailT w h src dst (ix2 i k) = agg h (nodeOf (N := 100000) (by decide) src) dst (fun e => w (ix1 e)) i k := by
  have hz : broadcastInDim S100000x128 ![] bcast_S_S100000x128 (constant (F := Ideal) S_ .f32 0x00000000#32) (ix2 i k)
      = (0 : EReal) := by
    rw [Cert.LibRowOps.broadcastInDim_scalar, constant_apply, Ideal.ofBits_zero_f32]
  unfold tailT agg
  rw [maximumf_apply, hz,
    Cert.LibEdgeAggregate.edgeAggregate_apply _ rfl rfl rfl rfl _ rfl rfl rfl rfl rfl rfl rfl _ _ _ w h (wrapCol src) dst
      (by decide) i k]
  refine congrArg (fun x : EReal => max x 0) (Finset.sum_congr rfl fun e _ => ?_)
  refine if_congr Iff.rfl (congrArg (fun x : EReal => w (ix1 e) * x)
    (congrArg h (congrArg (fun a : Fin 100000 => ix2 a k) (Fin.ext ?_)))) rfl
  show min (wrapCol src (ix2 e (0 : Fin 1))).toInt.toNat (100000 - 1) = min (src (ix1 e)).toInt.toNat (100000 - 1)
  rw [wrapCol_of_inRange src hs e]

end Cert.ReferenceIdeal.Val

end
-- ==== Proof.RefValue.lean ====
/-
  What the reference's operations leave in its result buffer, for index words that name nodes: the aggregation of the
  sources' features under the attention weights of the directly computed scores.
-/
import proofs.«426828_j31739808318041_3_alg».proof.Proof.RefRun
import proofs.«426828_j31739808318041_3_alg».proof.Proof.RefScore
import proofs.«426828_j31739808318041_3_alg».proof.Proof.RefSoft
import proofs.«426828_j31739808318041_3_alg».proof.Proof.RefTail

noncomputable section

namespace Cert.ReferenceIdeal.Val

open Idealize.ShloMosaic Idealize.ShloMosaic.StableHlo Idealize.ShloMosaic.ValueIdx Idealize.SL.Sem
open Cert.ReferenceIdeal Cert.GatSpec

variable (X : Valuation τ sig (Elt Ideal))

/-- The four stages read one after the other: the aggregation at (i, k), its weights the softmax at each edge, its scores
    the direct ones. -/
theorem ref_value (hs : InRange 100000 (rdSrc X)) (hd : InRange 100000 (rdDst X)) (i : Fin 100000) (k : Fin 128) :
    rdOut (after (ops (F := Ideal)) X) (ix2 i k)
      = agg (rdH X) (nodeOf (N := 100000) (by decide) (rdSrc X)) (rdDst X)
          (attn (rscore (rdH X) (rdW X) (rdB X) (rdA X) (rdBeta X)
            (nodeOf (N := 100000) (by decide) (rdSrc X)) (nodeOf (N := 100000) (by decide) (rdDst X)))) i k := by
  rw [out_eq, tail_apply _ _ _ _ hs]
  refine congrArg (fun w => agg (rdH X) (nodeOf (N := 100000) (by decide) (rdSrc X)) (rdDst X) w i k) (funext fun e => ?_)
  rw [soft_apply]
  exact congrArg (fun x => attn x e) (funext fun e' => score_apply _ _ _ _ _ _ _ hs hd e')

end Cert.ReferenceIdeal.Val

end
-- ==== Proof.PreFacts.lean ====
/-
  What the precondition says of the arguments: every entry of the five float arrays is a real number, and every word of the
  two index vectors names a node.
-/
import proofs.«426828_j31739808318041_3_alg».proof.Proof.Gen.Pre_finite_inputs
import proofs.«426828_j31739808318041_3_alg».proof.Proof.Spec
import Idealize.ShloMosaic.Lib.ReduceAll
import Idealize.ShloMosaic.Lib.StableHlo.Predicate

noncomputable section

namespace Cert.PreFacts

open Idealize.ShloMosaic Idealize.ShloMosaic.ValueIdx Cert.GatSpec Cert.Pre_finite_inputs Cert.Pre_finite_inputs.Gen

/-- The scalar shape has exactly one index. -/
instance : Subsingleton S_.Idx := ⟨fun a b => funext fun d => d.elim0⟩

/-- The pattern 0x7F800000 of the 32-bit format is +∞. -/
theorem inf_eq_top : Ideal.ofBits .f32 0x7F800000#32 = (⊤ : EReal) := by simp [Ideal.ofBits, Ideal.ieee]

/-- ONE ENTRY. |x| < +∞ over the extended reals, |x| being max x (−x), leaves only the reals: at x = ⊤ and at x = ⊥ the
    maximum is ⊤, which is not below ⊤. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_eq_top] at h'
  unfold Ideal.cmp at h'
  rw [StableHlo.Predicate.ofBool_eq_one_iff, decide_eq_true_eq] at h'
  induction x using EReal.rec with
  | bot => simp at h'
  | coe r => exact ⟨r, rfl⟩
  | top => simp at h'

/-- ONE FLOAT ARRAY. The conjunction over every position of the test |x| < +∞ (the and-reduction, over all axes, of the
    elementwise comparison with the constant +∞ spread over the array) is 1 only if every entry of x is a real. -/
theorem allReal_of_all {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi
        (cmpf .olt (Host.absf x) (broadcastInDim s ![] hb (constant (F := Ideal) S_ .f32 0x7F800000#32)))
        (constantI S_ 1 1#1) hr h0 ix0 = 1#1) : AllReal x := fun i =>
  real_of_abs_lt_inf (x i) (Host.reduce_andi_all _ _ hr h0 ix0 e i)

/-- ONE WORD. 0 ≤ w and w < 100000 as signed compares are the same two inequalities of the word's signed value. -/
theorem word_inRange (w : BitVec 32) (h0 : IntOp.cmpi .sge w 0#32 = 1#1) (h1 : IntOp.cmpi .slt w 100000#32 = 1#1) :
    0 ≤ w.toInt ∧ w.toInt < ((100000 : ℕ) : ℤ) := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have c : (100000#32 : BitVec 32).toInt = 100000 := by decide
  rw [z] at h0
  rw [c] at h1
  exact ⟨h0, by exact_mod_cast h1⟩

/-- ONE INDEX VECTOR. The conjunctions over every position of idx ≥ 0 and of idx < 100000, each the and-reduction of a
    signed comparison with a constant spread over the vector, put every word of idx in [0, 100000). -/
theorem inRange_of_all {E : ℕ} (idx : IVec ⟨1, ![E]⟩ 32)
    (hb : S_.BroadcastsInDim ⟨1, ![E]⟩ (![] : Fin 0 → Fin (⟨1, ![E]⟩ : Shape).rank))
    (hr : (⟨1, ![E]⟩ : Shape).ReducesTo [0] S_) (h0 : 0 < S_.numel)
    (ege : Host.reduce IntOp.andi (cmpi .sge idx (broadcastInDim ⟨1, ![E]⟩ ![] hb (constantI S_ 32 0#32)))
        (constantI S_ 1 1#1) hr h0 ix0 = 1#1)
    (elt : Host.reduce IntOp.andi (cmpi .slt idx (broadcastInDim ⟨1, ![E]⟩ ![] hb (constantI S_ 32 100000#32)))
        (constantI S_ 1 1#1) hr h0 ix0 = 1#1) : InRange 100000 idx := fun e =>
  word_inRange (idx (ix1 e)) (Host.reduce_andi_all _ _ hr h0 ix0 ege (ix1 e)) (Host.reduce_andi_all _ _ hr h0 ix0 elt (ix1 e))

/-- A conjunction of two scalar truth values is 1 only if both are. -/
theorem and_split (x y : IVec S_ 1) (e : andi x y ix0 = 1#1) : x ix0 = 1#1 ∧ y ix0 = 1#1 := IntOp.andi_eq_one.1 e

theorem of_pre (h : FVec Ideal S100000x128 .f32) (src dst : IVec S640000 32) (W : FVec Ideal S128x128 .f32)
    (b : FVec Ideal S128 .f32) (a : FVec Ideal S256x1 .f32) (β : FVec Ideal S1 .f32)
    (hp : Cert.Pre_finite_inputs.fn (F := Ideal) h src dst W b a β = fun _ => 1#1) :
    AllReal h ∧ AllReal W ∧ AllReal b ∧ AllReal a ∧ AllReal β ∧ InRange 100000 src ∧ InRange 100000 dst := by
  have e := congrFun hp ix0
  dsimp only [Cert.Pre_finite_inputs.fn, fn_part1, fn_part2] at e
  -- the nine tests, the last one outermost
  obtain ⟨e, hd1⟩ := and_split _ _ e
  obtain ⟨e, hd0⟩ := and_split _ _ e
  obtain ⟨e, hs1⟩ := and_split _ _ e
  obtain ⟨e, hs0⟩ := and_split _ _ e
  obtain ⟨e, hβ⟩ := and_split _ _ e
  obtain ⟨e, ha⟩ := and_split _ _ e
  obtain ⟨e, hb⟩ := and_split _ _ e
  obtain ⟨hh, hW⟩ := and_split _ _ e
  exact ⟨allReal_of_all h _ _ _ hh, allReal_of_all W _ _ _ hW, allReal_of_all b _ _ _ hb, allReal_of_all a _ _ _ ha,
    allReal_of_all β _ _ _ hβ, inRange_of_all src _ _ _ hs0 hs1, inRange_of_all dst _ _ _ hd0 hd1⟩

end Cert.PreFacts

end
-- ==== Proof.lean ====
/-
  The certificate of one graph-attention layer (a global softmax over 640000 edges on a graph of 100000 nodes): the kernel's
  program against its jnp reference, equal over the extended reals wherever every float input is finite and every edge
  endpoint is a node index.

  The reference scores an edge from the projected features `h · W + b` of its two endpoints; the kernel never forms the
  projection: it folds `W` into the two halves of the attention vector, computes two numbers per node in its first launch,
  and gathers those. The two scores are equal by linearity of the projection — distributivity, which holds on the reals
  and not at the infinities, so this is where finiteness is used (Spec.lean, `kscore_eq_rscore`). From the scores on, the two
  programs compute the same things in different arrangements: the same leaky rectifier (zero falls to either branch with
  the same value), the softmax's maximum and sum over 5000 rows of 128 against one column of 640000 (Spec.lean
  `fold_max_rows`, and a sum re-indexed), the same weighted row gather and accumulating scatter, the same final rectifier.
  The kernel reads its gathers through jnp.take, which masks an out-of-range index where the reference's indexing clamps
  it: for endpoints in range the mask is all ones and the two reads agree, which is where the index precondition is used.

  The three frames: the kernel's two are the generated ones; the reference's is its run with the result dropped. The
  kernel's value is read off the generated fold of buffer contents through its three launches (KAssemble.lean), the
  reference's off its straight-line run (RefValue.lean); both are the specification's `agg … (attn score)`.
-/
import proofs.«426828_j31739808318041_3_alg».proof.Defs
import proofs.«426828_j31739808318041_3_alg».proof.Proof.Gen.Kernel
import proofs.«426828_j31739808318041_3_alg».proof.Proof.Gen.Kernel.Frame
import proofs.«426828_j31739808318041_3_alg».proof.Proof.Gen.KernelIdeal
import proofs.«426828_j31739808318041_3_alg».proof.Proof.Gen.KernelIdeal.Frame
import proofs.«426828_j31739808318041_3_alg».proof.Proof.Gen.ReferenceIdeal
import proofs.«426828_j31739808318041_3_alg».proof.Proof.Gen.Pre_finite_inputs
import proofs.«426828_j31739808318041_3_alg».proof.Proof.KernelRun
import proofs.«426828_j31739808318041_3_alg».proof.Proof.KAssemble
import proofs.«426828_j31739808318041_3_alg».proof.Proof.RefValue
import proofs.«426828_j31739808318041_3_alg».proof.Proof.PreFacts
import Idealize.ShloMosaic.Adequacy
import Idealize.ShloMosaic.Init

noncomputable section

namespace Cert.Proof

open Idealize.ShloMosaic Idealize.ShloMosaic.ValueIdx Idealize.SL.Sem Cert.GatSpec

theorem frame_k : Cert.frame_Kernel := fun m ρ _ => Cert.Kernel.Gen.frame m ρ

theorem frame_ki : Cert.frame_KernelIdeal := fun m ρ _ => Cert.KernelIdeal.Gen.frame m ρ

/-- The reference's frame: its run, of which only "the arguments are never written" is kept. -/
theorem frame_ri : Cert.frame_ReferenceIdeal := fun m ρ _ =>
  (θ_run Cert.ReferenceIdeal.defs _ _).mono
    (fun r h c =>
      ⟨(h c _).trans (Cert.ReferenceIdeal.Val.keep_arg _ Cert.ReferenceIdeal.main_arg0 (.inl rfl)),
       (h c _).trans (Cert.ReferenceIdeal.Val.keep_arg _ Cert.ReferenceIdeal.main_arg1 (.inr (.inl rfl))),
       (h c _).trans (Cert.ReferenceIdeal.Val.keep_arg _ Cert.ReferenceIdeal.main_arg2 (.inr (.inr (.inl rfl)))),
       (h c _).trans (Cert.ReferenceIdeal.Val.keep_arg _ Cert.ReferenceIdeal.main_arg3 (.inr (.inr (.inr (.inl rfl))))),
       (h c _).trans (Cert.ReferenceIdeal.Val.keep_arg _ Cert.ReferenceIdeal.main_arg4 (.inr (.inr (.inr (.inr (.inl rfl)))))),
       (h c _).trans (Cert.ReferenceIdeal.Val.keep_arg _ Cert.ReferenceIdeal.main_arg5 (.inr (.inr (.inr (.inr (.inr (.inl rfl))))))),
       (h c _).trans (Cert.ReferenceIdeal.Val.keep_arg _ Cert.ReferenceIdeal.main_arg6 (.inr (.inr (.inr (.inr (.inr (.inr rfl)))))))⟩)
    (Cert.ReferenceIdeal.Val.run (F := Ideal) m ρ)

/-- The ideal pass rewrote nothing: the idealization is the program's own text read at the extended reals. -/
theorem preserves : Cert.preserves_Kernel_KernelIdeal := trivial

/-- Both programs end with the specification's aggregation under the attention weights of an edge score; the kernel's
    score is the factored one, the reference's the direct one, and on real entries the two are equal. -/
theorem algebraic : Cert.algebraic_KernelIdeal_ReferenceIdeal := by
  intro m ρ m' ρ' hpre hagree
  refine ⟨fun c => Cert.KernelIdeal.Gen.W16 m ρ c (Proc.devRef .tc Cert.KernelIdeal.main_v40),
    Cert.KernelIdeal.Gen.run_result m ρ, ?_⟩
  refine (θ_run Cert.ReferenceIdeal.defs _ _).mono (fun r h c => ⟨?_,
      (h c _).trans (Cert.ReferenceIdeal.Val.keep_arg _ Cert.ReferenceIdeal.main_arg0 (.inl rfl)),
      (h c _).trans (Cert.ReferenceIdeal.Val.keep_arg _ Cert.ReferenceIdeal.main_arg1 (.inr (.inl rfl))),
      (h c _).trans (Cert.ReferenceIdeal.Val.keep_arg _ Cert.ReferenceIdeal.main_arg2 (.inr (.inr (.inl rfl)))),
      (h c _).trans (Cert.ReferenceIdeal.Val.keep_arg _ Cert.ReferenceIdeal.main_arg3 (.inr (.inr (.inr (.inl rfl))))),
      (h c _).trans (Cert.ReferenceIdeal.Val.keep_arg _ Cert.ReferenceIdeal.main_arg4 (.inr (.inr (.inr (.inr (.inl rfl)))))),
      (h c _).trans (Cert.ReferenceIdeal.Val.keep_arg _ Cert.ReferenceIdeal.main_arg5 (.inr (.inr (.inr (.inr (.inr (.inl rfl))))))),
      (h c _).trans (Cert.ReferenceIdeal.Val.keep_arg _ Cert.ReferenceIdeal.main_arg6 (.inr (.inr (.inr (.inr (.inr (.inr rfl)))))))⟩)
    (Cert.ReferenceIdeal.Val.run (F := Ideal) m' ρ')
  -- what the precondition says of the kernel's arguments
  obtain ⟨hh, hW, hb, ha, hβ, hsrc, hdst⟩ := Cert.PreFacts.of_pre _ _ _ _ _ _ _ (hpre c)
  -- the reference's arguments are the kernel's
  obtain ⟨a0, a1, a2, a3, a4, a5, a6⟩ := hagree c
  have e0 : Cert.ReferenceIdeal.Val.rdH (StableHlo.launchContents m' c) = Cert.KernelIdeal.Val.rdH (Cert.KernelIdeal.Gen.W0 m ρ c) := a0
  have e1 : Cert.ReferenceIdeal.Val.rdSrc (StableHlo.launchContents m' c) = Cert.KernelIdeal.Val.rdSrc (Cert.KernelIdeal.Gen.W0 m ρ c) := a1
  have e2 : Cert.ReferenceIdeal.Val.rdDst (StableHlo.launchContents m' c) = Cert.KernelIdeal.Val.rdDst (Cert.KernelIdeal.Gen.W0 m ρ c) := a2
  have e3 : Cert.ReferenceIdeal.Val.rdW (StableHlo.launchContents m' c) = Cert.KernelIdeal.Val.rdW (Cert.KernelIdeal.Gen.W0 m ρ c) := a3
  have e4 : Cert.ReferenceIdeal.Val.rdB (StableHlo.launchContents m' c) = Cert.KernelIdeal.Val.rdB (Cert.KernelIdeal.Gen.W0 m ρ c) := a4
  have e5 : Cert.ReferenceIdeal.Val.rdA (StableHlo.launchContents m' c) = Cert.KernelIdeal.Val.rdA (Cert.KernelIdeal.Gen.W0 m ρ c) := a5
  have e6 : Cert.ReferenceIdeal.Val.rdBeta (StableHlo.launchContents m' c) = Cert.KernelIdeal.Val.rdBeta (Cert.KernelIdeal.Gen.W0 m ρ c) := a6
  have hsrc' : InRange 100000 (Cert.KernelIdeal.Val.rdSrc (Cert.KernelIdeal.Gen.W0 m ρ c)) := hsrc
  have hdst' : InRange 100000 (Cert.KernelIdeal.Val.rdDst (Cert.KernelIdeal.Gen.W0 m ρ c)) := hdst
  refine (h c Cert.ReferenceIdeal.main_v49).trans ?_
  show Cert.ReferenceIdeal.Val.rdOut (StableHlo.after Cert.ReferenceIdeal.Val.ops (StableHlo.launchContents m' c))
    = Cert.KernelIdeal.Val.rdV40 (Cert.KernelIdeal.Gen.W16 m ρ c)
  funext idx
  obtain ⟨i, k, rfl⟩ : ∃ (i : Fin 100000) (k : Fin 128), idx = ix2 i k := ⟨idx 0, idx 1, eq_ix2 idx⟩
  rw [Cert.ReferenceIdeal.Val.ref_value _ (by rw [e1]; exact hsrc') (by rw [e2]; exact hdst') i k,
    Cert.KernelIdeal.Val.kernel_value m ρ c hsrc' hdst' i k, e0, e1, e2, e3, e4, e5, e6]
  refine congrArg (fun x => agg _ _ _ (attn x) i k) (funext fun e => ?_)
  exact (kscore_eq_rscore _ _ _ _ _ hh hW hb ha hβ _ _ e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
